-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S128x4096 : S_.BroadcastsInDim S128x4096 (![] : Fin 0 → Fin S128x4096.rank)
  reducesTo_S128x4096_S_d0_1 : S128x4096.ReducesTo [0, 1] S_
  bcast_S_S8192x128 : S_.BroadcastsInDim S8192x128 (![] : Fin 0 → Fin S8192x128.rank)
  reducesTo_S8192x128_S_d0_1 : S8192x128.ReducesTo [0, 1] S_
  bcast_S_S512x1x512x1 : S_.BroadcastsInDim S512x1x512x1 (![] : Fin 0 → Fin S512x1x512x1.rank)
  reducesTo_S512x1x512x1_S_d0_1_2_3 : S512x1x512x1.ReducesTo [0, 1, 2, 3] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg8 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg5 : FVec F S512x1x512x1 .f32) (main_arg6 : FVec F S512x1x512x1 .f32) (main_arg7 : FVec F S4096 .f32) (main_arg8 : FVec F S4096 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S512x1x512x1 .f32 := Host.absf main_arg5
  let main_cst_6 : FVec F S_ .f32 := constant S_ .f32 0x7F800000#32
  let main_v20 : FVec F S512x1x512x1 .f32 := broadcastInDim S512x1x512x1 ![] bcast_S_S512x1x512x1 main_cst_6
  let main_v21 : IVec S512x1x512x1 1 := cmpf .olt main_v19 main_v20
  let main_c_7 : IVec S_ 1 := constantI S_ 1 1#1
  let main_v22 : IVec S_ 1 := (fun x v => Host.reduce IntOp.andi x v reducesTo_S512x1x512x1_S_d0_1_2_3 h_S_) main_v21 main_c_7
  let main_v23 : IVec S_ 1 := andi main_v18 main_v22
  let main_v24 : FVec F S512x1x512x1 .f32 := Host.absf main_arg6
  let main_cst_8 : FVec F S_ .f32 := constant S_ .f32 0x7F800000#32
  let main_v25 : FVec F S512x1x512x1 .f32 := broadcastInDim S512x1x512x1 ![] bcast_S_S512x1x512x1 main_cst_8
  let main_v26 : IVec S512x1x512x1 1 := cmpf .olt main_v24 main_v25
  let main_c_9 : IVec S_ 1 := constantI S_ 1 1#1
  let main_v27 : IVec S_ 1 := (fun x v => Host.reduce IntOp.andi x v reducesTo_S512x1x512x1_S_d0_1_2_3 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_v33

def fn {F : FTy → Type} [FloatOps F] (main_arg0 : FVec F S4x2048x4096 .f32) (main_arg1 : IVec S64x64x64x64 32) (main_arg2 : FVec F S4096x256 .f32) (main_arg3 : FVec F S128x4096 .f32) (main_arg4 : FVec F S8192x128 .f32) (main_arg5 : FVec F S512x1x512x1 .f32) (main_arg6 : FVec F S512x1x512x1 .f32) (main_arg7 : FVec F S4096 .f32) (main_arg8 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S128x4096 .f32 := Host.absf main_arg3
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S8192x128 .f32 := Host.absf main_arg4
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg5 main_arg6 main_arg7 main_arg8 main_v13 main_v16
-- ==== Kernel.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S512x8x512x8 : Shape := ⟨4, ![512, 8, 512, 8]⟩
abbrev S8192x4096 : Shape := ⟨2, ![8192, 4096]⟩
abbrev S4096x128 : Shape := ⟨2, ![4096, 128]⟩
abbrev S1x4096 : Shape := ⟨2, ![1, 4096]⟩
abbrev S1024x1024 : Shape := ⟨2, ![1024, 1024]⟩
abbrev S1024x128 : Shape := ⟨2, ![1024, 128]⟩
abbrev S512x1024 : Shape := ⟨2, ![512, 1024]⟩
abbrev S1024x512 : Shape := ⟨2, ![1024, 512]⟩
abbrev S512x128 : Shape := ⟨2, ![512, 128]⟩
abbrev S128x512 : Shape := ⟨2, ![128, 512]⟩
abbrev S1x512 : Shape := ⟨2, ![1, 512]⟩
abbrev S512x512 : Shape := ⟨2, ![512, 512]⟩

abbrev nBuf : Space → Nat
  | .hbm => 58
  | .vmem => 24
  | .smem => 0
  | _ => 0

abbrev bufTy : (tb : Table) → Fin (tcTables nBuf tb) → BufTy
  | .hbm, ⟨0, _⟩ => ⟨S4x2048x4096, .f32⟩
  | .hbm, ⟨1, _⟩ => ⟨S64x64x64x64, .i32⟩
  | .hbm, ⟨2, _⟩ => ⟨S4096x256, .f32⟩
  | .hbm, ⟨3, _⟩ => ⟨S128x4096, .f32⟩
  | .hbm, ⟨4, _⟩ => ⟨S8192x128, .f32⟩
  | .hbm, ⟨5, _⟩ => ⟨S512x1x512x1, .f32⟩
  | .hbm, ⟨6, _⟩ => ⟨S512x1x512x1, .f32⟩
  | .hbm, ⟨7, _⟩ => ⟨S4096, .f32⟩
  | .hbm, ⟨8, _⟩ => ⟨S4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S1, .i32⟩
  | .hbm, ⟨19, _⟩ => ⟨S_, .i32⟩
  | .hbm, ⟨20, _⟩ => ⟨S4096x4096x1, .i32⟩
  | .hbm, ⟨21, _⟩ => ⟨S4096x4096x1, .i1⟩
  | .hbm, ⟨22, _⟩ => ⟨S1x1x1, .i32⟩
  | .hbm, ⟨23, _⟩ => ⟨S4096x4096x1, .i32⟩
  | .hbm, ⟨24, _⟩ => ⟨S4096x4096x1, .i1⟩
  | .hbm, ⟨25, _⟩ => ⟨S4096x4096x1, .i1⟩
  | .hbm, ⟨26, _⟩ => ⟨S_, .i1⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S64x64x64x64, .f32⟩
  | .hbm, ⟨33, _⟩ => ⟨S64x64x64x64, .f32⟩
  | .hbm, ⟨34, _⟩ => ⟨S4096x4096, .f32⟩
  | .hbm, ⟨35, _⟩ => ⟨S512x8x512x8, .f32⟩
  | .hbm, ⟨36, _⟩ => ⟨S512x8x512x8, .f32⟩
  | .hbm, ⟨37, _⟩ => ⟨S512x8x512x8, .f32⟩
  | .hbm, ⟨38, _⟩ => ⟨S512x8x512x8, .f32⟩
  | .hbm, ⟨39, _⟩ => ⟨S512x8x512x8, .f32⟩
  | .hbm, ⟨40, _⟩ => ⟨S4096x4096, .f32⟩
  | .hbm, ⟨41, _⟩ => ⟨S4096x4096, .f32⟩
  | .hbm, ⟨42, _⟩ => ⟨S4096x4096, .bf16⟩
  | .hbm, ⟨43, _⟩ => ⟨S8192x4096, .f32⟩
  | .hbm, ⟨44, _⟩ => ⟨S8192x4096, .bf16⟩
  | .hbm, ⟨45, _⟩ => ⟨S4096x128, .f32⟩
  | .hbm, ⟨46, _⟩ => ⟨S4096x128, .bf16⟩
  | .hbm, ⟨47, _⟩ => ⟨S4096x128, .f32⟩
  | .hbm, ⟨48, _⟩ => ⟨S128x4096, .f32⟩
  | .hbm, ⟨49, _⟩ => ⟨S128x4096, .bf16⟩
  | .hbm, ⟨50, _⟩ => ⟨S4096x128, .f32⟩
  | .hbm, ⟨51, _⟩ => ⟨S128x4096, .f32⟩
  | .hbm, ⟨52, _⟩ => ⟨S128x4096, .bf16⟩
  | .hbm, ⟨53, _⟩ => ⟨S1x4096, .f32⟩
  | .hbm, ⟨54, _⟩ => ⟨S1x4096, .f32⟩
  | .hbm, ⟨55, _⟩ => ⟨S8192x128, .bf16⟩
  | .hbm, ⟨56, _⟩ => ⟨S8192x4096, .f32⟩
  | .hbm, ⟨57, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x128, .bf16⟩
  | .local _ .vmem, ⟨12, _⟩ => ⟨S512x128, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  shapeCasts_S64x64x64x64_S4096x4096 : S64x64x64x64.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S64x64x64x64 : S4096x4096.ShapeCasts S64x64x64x64
  transposes_S64x64x64x64_S64x64x64x64_0_2_1_3 : S64x64x64x64.Transposes [0, 2, 1, 3] S64x64x64x64
  shapeCasts_S4096x4096_S512x8x512x8 : S4096x4096.ShapeCasts S512x8x512x8
  bcast_S512x1x512x1_S512x8x512x8_0_1_2_3 : S512x1x512x1.BroadcastsInDim S512x8x512x8 (![0, 1, 2, 3] : Fin 4 → Fin S512x8x512x8.rank)
  shapeCasts_S512x8x512x8_S4096x4096 : S512x8x512x8.ShapeCasts S4096x4096
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  transposes_S128x4096_S4096x128_1_0 : S128x4096.Transposes [1, 0] S4096x128
  slices_S8192x128_S4096x128_0_0 : S8192x128.Slices ![0, 0] S4096x128
  transposes_S4096x128_S128x4096_1_0 : S4096x128.Transposes [1, 0] S128x4096
  slices_S8192x128_S4096x128_4096_0 : S8192x128.Slices ![4096, 0] S4096x128
  shapeCasts_S4096_S1x4096 : S4096.ShapeCasts S1x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x128_S1024x128_0_0 : (Rect.unit (s := S1024x128) ![0, 0] S1024x128.size inb_S1024x128_S1024x128_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  gather_S4096x256_S4096x4096x1_S4096x4096_n_1_0_0_1_2_11_wf : GatherDims.WF S4096x256 S4096x4096x1 S4096x4096 [] [1] [0] [1] [0] 2 ![1, 1]
  dot_S1024x1024_S1024x128_S1024x128_1_0_0_1_n_n_wf : DotDims.WF S1024x1024 S1024x128 S1024x128 [1] [0] [0] [1] [] []
  dot_S512x1024_S1024x512_S512x512_1_0_0_1_n_n_wf : DotDims.WF S512x1024 S1024x512 S512x512 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .bf16 = 32 ∨ (Rect.block (s := S8192x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .bf16 = 32 ∨ (Rect.block (s := S8192x128) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x4096.size a
  hwx1_3 : ∀ i : grid1.Coords, EltTy.bits .bf16 = 32 ∨ (Rect.block (s := S128x4096) S128x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x4096.size a
  hwx1_4 : ∀ i : grid1.Coords, EltTy.bits .bf16 = 32 ∨ (Rect.block (s := S128x4096) S128x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x4096.size a
  hwx1_6 : ∀ i : grid1.Coords, EltTy.bits .f32 = 32 ∨ (Rect.block (s := S1x4096) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S8192x4096.size a
  hwx1_7 : ∀ i : grid1.Coords, EltTy.bits .f32 = 32 ∨ (Rect.block (s := S8192x4096) S512x512.size (cc1_transform_7 i) (hinb1_7 i)).WholeWords (EltTy.packing .f32)

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26) S512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S512x8x512x8 : Shape := ⟨4, ![512, 8, 512, 8]⟩
abbrev S4x2048x128 : Shape := ⟨3, ![4, 2048, 128]⟩
abbrev S8192 : Shape := ⟨1, ![8192]⟩
abbrev S4x2048x8192 : Shape := ⟨3, ![4, 2048, 8192]⟩
abbrev S1x1x8192 : Shape := ⟨3, ![1, 1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S64x64x64x64, .i32⟩
  | .hbm, ⟨2, _⟩ => ⟨S4096x256, .f32⟩
  | .hbm, ⟨3, _⟩ => ⟨S128x4096, .f32⟩
  | .hbm, ⟨4, _⟩ => ⟨S8192x128, .f32⟩
  | .hbm, ⟨5, _⟩ => ⟨S512x1x512x1, .f32⟩
  | .hbm, ⟨6, _⟩ => ⟨S512x1x512x1, .f32⟩
  | .hbm, ⟨7, _⟩ => ⟨S4096, .f32⟩
  | .hbm, ⟨8, _⟩ => ⟨S4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S1, .i32⟩
  | .hbm, ⟨19, _⟩ => ⟨S_, .i32⟩
  | .hbm, ⟨20, _⟩ => ⟨S4096x4096x1, .i32⟩
  | .hbm, ⟨21, _⟩ => ⟨S4096x4096x1, .i1⟩
  | .hbm, ⟨22, _⟩ => ⟨S1x1x1, .i32⟩
  | .hbm, ⟨23, _⟩ => ⟨S4096x4096x1, .i32⟩
  | .hbm, ⟨24, _⟩ => ⟨S4096x4096x1, .i1⟩
  | .hbm, ⟨25, _⟩ => ⟨S4096x4096x1, .i1⟩
  | .hbm, ⟨26, _⟩ => ⟨S_, .i1⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S64x64x64x64, .f32⟩
  | .hbm, ⟨33, _⟩ => ⟨S64x64x64x64, .f32⟩
  | .hbm, ⟨34, _⟩ => ⟨S4096x4096, .f32⟩
  | .hbm, ⟨35, _⟩ => ⟨S512x8x512x8, .f32⟩
  | .hbm, ⟨36, _⟩ => ⟨S512x8x512x8, .f32⟩
  | .hbm, ⟨37, _⟩ => ⟨S512x8x512x8, .f32⟩
  | .hbm, ⟨38, _⟩ => ⟨S512x8x512x8, .f32⟩
  | .hbm, ⟨39, _⟩ => ⟨S512x8x512x8, .f32⟩
  | .hbm, ⟨40, _⟩ => ⟨S4096x4096, .f32⟩
  | .hbm, ⟨41, _⟩ => ⟨S4x2048x4096, .f32⟩
  | .hbm, ⟨42, _⟩ => ⟨S4x2048x128, .f32⟩
  | .hbm, ⟨43, _⟩ => ⟨S8192, .f32⟩
  | .hbm, ⟨44, _⟩ => ⟨S4x2048x8192, .f32⟩
  | .hbm, ⟨45, _⟩ => ⟨S1x1x8192, .f32⟩
  | .hbm, ⟨46, _⟩ => ⟨S4x2048x8192, .f32⟩
  | .hbm, ⟨47, _⟩ => ⟨S4x2048x8192, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  shapeCasts_S64x64x64x64_S4096x4096 : S64x64x64x64.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S64x64x64x64 : S4096x4096.ShapeCasts S64x64x64x64
  transposes_S64x64x64x64_S64x64x64x64_0_2_1_3 : S64x64x64x64.Transposes [0, 2, 1, 3] S64x64x64x64
  shapeCasts_S4096x4096_S512x8x512x8 : S4096x4096.ShapeCasts S512x8x512x8
  bcast_S512x1x512x1_S512x8x512x8_0_1_2_3 : S512x1x512x1.BroadcastsInDim S512x8x512x8 (![0, 1, 2, 3] : Fin 4 → Fin S512x8x512x8.rank)
  shapeCasts_S512x8x512x8_S4096x4096 : S512x8x512x8.ShapeCasts S4096x4096
  concatenates_S4096_S4096_S8192_d0 : Shape.Concatenates [S4096, S4096] S8192 0
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  slices_S4x2048x8192_S4x2048x4096_0_0_0 : S4x2048x8192.Slices ![0, 0, 0] S4x2048x4096
  slices_S4x2048x8192_S4x2048x4096_0_0_4096 : S4x2048x8192.Slices ![0, 0, 4096] S4x2048x4096
  gather_S4096x256_S4096x4096x1_S4096x4096_n_1_0_0_1_2_11_wf : GatherDims.WF S4096x256 S4096x4096x1 S4096x4096 [] [1] [0] [1] [0] 2 ![1, 1]
  dot_S4x2048x4096_S4096x4096_S4x2048x4096_2_1_01_0_n_n_wf : DotDims.WF S4x2048x4096 S4096x4096 S4x2048x4096 [2] [1] [0, 1] [0] [] []
  dot_S4x2048x4096_S128x4096_S4x2048x128_2_1_01_0_n_n_wf : DotDims.WF S4x2048x4096 S128x4096 S4x2048x128 [2] [1] [0, 1] [0] [] []
  dot_S4x2048x128_S8192x128_S4x2048x8192_2_1_01_0_n_n_wf : DotDims.WF S4x2048x128 S8192x128 S4x2048x8192 [2] [1] [0, 1] [0] [] []

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S128x4096_S4x2048x128_2_1_01_0_n_n : DotDims S4x2048x4096 S128x4096 S4x2048x128 where
  lhsContracting := [2]
  rhsContracting := [1]
  lhsNonContracting := [0, 1]
  rhsNonContracting := [0]
  lhsBatch := []
  rhsBatch := []
  wf := dot_S4x2048x4096_S128x4096_S4x2048x128_2_1_01_0_n_n_wf
def dot_S4x2048x128_S8192x128_S4x2048x8192_2_1_01_0_n_n : DotDims S4x2048x128 S8192x128 S4x2048x8192 where
  lhsContracting := [2]
  rhsContracting := [1]
  lhsNonContracting := [0, 1]
  rhsNonContracting := [0]
  lhsBatch := []
  rhsBatch := []
  wf := dot_S4x2048x128_S8192x128_S4x2048x8192_2_1_01_0_n_n_wf

class Facts : Prop extends Facts₀ where

variable [Facts]
-- ==== Proof.K.R0Base.lean ====
/- The first pallas_call (the low-rank projection h = x · Aᵀ accumulated over four blocks of the contracted axis),
   what its frame proof shares: a window's block read off its array; that an input's staging buffer holds its block
   at every grid point; the two branch conditions of the body in closed form over the grid (the accumulator is
   reset where the contraction index k = t mod 4 is 0, the result is stored where k = 3); where the output window
   is idle; and the class invariant with the accumulator buffer split off the other scoped buffers. -/
import proofs.«135921_j83004537962674_1_alg».proof.Proof.Gen.Kernel.Launch
import proofs.«135921_j83004537962674_1_alg».proof.Proof.Gen.Kernel.Skeleton
import proofs.«135921_j83004537962674_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds block (t / 4, t mod 4) of x at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The factor's staging buffer holds block (t mod 4, 0) of Aᵀ at every point. -/
theorem before_a_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end

/-! ## The body's two branches over the grid -/

/-- The accumulator is reset: the contraction coordinate is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The result block is stored: the contraction coordinate is 3, the last. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_a : ∀ t : Fin cfg0.N, cfg0.idle 1 (grid0.coords t) = false := by decide +kernel
/-- Away from the last contraction block the output window is idle and not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev mX (t : Fin cfg0.N) : Memref sig .tc .vmem S1024x1024 .bf16 := win0_0.stage (cfg0.slots t 0)
abbrev hX (t : Fin cfg0.N) : (mX t).IsWhole := hstage0_0 ((cfg0.slots t 0).cast nbuf0_0)
abbrev mA (t : Fin cfg0.N) : Memref sig .tc .vmem S1024x128 .bf16 := win0_1.stage (cfg0.slots t 1)
abbrev hA (t : Fin cfg0.N) : (mA t).IsWhole := hstage0_1 ((cfg0.slots t 1).cast nbuf0_1)
abbrev mO (t : Fin cfg0.N) : Memref sig .tc .vmem S1024x128 .bf16 := win0_2.stage (cfg0.slots t 2)
abbrev hO (t : Fin cfg0.N) : (mO t).IsWhole := hstage0_2 ((cfg0.slots t 2).cast nbuf0_2)
/-- The accumulator: a scoped buffer of the kernel's own, carried from point to point. -/
abbrev mAcc : Memref sig .tc .vmem S1024x128 .f32 := Memref.whole cc0_scratch0
abbrev vAcc : View sig .tc .vmem S1024x128 .f32 := mAcc.view
abbrev vOut : View sig .tc .vmem S1024x128 .bf16 := (Memref.whole cc0_stg2_0 : Memref sig .tc .vmem S1024x128 .bf16).view

/-- The scoped buffers that are neither staged by this call nor its accumulator, each at some contents. -/
abbrev others (c : Dev nD) : sProp 𝕄 :=
  Pipeline.scopedRestBut (Ix := Unit) (Name := ℕ) (U := UR sig nD τ) (Lvl := ℕ) (Val := Elt F) spec0 c [cc0_scratch0]

/-- The class invariant with the accumulator split off. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA
  rw [Pipeline.scopedRest_split_of_list spec0 c [cc0_scratch0] (by decide) (by decide)]
  simp only [mAcc, owns_whole, bigSepL]
  rfl

end Cert.Kernel.Reg0

end
-- ==== Proof.K.R0RunFirst.lean ====
/- The first pallas_call's body at a point that opens a contraction (k = 0): the accumulator is overwritten with zeros, then with zeros plus the product of the two input blocks; nothing is stored into the output window, whose buffer is handed back as it was. The list of pieces the accumulator ends with is found by running the body. -/
import proofs.«135921_j83004537962674_1_alg».proof.Proof.K.R0Base

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) :
    { LS : List (View.Piece (Elt F) S1024x128 .f32) //
      ∀ (xo : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, fun xo E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Reg0

end
-- ==== Proof.K.R0RunMid.lean ====
/- The first pallas_call's body at a point inside a contraction (k = 1, 2): the accumulator, found at what the point before left, is overwritten with itself plus the product of the two input blocks; the output window's buffer is handed back as it was. -/
import proofs.«135921_j83004537962674_1_alg».proof.Proof.K.R0RunFirst

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) :
    { LS : List (View.Piece (Elt F) S1024x128 .f32) //
      ∀ (xo : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, fun xo E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Reg0

end
-- ==== Proof.K.R0RunLast.lean ====
/- The first pallas_call's body at a point that closes a contraction (k = 3): the accumulator, found at what the point before left, is overwritten with itself plus the product of the two input blocks, and its new contents, narrowed, are stored over the whole output block. -/
import proofs.«135921_j83004537962674_1_alg».proof.Proof.K.R0RunMid

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, ?_, fun E K => ?run⟩
  case run =>
    simp only [cc0__hid_kernel_eq_skeleton]; unfold cc0__hid_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Reg0

end
-- ==== Proof.K.R0.lean ====
/- The first pallas_call, h = x · Aᵀ: what its accumulator and its output block hold after each grid point, the
   call's proof data and the body obligation at every point.
   The grid is (row block m, contraction block k), visited with k fastest: point t has m = t / 4 and k = t mod 4.
   After point t the accumulator holds the sum of the products of the input blocks at the points of the same row
   block up to t (the run restarts at every k = 0); the output block is stored only at k = 3 and written back there. -/
import proofs.«135921_j83004537962674_1_alg».proof.Proof.K.R0RunLast

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What a point leaves in the accumulator and in the output block -/

theorem cover_first (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y

/-- The accumulator after a point with k = 0. -/
def accFirst (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) : Vec F S1024x128 .f32 :=
  vAcc.read (Elt F) (vAcc.writes (Elt F) vAcc.junk (runFirst c i arg2 harg2 arg3 harg3 arg4 harg4 arg5 harg5 hc0 hc1 x0 x1).1)

theorem cover_mid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y

/-- The accumulator after a point with k = 1 or 2, over what the point before left. -/
def accMid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) : Vec F S1024x128 .f32 :=
  vAcc.read (Elt F) (vAcc.writes (Elt F) vAcc.junk (runMid c i arg2 harg2 arg3 harg3 arg4 harg4 arg5 harg5 hc0 hc1 x0 x1 xs).1)

theorem cover_last_acc (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y

theorem cover_last_out (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y

/-- The accumulator after a point with k = 3, over what the point before left. -/
def accLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) : Vec F S1024x128 .f32 :=
  vAcc.read (Elt F) (vAcc.writes (Elt F) vAcc.junk (runLast c i arg2 harg2 arg3 harg3 arg4 harg4 arg5 harg5 hc0 hc1 x0 x1 xs).2.1)

/-- The output block after a point with k = 3. -/
def outLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) : Vec F S1024x128 .bf16 :=
  vOut.read (Elt F) (vOut.writes (Elt F) vOut.junk (runLast c i arg2 harg2 arg3 harg3 arg4 harg4 arg5 harg5 hc0 hc1 x0 x1 xs).1)

/-! ## The accumulation, point by point -/

/-- What the accumulator holds after the body at position `n`. -/
def accAt (c : Dev nD) : (n : ℕ) → n < cfg0.N → Vec F S1024x128 .f32
  | 0, hn => accFirst c (grid0.coords ⟨0, hn⟩) (mX ⟨0, hn⟩) (hX ⟨0, hn⟩) (mA ⟨0, hn⟩) (hA ⟨0, hn⟩) (mO ⟨0, hn⟩) (hO ⟨0, hn⟩) mAcc (Memref.isWhole_whole _) ((isFirst_iff ⟨0, hn⟩).mpr (Nat.zero_mod _)) (fun h => by have := (isLast_iff ⟨0, hn⟩).mp h; (try dsimp only at this); omega) (iblk V c 0 ⟨0, hn⟩) (iblk V c 1 ⟨0, hn⟩)
  | n + 1, hn =>
    if h0 : (n + 1) % 4 = 0 then
      accFirst c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) ((isFirst_iff ⟨n + 1, hn⟩).mpr h0) (fun h => by have := (isLast_iff ⟨n + 1, hn⟩).mp h; (try dsimp only at this); omega) (iblk V c 0 ⟨n + 1, hn⟩) (iblk V c 1 ⟨n + 1, hn⟩)
    else if h1 : (n + 1) % 4 = 3 then
      accLast c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (accAt c n (Nat.lt_of_succ_lt hn))
    else
      accMid c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

theorem accAt_first (c : Dev nD) (t : Fin cfg0.N) (h0 : t.val % 4 = 0) (h1 : ¬t.val % 4 = 3) :
    accAt V c t.val t.isLt = accFirst c (grid0.coords t) (mX t) (hX t) (mA t) (hA t) (mO t) (hO t) mAcc (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg0.N) (h0 : ¬t.val % 4 = 0) (h1 : ¬t.val % 4 = 3) :
    accAt V c t.val t.isLt = accMid c (grid0.coords t) (mX t) (hX t) (mA t) (hA t) (mO t) (hO t) mAcc (Memref.isWhole_whole _) (fun h => h0 ((isFirst_iff t).mp h)) (fun h => h1 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (mX t) (hX t) (mA t) (hA t) (mO t) (hO t) mAcc (Memref.isWhole_whole _) (fun h => h0 ((isFirst_iff t).mp h)) ((isLast_iff t).mpr h1) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at point `t`: the stored block where k = 3; elsewhere the
    window is idle and nothing reads this value. -/
def outAt (c : Dev nD) (t : Fin cfg0.N) : Vec F S1024x128 .bf16 :=
  if h1 : t.val % 4 = 3 then
    outLast c (grid0.coords t) (mX t) (hX t) (mA t) (hA t) (mO t) (hO t) mAcc (Memref.isWhole_whole _) (fun h => by have := (isFirst_iff t).mp h; omega) ((isLast_iff t).mpr h1) (iblk V c 0 t) (iblk V c 1 t)
      (accAt V c (t.val - 1) (Nat.lt_of_le_of_lt (Nat.sub_le _ _) t.isLt))
  else vOut.read (Elt F) vOut.junk

/-! ## The invariant and the proof data -/

/-- Before position `n`: at the start the class invariant (every scoped buffer at anything); afterwards the accumulator
    at what the point before left, the other scoped buffers at anything, the generator register at some state. -/
def Inv (c : Dev nD) : (n : ℕ) → n ≤ cfg0.N → sProp 𝕄
  | 0, _ => Pipeline.ΦA spec0 c
  | n + 1, hn => iprop(iprop(owns (c : Thread nD τ) mAcc fullShare (accAt V c n hn) ∗ others (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) mAcc fullShare (accAt V c n hn) ∗ others (F := F) c) ∗ (∃ r, prngReg c r)) := rfl

theorem Inv_pos (c : Dev nD) (n : ℕ) (h : n ≤ cfg0.N) (hz : n ≠ 0) :
    Inv V c n h = iprop(iprop(owns (c : Thread nD τ) mAcc fullShare (accAt V c (n - 1) (by omega)) ∗ others (F := F) c) ∗ (∃ r, prngReg c r)) := by
  cases n with
  | zero => exact absurd rfl hz
  | succ n => rfl

/-- The call's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := Inv V c t.val (Nat.le_of_lt_succ t.isLt)
  q _ := fullShare
  owed _ := 0

theorem A_eq (c : Dev nD) (w : Fin cfg0.W) : (dat V c).A w = V c (Pipeline.arrRef spec0 w) := by
  dsimp only [dat]

theorem Inv_castSucc (c : Dev nD) (t : Fin cfg0.N) :
    (dat V c).Φ t.castSucc = Inv V c t.val (Nat.le_of_lt t.isLt) := by
  dsimp only [dat]; simp only [Fin.coe_castSucc]

theorem after_x (c : Dev nD) (t : Fin cfg0.N) : (dat V c).after 0 t = iblk V c 0 t := by dsimp only [dat]
theorem after_a (c : Dev nD) (t : Fin cfg0.N) : (dat V c).after 1 t = iblk V c 1 t := by dsimp only [dat]
theorem after_out (c : Dev nD) (t : Fin cfg0.N) : (dat V c).after 2 t = outAt V c t := by dsimp only [dat]

theorem before_x (c : Dev nD) (t : Fin cfg0.N) (d) : (dat V c).before 0 t d = iblk V c 0 t :=
  before_x_of V (dat V c) (A_eq V c 0) (after_x V c) t d
theorem before_a (c : Dev nD) (t : Fin cfg0.N) (d) : (dat V c).before 1 t d = iblk V c 1 t :=
  before_a_of V (dat V c) (A_eq V c 1) (after_a V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mA t) fullShare ((dat V c).before 1 t d))
    ∗ (∃ d, owns (c : Thread nD τ) (mO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_a]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (mX t) fullShare ((dat V c).after 0 t) from by
    unfold Dat.leavesExact; rw [live_x t], after_x]
  rw [show (dat V c).leavesExact 1 t = owns (c : Thread nD τ) (mA t) fullShare ((dat V c).after 1 t) from by
    unfold Dat.leavesExact; rw [live_a t], after_a]
  by_cases h0 : t.val % 4 = 0
  · have h1 : ¬t.val % 4 = 3 := by omega
    have hnl : ¬isLast (grid0.coords t) := fun h => h1 ((isLast_iff t).mp h)
    rw [Dat.leavesExact_idle (dat V c) 2 t (idle_out t hnl) (noFlush_out t hnl)]
    rw [accAt_first V c t h0 h1]
    unfold accFirst; (try dsimp only)
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _)
          iexact Hoth
        iexact Hg
      isplitl [Ho]; · iexact Ho
      isplitl [H0]; · iexact H0
      isplitl [H1]; · iexact H1
      iexists _; iexact H2
    · rw [Inv_castSucc V c t, Inv_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnf : ¬isFirst (grid0.coords t) := fun h => h0 ((isFirst_iff t).mp h)
    by_cases h1 : t.val % 4 = 3
    · have hl : isLast (grid0.coords t) := (isLast_iff t).mpr h1
      rw [show (dat V c).leavesExact 2 t = owns (c : Thread nD τ) (mO t) fullShare ((dat V c).after 2 t) from by
        unfold Dat.leavesExact; rw [live_out t hl], after_out]
      rw [show outAt V c t = outLast c (grid0.coords t) (mX t) (hX t) (mA t) (hA t) (mO t) (hO t) mAcc (Memref.isWhole_whole _) hnf hl (iblk V c 0 t) (iblk V c 1 t)
        (accAt V c (t.val - 1) (Nat.lt_of_le_of_lt (Nat.sub_le _ _) t.isLt)) from dif_pos h1]
      rw [accAt_last V c t h0 h1]
      unfold outLast accLast; (try dsimp only)
      rw [Inv_castSucc V c t, Inv_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_last_acc c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hnl : ¬isLast (grid0.coords t) := fun h => h1 ((isLast_iff t).mp h)
      rw [Dat.leavesExact_idle (dat V c) 2 t (idle_out t hnl) (noFlush_out t hnl)]
      rw [accAt_mid V c t h0 h1]
      unfold accMid; (try dsimp only)
      rw [Inv_castSucc V c t, Inv_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ hnf hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_mid c _ _ _ _ _ _ _ _ _ _ _ _ _ _)
          iexact Hoth
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

/-- Entering: the class invariant is the invariant before the first point. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- Leaving: the accumulator's contents are forgotten. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨HS, Hoth⟩, Hg⟩
  isplitl [HS Hoth]
  · isplitl [HS]
    · iexists _; iexact HS
    iexact Hoth
  iexact Hg

end

end Cert.Kernel.Reg0

end
-- ==== Proof.K.R1Base.lean ====
/- The second pallas_call (out = (h·Baᵀ + t) + (h·Bmᵀ + s) · (x·Wᵀ), the dense product accumulated over four blocks
   of the contracted axis), what its frame proof shares: a window's block read off its array; that each of the seven
   inputs' staging buffers holds its block at every grid point, fetched there or not; the two branch conditions of
   the body in closed form over the grid (the accumulator is reset where the contraction index k = t mod 4 is 0, the
   result block is stored where k = 3); where the output window is idle; and the class invariant with the
   accumulator buffer split off the other scoped buffers. -/
import proofs.«135921_j83004537962674_1_alg».proof.Proof.Gen.Kernel.Launch
import proofs.«135921_j83004537962674_1_alg».proof.Proof.Gen.Kernel.Skeleton
import proofs.«135921_j83004537962674_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds block (m, k) of x at every point. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's staging buffer holds block (k, n) of Wᵀ at every point. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The hidden activations' staging buffer holds block (m, 0) of h at every point, fetched there or not. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The multiplicative factor's staging buffer holds block (0, n) at every point, fetched there or not. -/
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The additive factor's staging buffer holds block (0, n) at every point, fetched there or not. -/
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The scale's staging buffer holds block (0, n) at every point, fetched there or not. -/
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The bias's staging buffer holds block (0, n) at every point, fetched there or not. -/
theorem before_in6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branches over the grid -/

/-- The accumulator is reset: the contraction coordinate is 0. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The result block is stored: the contraction coordinate is 3, the last. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
theorem live_in3 : ∀ t : Fin cfg1.N, cfg1.idle 3 (grid1.coords t) = false := fun _ => rfl
theorem live_in4 : ∀ t : Fin cfg1.N, cfg1.idle 4 (grid1.coords t) = false := fun _ => rfl
theorem live_in5 : ∀ t : Fin cfg1.N, cfg1.idle 5 (grid1.coords t) = false := fun _ => rfl
theorem live_in6 : ∀ t : Fin cfg1.N, cfg1.idle 6 (grid1.coords t) = false := fun _ => rfl
/-- Away from the last contraction block the output window is idle and not written back. -/
theorem idle_out : ∀ t : Fin cfg1.N, ¬isLast (grid1.coords t) → cfg1.idle 7 (grid1.coords t) = true := by decide +kernel
theorem noFlush_out : ∀ t : Fin cfg1.N, ¬isLast (grid1.coords t) → (cfg1.win 7).flush t = false := by decide +kernel
theorem live_out : ∀ t : Fin cfg1.N, isLast (grid1.coords t) → cfg1.idle 7 (grid1.coords t) = false := by decide +kernel

/-! ## The memrefs the body is called with -/

abbrev mX (t : Fin cfg1.N) : Memref sig .tc .vmem S512x1024 .bf16 := win1_0.stage (cfg1.slots t 0)
abbrev hX (t : Fin cfg1.N) : (mX t).IsWhole := hstage1_0 ((cfg1.slots t 0).cast nbuf1_0)
abbrev mW (t : Fin cfg1.N) : Memref sig .tc .vmem S1024x512 .bf16 := win1_1.stage (cfg1.slots t 1)
abbrev hW (t : Fin cfg1.N) : (mW t).IsWhole := hstage1_1 ((cfg1.slots t 1).cast nbuf1_1)
abbrev mH (t : Fin cfg1.N) : Memref sig .tc .vmem S512x128 .bf16 := win1_2.stage (cfg1.slots t 2)
abbrev hH (t : Fin cfg1.N) : (mH t).IsWhole := hstage1_2 ((cfg1.slots t 2).cast nbuf1_2)
abbrev mBm (t : Fin cfg1.N) : Memref sig .tc .vmem S128x512 .bf16 := win1_3.stage (cfg1.slots t 3)
abbrev hBm (t : Fin cfg1.N) : (mBm t).IsWhole := hstage1_3 ((cfg1.slots t 3).cast nbuf1_3)
abbrev mBa (t : Fin cfg1.N) : Memref sig .tc .vmem S128x512 .bf16 := win1_4.stage (cfg1.slots t 4)
abbrev hBa (t : Fin cfg1.N) : (mBa t).IsWhole := hstage1_4 ((cfg1.slots t 4).cast nbuf1_4)
abbrev mSc (t : Fin cfg1.N) : Memref sig .tc .vmem S1x512 .f32 := win1_5.stage (cfg1.slots t 5)
abbrev hSc (t : Fin cfg1.N) : (mSc t).IsWhole := hstage1_5 ((cfg1.slots t 5).cast nbuf1_5)
abbrev mBi (t : Fin cfg1.N) : Memref sig .tc .vmem S1x512 .f32 := win1_6.stage (cfg1.slots t 6)
abbrev hBi (t : Fin cfg1.N) : (mBi t).IsWhole := hstage1_6 ((cfg1.slots t 6).cast nbuf1_6)
abbrev mO (t : Fin cfg1.N) : Memref sig .tc .vmem S512x512 .f32 := win1_7.stage (cfg1.slots t 7)
abbrev hO (t : Fin cfg1.N) : (mO t).IsWhole := hstage1_7 ((cfg1.slots t 7).cast nbuf1_7)
/-- The accumulator: a scoped buffer of the kernel's own, carried from point to point. -/
abbrev mAcc : Memref sig .tc .vmem S512x512 .f32 := Memref.whole cc1_scratch0
abbrev vAcc : View sig .tc .vmem S512x512 .f32 := mAcc.view
abbrev vOut : View sig .tc .vmem S512x512 .f32 := (Memref.whole cc1_stg7_0 : Memref sig .tc .vmem S512x512 .f32).view

/-- The scoped buffers that are neither staged by this call nor its accumulator, each at some contents. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA
  rw [Pipeline.scopedRest_split_of_list spec1 c [cc1_scratch0] (by decide) (by decide)]
  simp only [mAcc, owns_whole, bigSepL]
  rfl

end Cert.Kernel.Reg1

end
-- ==== Proof.K.R1RunFirst.lean ====
/- The second pallas_call's body at a point that opens a contraction (k = 0): the accumulator is overwritten with zeros, then with zeros plus the product of the activation and weight blocks; nothing is stored into the output window, whose buffer is handed back as it was. The list of pieces the accumulator ends with is found by running the body. -/
import proofs.«135921_j83004537962674_1_alg».proof.Proof.K.R1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) :
    { LS : List (View.Piece (Elt F) S512x512 .f32) //
      ∀ (xo : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun xo E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]
    · iexists _; isplitr; · ipureintro; exact harg10.read_unread _
      iexact HO
    iexists _; iexact HS

end Cert.Kernel.Reg1

end
-- ==== Proof.K.R1RunMid.lean ====
/- The second pallas_call's body at a point inside a contraction (k = 1, 2): the accumulator, found at what the point before left, is overwritten with itself plus the product of the activation and weight blocks; the output window's buffer is handed back as it was. -/
import proofs.«135921_j83004537962674_1_alg».proof.Proof.K.R1RunFirst

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    { LS : List (View.Piece (Elt F) S512x512 .f32) //
      ∀ (xo : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun xo E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfo; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]
    · iexists _; isplitr; · ipureintro; exact harg10.read_unread _
      iexact HO
    iexists _; iexact HS

end Cert.Kernel.Reg1

end
-- ==== Proof.K.R1RunLast.lean ====
/- The second pallas_call's body at a point that closes a contraction (k = 3): the accumulator, found at what the point before left, is overwritten with itself plus the product of the activation and weight blocks; then the two low-rank products of the hidden block are formed, scale and bias added along the rows, and (additive) + (multiplicative) · (accumulator) is stored over the whole output block. -/
import proofs.«135921_j83004537962674_1_alg».proof.Proof.K.R1RunMid

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    Σ' (LO : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]; · iexists _; iexact HO
    iexists _; iexact HS

end Cert.Kernel.Reg1

end
-- ==== Proof.K.R1.lean ====
/- The second pallas_call, out = (h·Baᵀ + t) + (h·Bmᵀ + s) · (x·Wᵀ): what its accumulator and its output block hold
   after each grid point, the call's proof data and the body obligation at every point.
   The grid is (row block m, column block n, contraction block k), visited with k fastest: point t has k = t mod 4.
   After point t the accumulator holds the sum of the products of the activation and weight blocks at the points of
   the same (m, n) up to t (the run restarts at every k = 0); the output block is stored only at k = 3, from the
   accumulator and the five blocks that do not depend on k, and is written back there. -/
import proofs.«135921_j83004537962674_1_alg».proof.Proof.K.R1RunLast

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What a point leaves in the accumulator and in the output block -/

theorem cover_first (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (y : S512x512.Idx) :
    ∃ pc ∈ (runFirst c i arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3 x4 x5 x6).1 S512x512.size (by sl_kernel_rfl) y

/-- The accumulator after a point with k = 0. -/
def accFirst (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) : Vec F S512x512 .f32 :=
  vAcc.read (Elt F) (vAcc.writes (Elt F) vAcc.junk (runFirst c i arg3 harg3 arg4 harg4 arg5 harg5 arg6 harg6 arg7 harg7 arg8 harg8 arg9 harg9 arg10 harg10 arg11 harg11 hc0 hc1 x0 x1 x2 x3 x4 x5 x6).1)

theorem cover_mid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runMid c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (runMid c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

/-- The accumulator after a point with k = 1 or 2, over what the point before left. -/
def accMid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vAcc.read (Elt F) (vAcc.writes (Elt F) vAcc.junk (runMid c i arg3 harg3 arg4 harg4 arg5 harg5 arg6 harg6 arg7 harg7 arg8 harg8 arg9 harg9 arg10 harg10 arg11 harg11 hc0 hc1 x0 x1 x2 x3 x4 x5 x6 xs).1)

theorem cover_last_acc (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runLast c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

theorem cover_last_out (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runLast c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

/-- The accumulator after a point with k = 3, over what the point before left. -/
def accLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vAcc.read (Elt F) (vAcc.writes (Elt F) vAcc.junk (runLast c i arg3 harg3 arg4 harg4 arg5 harg5 arg6 harg6 arg7 harg7 arg8 harg8 arg9 harg9 arg10 harg10 arg11 harg11 hc0 hc1 x0 x1 x2 x3 x4 x5 x6 xs).2.1)

/-- The output block after a point with k = 3. -/
def outLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vOut.read (Elt F) (vOut.writes (Elt F) vOut.junk (runLast c i arg3 harg3 arg4 harg4 arg5 harg5 arg6 harg6 arg7 harg7 arg8 harg8 arg9 harg9 arg10 harg10 arg11 harg11 hc0 hc1 x0 x1 x2 x3 x4 x5 x6 xs).1)

/-! ## The accumulation, point by point -/

/-- What the accumulator holds after the body at position `n`. -/
def accAt (c : Dev nD) : (n : ℕ) → n < cfg1.N → Vec F S512x512 .f32
  | 0, hn => accFirst c (grid1.coords ⟨0, hn⟩) (mX ⟨0, hn⟩) (hX ⟨0, hn⟩) (mW ⟨0, hn⟩) (hW ⟨0, hn⟩) (mH ⟨0, hn⟩) (hH ⟨0, hn⟩) (mBm ⟨0, hn⟩) (hBm ⟨0, hn⟩) (mBa ⟨0, hn⟩) (hBa ⟨0, hn⟩) (mSc ⟨0, hn⟩) (hSc ⟨0, hn⟩) (mBi ⟨0, hn⟩) (hBi ⟨0, hn⟩) (mO ⟨0, hn⟩) (hO ⟨0, hn⟩) mAcc (Memref.isWhole_whole _) ((isFirst_iff ⟨0, hn⟩).mpr (Nat.zero_mod _)) (fun h => by have := (isLast_iff ⟨0, hn⟩).mp h; (try dsimp only at this); omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩)
  | n + 1, hn =>
    if h0 : (n + 1) % 4 = 0 then
      accFirst c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) ((isFirst_iff ⟨n + 1, hn⟩).mpr h0) (fun h => by have := (isLast_iff ⟨n + 1, hn⟩).mp h; (try dsimp only at this); omega) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩)
    else if h1 : (n + 1) % 4 = 3 then
      accLast c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (accAt c n (Nat.lt_of_succ_lt hn))
    else
      accMid c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (accAt c n (Nat.lt_of_succ_lt hn))

theorem accAt_first (c : Dev nD) (t : Fin cfg1.N) (h0 : t.val % 4 = 0) (h1 : ¬t.val % 4 = 3) :
    accAt V c t.val t.isLt = accFirst c (grid1.coords t) (mX t) (hX t) (mW t) (hW t) (mH t) (hH t) (mBm t) (hBm t) (mBa t) (hBa t) (mSc t) (hSc t) (mBi t) (hBi t) (mO t) (hO t) mAcc (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) := by
  obtain ⟨n, hn⟩ := t
  cases n with
  | zero => exact rfl
  | succ n => exact (dif_pos h0).trans rfl

theorem accAt_mid (c : Dev nD) (t : Fin cfg1.N) (h0 : ¬t.val % 4 = 0) (h1 : ¬t.val % 4 = 3) :
    accAt V c t.val t.isLt = accMid c (grid1.coords t) (mX t) (hX t) (mW t) (hW t) (mH t) (hH t) (mBm t) (hBm t) (mBa t) (hBa t) (mSc t) (hSc t) (mBi t) (hBi t) (mO t) (hO t) mAcc (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (mX t) (hX t) (mW t) (hW t) (mH t) (hH t) (mBm t) (hBm t) (mBa t) (hBa t) (mSc t) (hSc t) (mBi t) (hBi t) (mO t) (hO t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at point `t`: the stored block where k = 3; elsewhere the
    window is idle and nothing reads this value. -/
def outAt (c : Dev nD) (t : Fin cfg1.N) : Vec F S512x512 .f32 :=
  if h1 : t.val % 4 = 3 then
    outLast c (grid1.coords t) (mX t) (hX t) (mW t) (hW t) (mH t) (hH t) (mBm t) (hBm t) (mBa t) (hBa t) (mSc t) (hSc t) (mBi t) (hBi t) (mO t) (hO t) mAcc (Memref.isWhole_whole _) (fun h => by have := (isFirst_iff t).mp h; omega) ((isLast_iff t).mpr h1) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt))
  else vOut.read (Elt F) vOut.junk

/-! ## The invariant and the proof data -/

/-- Before position `n`: at the start the class invariant (every scoped buffer at anything); afterwards the accumulator
    at what the point before left, the other scoped buffers at anything, the generator register at some state. -/
def Inv (c : Dev nD) : (n : ℕ) → n ≤ cfg1.N → sProp 𝕄
  | 0, _ => Pipeline.ΦA spec1 c
  | n + 1, hn => iprop(iprop(owns (c : Thread nD τ) mAcc fullShare (accAt V c n hn) ∗ others (F := F) c) ∗ (∃ r, prngReg c r))

theorem Inv_zero (c : Dev nD) (n : ℕ) (h : n ≤ cfg1.N) (hz : n = 0) : Inv V c n h = Pipeline.ΦA spec1 c := by
  subst hz; rfl

theorem Inv_succ (c : Dev nD) (n : ℕ) (hn : n < cfg1.N) :
    Inv V c (n + 1) hn = iprop(iprop(owns (c : Thread nD τ) mAcc fullShare (accAt V c n hn) ∗ others (F := F) c) ∗ (∃ r, prngReg c r)) := rfl

theorem Inv_pos (c : Dev nD) (n : ℕ) (h : n ≤ cfg1.N) (hz : n ≠ 0) :
    Inv V c n h = iprop(iprop(owns (c : Thread nD τ) mAcc fullShare (accAt V c (n - 1) (by omega)) ∗ others (F := F) c) ∗ (∃ r, prngReg c r)) := by
  cases n with
  | zero => exact absurd rfl hz
  | succ n => rfl

/-- The call's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]

theorem Inv_castSucc (c : Dev nD) (t : Fin cfg1.N) :
    (dat V c).Φ t.castSucc = Inv V c t.val (Nat.le_of_lt t.isLt) := by
  dsimp only [dat]; simp only [Fin.coe_castSucc]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_in6 (c : Dev nD) (t : Fin cfg1.N) : (dat V c).after 6 t = iblk V c 6 t := by dsimp only [dat]
theorem after_out (c : Dev nD) (t : Fin cfg1.N) : (dat V c).after 7 t = outAt V c t := by dsimp only [dat]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d
theorem before_in6 (c : Dev nD) (t : Fin cfg1.N) (d) : (dat V c).before 6 t d = iblk V c 6 t :=
  before_in6_of V (dat V c) (A_eq V c 6) (after_in6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mW t) fullShare ((dat V c).before 1 t d))
    ∗ (∃ d, owns (c : Thread nD τ) (mH t) fullShare ((dat V c).before 2 t d))
    ∗ (∃ d, owns (c : Thread nD τ) (mBm t) fullShare ((dat V c).before 3 t d))
    ∗ (∃ d, owns (c : Thread nD τ) (mBa t) fullShare ((dat V c).before 4 t d))
    ∗ (∃ d, owns (c : Thread nD τ) (mSc t) fullShare ((dat V c).before 5 t d))
    ∗ (∃ d, owns (c : Thread nD τ) (mBi t) fullShare ((dat V c).before 6 t d))
    ∗ (∃ d, owns (c : Thread nD τ) (mO t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5, before_in6]
  rw [show (dat V c).owesAt () t.succ = (dat V c).owesAt () t.castSucc from rfl]
  rw [show (dat V c).Φ t.succ = Inv V c (t.val + 1) t.isLt from rfl, Inv_succ]
  have hN : t.val < 512 := lt_of_lt_of_eq t.isLt (show cfg1.N = 512 from N_1)
  rw [show (dat V c).leavesExact 0 t = owns (c : Thread nD τ) (mX t) fullShare ((dat V c).after 0 t) from by
    unfold Dat.leavesExact; rw [live_in0 t], after_in0]
  rw [show (dat V c).leavesExact 1 t = owns (c : Thread nD τ) (mW t) fullShare ((dat V c).after 1 t) from by
    unfold Dat.leavesExact; rw [live_in1 t], after_in1]
  rw [show (dat V c).leavesExact 2 t = owns (c : Thread nD τ) (mH t) fullShare ((dat V c).after 2 t) from by
    unfold Dat.leavesExact; rw [live_in2 t], after_in2]
  rw [show (dat V c).leavesExact 3 t = owns (c : Thread nD τ) (mBm t) fullShare ((dat V c).after 3 t) from by
    unfold Dat.leavesExact; rw [live_in3 t], after_in3]
  rw [show (dat V c).leavesExact 4 t = owns (c : Thread nD τ) (mBa t) fullShare ((dat V c).after 4 t) from by
    unfold Dat.leavesExact; rw [live_in4 t], after_in4]
  rw [show (dat V c).leavesExact 5 t = owns (c : Thread nD τ) (mSc t) fullShare ((dat V c).after 5 t) from by
    unfold Dat.leavesExact; rw [live_in5 t], after_in5]
  rw [show (dat V c).leavesExact 6 t = owns (c : Thread nD τ) (mBi t) fullShare ((dat V c).after 6 t) from by
    unfold Dat.leavesExact; rw [live_in6 t], after_in6]
  by_cases h0 : t.val % 4 = 0
  · have h1 : ¬t.val % 4 = 3 := by omega
    have hnl : ¬isLast (grid1.coords t) := fun h => h1 ((isLast_iff t).mp h)
    rw [Dat.leavesExact_idle (dat V c) 7 t (idle_out t hnl) (noFlush_out t hnl)]
    rw [accAt_first V c t h0 h1]
    unfold accFirst; (try dsimp only)
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hnl (iblk V c 0 t) (iblk V c 1 t) (iblk V c 2 t) (iblk V c 3 t) (iblk V c 4 t) (iblk V c 5 t) (iblk V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hnl (iblk V c 0 t) (iblk V c 1 t) (iblk V c 2 t) (iblk V c 3 t) (iblk V c 4 t) (iblk V c 5 t) (iblk V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    have hnf : ¬isFirst (grid1.coords t) := fun h => h0 ((isFirst_iff t).mp h)
    by_cases h1 : t.val % 4 = 3
    · have hl : isLast (grid1.coords t) := (isLast_iff t).mpr h1
      rw [show (dat V c).leavesExact 7 t = owns (c : Thread nD τ) (mO t) fullShare ((dat V c).after 7 t) from by
        unfold Dat.leavesExact; rw [live_out t hl], after_out]
      rw [show outAt V c t = outLast c (grid1.coords t) (mX t) (hX t) (mW t) (hW t) (mH t) (hH t) (mBm t) (hBm t) (mBa t) (hBa t) (mSc t) (hSc t) (mBi t) (hBi t) (mO t) (hO t) mAcc (Memref.isWhole_whole _) hnf hl (iblk V c 0 t) (iblk V c 1 t) (iblk V c 2 t) (iblk V c 3 t) (iblk V c 4 t) (iblk V c 5 t) (iblk V c 6 t)
        (accAt V c (t.val - 1) (Nat.lt_of_le_of_lt (Nat.sub_le _ _) t.isLt)) from dif_pos h1]
      rw [accAt_last V c t h0 h1]
      unfold outLast accLast; (try dsimp only)
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ hnf hl (iblk V c 0 t) (iblk V c 1 t) (iblk V c 2 t) (iblk V c 3 t) (iblk V c 4 t) (iblk V c 5 t) (iblk V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_last_acc c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_last_out c _ _ _ _ _ _ _ _ _ _ _ _ _ _ _ _ _ _ _ _ _ _ _ _ _ _ _ _ _)
    · have hnl : ¬isLast (grid1.coords t) := fun h => h1 ((isLast_iff t).mp h)
      rw [Dat.leavesExact_idle (dat V c) 7 t (idle_out t hnl) (noFlush_out t hnl)]
      rw [accAt_mid V c t h0 h1]
      unfold accMid; (try dsimp only)
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ hnf hnl (iblk V c 0 t) (iblk V c 1 t) (iblk V c 2 t) (iblk V c 3 t) (iblk V c 4 t) (iblk V c 5 t) (iblk V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_mid c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W1, bigSep_W1]
  exact sound_body V c t

/-- Entering: the class invariant is the invariant before the first point. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- Leaving: the accumulator's contents are forgotten. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 512 := N_1; omega), PhiA_eq]
  iintro ⟨⟨HS, Hoth⟩, Hg⟩
  isplitl [HS Hoth]
  · isplitl [HS]
    · iexists _; iexact HS
    iexact Hoth
  iexact Hg

end

end Cert.Kernel.Reg1

end
-- ==== Proof.K.Whole.lean ====
/- The whole program's run: @main is three stretches of host operations (a reshape of the index array, the
   dequantising gather, the layout changes of the operands), the two pallas_calls, and a last reshape. Between two
   items the core holds every unscoped buffer at known contents: the launch memory folded through the host stretches,
   and after a pallas_call its arrays at what its write-backs leave, every other buffer as before. The run is the
   library's rule for a program of several kernel regions over these thread states; its post names every unscoped
   buffer's final contents, from which both the frame claim (the arguments end as launched) and the value of the
   result are read. -/
import proofs.«135921_j83004537962674_1_alg».proof.Proof.K.R0
import proofs.«135921_j83004537962674_1_alg».proof.Proof.K.R1
import proofs.«135921_j83004537962674_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- When the first pallas_call is entered: the launch memory after the three host stretches. -/
abbrev W3 : Dev nD → Valuation τ sig (Elt F) := fun c => Gen.V3 m c
abbrev E3 : (c : Dev nD) → (b : Ref sig .tc) → Buf (Elt F) ((c : Thread nD τ).loc b) := fun c b => W3 m c b
/-- When it is left: its arrays at what the pipeline leaves, every other buffer as entered. -/
def W4 (c : Dev nD) : Valuation τ sig (Elt F) :=
  Pipeline.withArrays spec0 c (W3 m c) fun w => (Reg0.dat (E3 m) c).arrAt w cfg0.N
theorem W4_arr (c : Dev nD) (w : Fin cfg0.W) :
    W4 m c (Proc.devRef .tc (Pipeline.arrRef spec0 w)) = (Reg0.dat (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (Reg0.dat (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- When the second pallas_call is left. -/
def W5 (c : Dev nD) : Valuation τ sig (Elt F) :=
  Pipeline.withArrays spec1 c (W4 m c) fun w => (Reg1.dat (E4 m) c).arrAt w cfg1.N
theorem W5_arr (c : Dev nD) (w : Fin cfg1.W) :
    W5 m c (Proc.devRef .tc (Pipeline.arrRef spec1 w)) = (Reg1.dat (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev E5 : (c : Dev nD) → (b : Ref sig .tc) → Buf (Elt F) ((c : Thread nD τ).loc b) := fun c b => W5 m c b
theorem hF1 (c : Dev nD) (w : Fin cfg1.W) : (Reg1.dat (E4 m) c).arrAt w cfg1.N = E5 m c (Pipeline.arrRef spec1 w) :=
  (W5_arr m c w).symm
theorem hrest1 (c : Dev nD) : ∀ b, b ∉ Finset.univ.image (Pipeline.arrRef spec1) → E5 m c b = E4 m c b :=
  fun b hb => W5_of_ne m c b fun w e => hb (Finset.mem_image.mpr ⟨w, Finset.mem_univ _, e⟩)

/-- At the return: after the last reshape. -/
abbrev W6 : Dev nD → Valuation τ sig (Elt F) := fun c => StableHlo.after hostOps2 (W5 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => Reg0.dat (E3 m) c
  | ⟨1, _⟩ => fun c => Reg1.dat (E4 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The pallas_calls as segments -/

set_option backward.isDefEq.respectTransparency.types false in
/-- The first pallas_call over the thread state: its arrays split out of the unscoped buffers and put back at the
    exit contents; the generator register and the scoped buffers into its invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h1.trans (Reg0.inv_in (E3 m) c)
  hout c := by
    rw [Pipeline.ownSems0_none]
    have h2 : (Pipeline.ΦA spec0 c : sProp 𝕄)
        ⊢ iprop((∃ r, prngReg c r) ∗ emp
          ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (Reg0.inv_out (E3 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call, the same way, from the first's exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h1.trans (Reg1.inv_in (E4 m) c)
  hout c := by
    rw [Pipeline.ownSems0_none]
    have h2 : (Pipeline.ΦA spec1 c : sProp 𝕄)
        ⊢ iprop((∃ r, prngReg c r) ∗ emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Reg1.inv_out (E4 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .region (reg1 m),
    .host (hseg hostOps2 hostOps2_sub hostOps2_fresh (W5 m)) ]

theorem main_run (c : Dev nD) : main (F := F) c = Pipeline.Seg.run (segs m) := by
  rw [main_chain c, Pipeline.Seg.run_eq_chain]
  rfl

set_option backward.isDefEq.respectTransparency.types false in
/-- Every weakly fair execution of @main from memory `m` with zero counters terminates, nothing faulting, and every
    final memory holds each unscoped buffer at the contents the fold `W6` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c =>
      show iprop(StableHlo.held (c : Thread nD τ) (Pipeline.ucRefs τ sig) (W6 m c) ∗ R (F := F) c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Whole

end
-- ==== Proof.K.Frame.lean ====
/- The frame claim from the whole run: no host stretch writes an argument array and no pallas_call's window is one,
   so the fold of the buffers' contents, read at an argument, walks back to the launch memory. -/
import proofs.«135921_j83004537962674_1_alg».proof.Proof.K.Whole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and no window of either call stages ends at its launch contents. -/
theorem W6_untouched (c : Dev nD) (r : Ref sig .tc) (h2 : r ∉ hostOps2_W) (h1 : ∀ w, Pipeline.arrRef spec1 w ≠ r)
    (h0 : ∀ w, Pipeline.arrRef spec0 w ≠ r) (h02 : r ∉ hostOps0_2_W) (h01 : r ∉ hostOps0_1_W) (h00 : r ∉ hostOps0_W) :
    W6 m c r = m ((c : Thread nD τ).loc r) :=
  (StableHlo.after_of_writes_sub hostOps2 _ hostOps2_writes h2).trans <| (W5_of_ne m c r h1).trans <| (W4_of_ne m c r h0).trans <|
    (V3_of m c r h02).trans <| (V2_of m c r h01).trans <| (V1_of m c r h00).trans rfl

/-- A memory that holds every unscoped buffer at the run's final contents holds the nine argument arrays as launched. -/
theorem args_kept (c : Dev nD) (mem : (ℓ : Loc nD τ sig) → Buf (Elt F) ℓ)
    (h : ∀ b ∈ Pipeline.ucRefs τ sig, mem (((c : Thread nD τ)).1, b) = W6 m c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (W6_untouched m c main_arg0 (by decide) (by decide) (by decide) (by decide) (by decide) (by decide)),
    (h _ (mem_uc main_arg1 (by decide))).trans (W6_untouched m c main_arg1 (by decide) (by decide) (by decide) (by decide) (by decide) (by decide)),
    (h _ (mem_uc main_arg2 (by decide))).trans (W6_untouched m c main_arg2 (by decide) (by decide) (by decide) (by decide) (by decide) (by decide)),
    (h _ (mem_uc main_arg3 (by decide))).trans (W6_untouched m c main_arg3 (by decide) (by decide) (by decide) (by decide) (by decide) (by decide)),
    (h _ (mem_uc main_arg4 (by decide))).trans (W6_untouched m c main_arg4 (by decide) (by decide) (by decide) (by decide) (by decide) (by decide)),
    (h _ (mem_uc main_arg5 (by decide))).trans (W6_untouched m c main_arg5 (by decide) (by decide) (by decide) (by decide) (by decide) (by decide)),
    (h _ (mem_uc main_arg6 (by decide))).trans (W6_untouched m c main_arg6 (by decide) (by decide) (by decide) (by decide) (by decide) (by decide)),
    (h _ (mem_uc main_arg7 (by decide))).trans (W6_untouched m c main_arg7 (by decide) (by decide) (by decide) (by decide) (by decide) (by decide)),
    (h _ (mem_uc main_arg8 (by decide))).trans (W6_untouched m c main_arg8 (by decide) (by decide) (by decide) (by decide) (by decide) (by decide))⟩

/-- Every weakly fair execution of @main terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c)) (run_all m ρ)

end Cert.Kernel.Whole

end
-- ==== Proof.KI.R0Base.lean ====
/- The first pallas_call (the low-rank projection h = x · Aᵀ accumulated over four blocks of the contracted axis),
   what its frame proof shares: a window's block read off its array; that an input's staging buffer holds its block
   at every grid point; the two branch conditions of the body in closed form over the grid (the accumulator is
   reset where the contraction index k = t mod 4 is 0, the result is stored where k = 3); where the output window
   is idle; and the class invariant with the accumulator buffer split off the other scoped buffers. -/
import proofs.«135921_j83004537962674_1_alg».proof.Proof.Gen.KernelIdeal.Launch
import proofs.«135921_j83004537962674_1_alg».proof.Proof.Gen.KernelIdeal.Skeleton
import proofs.«135921_j83004537962674_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds block (t / 4, t mod 4) of x at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The factor's staging buffer holds block (t mod 4, 0) of Aᵀ at every point. -/
theorem before_a_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
end

/-! ## The body's two branches over the grid -/

/-- The accumulator is reset: the contraction coordinate is 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The result block is stored: the contraction coordinate is 3, the last. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_x : ∀ t : Fin cfg0.N, cfg0.idle 0 (grid0.coords t) = false := by decide +kernel
theorem live_a : ∀ t : Fin cfg0.N, cfg0.idle 1 (grid0.coords t) = false := by decide +kernel
/-- Away from the last contraction block the output window is idle and not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

abbrev mX (t : Fin cfg0.N) : Memref sig .tc .vmem S1024x1024 .bf16 := win0_0.stage (cfg0.slots t 0)
abbrev hX (t : Fin cfg0.N) : (mX t).IsWhole := hstage0_0 ((cfg0.slots t 0).cast nbuf0_0)
abbrev mA (t : Fin cfg0.N) : Memref sig .tc .vmem S1024x128 .bf16 := win0_1.stage (cfg0.slots t 1)
abbrev hA (t : Fin cfg0.N) : (mA t).IsWhole := hstage0_1 ((cfg0.slots t 1).cast nbuf0_1)
abbrev mO (t : Fin cfg0.N) : Memref sig .tc .vmem S1024x128 .bf16 := win0_2.stage (cfg0.slots t 2)
abbrev hO (t : Fin cfg0.N) : (mO t).IsWhole := hstage0_2 ((cfg0.slots t 2).cast nbuf0_2)
/-- The accumulator: a scoped buffer of the kernel's own, carried from point to point. -/
abbrev mAcc : Memref sig .tc .vmem S1024x128 .f32 := Memref.whole cc0_scratch0
abbrev vAcc : View sig .tc .vmem S1024x128 .f32 := mAcc.view
abbrev vOut : View sig .tc .vmem S1024x128 .bf16 := (Memref.whole cc0_stg2_0 : Memref sig .tc .vmem S1024x128 .bf16).view

/-- The scoped buffers that are neither staged by this call nor its accumulator, each at some contents. -/
abbrev others (c : Dev nD) : sProp 𝕄 :=
  Pipeline.scopedRestBut (Ix := Unit) (Name := ℕ) (U := UR sig nD τ) (Lvl := ℕ) (Val := Elt F) spec0 c [cc0_scratch0]

/-- The class invariant with the accumulator split off. -/
theorem PhiA_eq (c : Dev nD) :
    (Pipeline.ΦA spec0 c : sProp 𝕄)
      = iprop(iprop((∃ d, owns (c : Thread nD τ) mAcc fullShare d) ∗ others (F := F) c) ∗ (∃ r, prngReg c r)) := by
  unfold Pipeline.ΦA
  rw [Pipeline.scopedRest_split_of_list spec0 c [cc0_scratch0] (by decide) (by decide)]
  simp only [mAcc, owns_whole, bigSepL]
  rfl

end Cert.KernelIdeal.Reg0

end
-- ==== Proof.KI.R0RunFirst.lean ====
/- The first pallas_call's body at a point that opens a contraction (k = 0): the accumulator is overwritten with zeros, then with zeros plus the product of the two input blocks; nothing is stored into the output window, whose buffer is handed back as it was. The list of pieces the accumulator ends with is found by running the body. -/
import proofs.«135921_j83004537962674_1_alg».proof.Proof.KI.R0Base

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) :
    { LS : List (View.Piece (Elt F) S1024x128 .f32) //
      ∀ (xo : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, fun xo E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Reg0

end
-- ==== Proof.KI.R0RunMid.lean ====
/- The first pallas_call's body at a point inside a contraction (k = 1, 2): the accumulator, found at what the point before left, is overwritten with itself plus the product of the two input blocks; the output window's buffer is handed back as it was. -/
import proofs.«135921_j83004537962674_1_alg».proof.Proof.KI.R0RunFirst

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) :
    { LS : List (View.Piece (Elt F) S1024x128 .f32) //
      ∀ (xo : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, fun xo E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Reg0

end
-- ==== Proof.KI.R0RunLast.lean ====
/- The first pallas_call's body at a point that closes a contraction (k = 3): the accumulator, found at what the point before left, is overwritten with itself plus the product of the two input blocks, and its new contents, narrowed, are stored over the whole output block. -/
import proofs.«135921_j83004537962674_1_alg».proof.Proof.KI.R0RunMid

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) :
    Σ' (LO : List (View.Piece (Elt F) S1024x128 .bf16)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__hid_kernel i arg2 harg2 arg3 harg3 arg4 harg4 arg5 harg5) K } := by
  refine ⟨?_, ?_, fun E K => ?run⟩
  case run =>
    simp only [cc0__hid_kernel_eq_skeleton]; unfold cc0__hid_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Reg0

end
-- ==== Proof.KI.R0.lean ====
/- The first pallas_call, h = x · Aᵀ: what its accumulator and its output block hold after each grid point, the
   call's proof data and the body obligation at every point.
   The grid is (row block m, contraction block k), visited with k fastest: point t has m = t / 4 and k = t mod 4.
   After point t the accumulator holds the sum of the products of the input blocks at the points of the same row
   block up to t (the run restarts at every k = 0); the output block is stored only at k = 3 and written back there. -/
import proofs.«135921_j83004537962674_1_alg».proof.Proof.KI.R0RunLast

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What a point leaves in the accumulator and in the output block -/

theorem cover_first (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) (y : S1024x128.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1024x128.size (by sl_kernel_rfl) y

/-- The accumulator after a point with k = 0. -/
def accFirst (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) : Vec F S1024x128 .f32 :=
  vAcc.read (Elt F) (vAcc.writes (Elt F) vAcc.junk (runFirst c i arg2 harg2 arg3 harg3 arg4 harg4 arg5 harg5 hc0 hc1 x0 x1).1)

theorem cover_mid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) (y : S1024x128.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1024x128.size (by sl_kernel_rfl) y

/-- The accumulator after a point with k = 1 or 2, over what the point before left. -/
def accMid (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) : Vec F S1024x128 .f32 :=
  vAcc.read (Elt F) (vAcc.writes (Elt F) vAcc.junk (runMid c i arg2 harg2 arg3 harg3 arg4 harg4 arg5 harg5 hc0 hc1 x0 x1 xs).1)

theorem cover_last_acc (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) (y : S1024x128.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1024x128.size (by sl_kernel_rfl) y

theorem cover_last_out (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) (y : S1024x128.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1024x128.size (by sl_kernel_rfl) y

/-- The accumulator after a point with k = 3, over what the point before left. -/
def accLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) : Vec F S1024x128 .f32 :=
  vAcc.read (Elt F) (vAcc.writes (Elt F) vAcc.junk (runLast c i arg2 harg2 arg3 harg3 arg4 harg4 arg5 harg5 hc0 hc1 x0 x1 xs).2.1)

/-- The output block after a point with k = 3. -/
def outLast (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) : Vec F S1024x128 .bf16 :=
  vOut.read (Elt F) (vOut.writes (Elt F) vOut.junk (runLast c i arg2 harg2 arg3 harg3 arg4 harg4 arg5 harg5 hc0 hc1 x0 x1 xs).1)

/-! ## The accumulation, point by point -/

/-- What the accumulator holds after the body at position `n`. -/
def accAt (c : Dev nD) : (n : ℕ) → n < cfg0.N → Vec F S1024x128 .f32
  | 0, hn => accFirst c (grid0.coords ⟨0, hn⟩) (mX ⟨0, hn⟩) (hX ⟨0, hn⟩) (mA ⟨0, hn⟩) (hA ⟨0, hn⟩) (mO ⟨0, hn⟩) (hO ⟨0, hn⟩) mAcc (Memref.isWhole_whole _) ((isFirst_iff ⟨0, hn⟩).mpr (Nat.zero_mod _)) (fun h => by have := (isLast_iff ⟨0, hn⟩).mp h; (try dsimp only at this); omega) (iblk V c 0 ⟨0, hn⟩) (iblk V c 1 ⟨0, hn⟩)
  | n + 1, hn =>
    if h0 : (n + 1) % 4 = 0 then
      accFirst c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) ((isFirst_iff ⟨n + 1, hn⟩).mpr h0) (fun h => by have := (isLast_iff ⟨n + 1, hn⟩).mp h; (try dsimp only at this); omega) (iblk V c 0 ⟨n + 1, hn⟩) (iblk V c 1 ⟨n + 1, hn⟩)
    else if h1 : (n + 1) % 4 = 3 then
      accLast c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (accAt c n (Nat.lt_of_succ_lt hn))
    else
      accMid c (grid0.coords ⟨n + 1, hn⟩) (mX ⟨n + 1, hn⟩) (hX ⟨n + 1, hn⟩) (mA ⟨n + 1, hn⟩) (hA ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (accAt c n (Nat.lt_of_succ_lt hn))

theorem accAt_first (c : Dev nD) (t : Fin cfg0.N) (h0 : t.val % 4 = 0) (h1 : ¬t.val % 4 = 3) :
    accAt V c t.val t.isLt = accFirst c (grid0.coords t) (mX t) (hX t) (mA t) (hA t) (mO t) (hO t) mAcc (Memref.isWhole_whole _) ((isFirst_iff t).mpr h0) (fun h => h1 ((isLast_iff t).mp h)) (iblk V c 0 t) (iblk V c 1 t) := by
  obtain ⟨n, hn⟩ := t
  cases n with
  | zero => exact rfl
  | succ n => exact (dif_pos h0).trans rfl

theorem accAt_mid (c : Dev nD) (t : Fin cfg0.N) (h0 : ¬t.val % 4 = 0) (h1 : ¬t.val % 4 = 3) :
    accAt V c t.val t.isLt = accMid c (grid0.coords t) (mX t) (hX t) (mA t) (hA t) (mO t) (hO t) mAcc (Memref.isWhole_whole _) (fun h => h0 ((isFirst_iff t).mp h)) (fun h => h1 ((isLast_iff t).mp h)) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt V c t.val t.isLt = accLast c (grid0.coords t) (mX t) (hX t) (mA t) (hA t) (mO t) (hO t) mAcc (Memref.isWhole_whole _) (fun h => h0 ((isFirst_iff t).mp h)) ((isLast_iff t).mpr h1) (iblk V c 0 t) (iblk V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at point `t`: the stored block where k = 3; elsewhere the
    window is idle and nothing reads this value. -/
def outAt (c : Dev nD) (t : Fin cfg0.N) : Vec F S1024x128 .bf16 :=
  if h1 : t.val % 4 = 3 then
    outLast c (grid0.coords t) (mX t) (hX t) (mA t) (hA t) (mO t) (hO t) mAcc (Memref.isWhole_whole _) (fun h => by have := (isFirst_iff t).mp h; omega) ((isLast_iff t).mpr h1) (iblk V c 0 t) (iblk V c 1 t)
      (accAt V c (t.val - 1) (Nat.lt_of_le_of_lt (Nat.sub_le _ _) t.isLt))
  else vOut.read (Elt F) vOut.junk

/-! ## The invariant and the proof data -/

/-- Before position `n`: at the start the class invariant (every scoped buffer at anything); afterwards the accumulator
    at what the point before left, the other scoped buffers at anything, the generator register at some state. -/
def Inv (c : Dev nD) : (n : ℕ) → n ≤ cfg0.N → sProp 𝕄
  | 0, _ => Pipeline.ΦA spec0 c
  | n + 1, hn => iprop(iprop(owns (c : Thread nD τ) mAcc fullShare (accAt V c n hn) ∗ others (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) mAcc fullShare (accAt V c n hn) ∗ others (F := F) c) ∗ (∃ r, prngReg c r)) := rfl

theorem Inv_pos (c : Dev nD) (n : ℕ) (h : n ≤ cfg0.N) (hz : n ≠ 0) :
    Inv V c n h = iprop(iprop(owns (c : Thread nD τ) mAcc fullShare (accAt V c (n - 1) (by omega)) ∗ others (F := F) c) ∗ (∃ r, prngReg c r)) := by
  cases n with
  | zero => exact absurd rfl hz
  | succ n => rfl

/-- The call's proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := Inv V c t.val (Nat.le_of_lt_succ t.isLt)
  q _ := fullShare
  owed _ := 0

theorem A_eq (c : Dev nD) (w : Fin cfg0.W) : (dat V c).A w = V c (Pipeline.arrRef spec0 w) := by
  dsimp only [dat]

theorem Inv_castSucc (c : Dev nD) (t : Fin cfg0.N) :
    (dat V c).Φ t.castSucc = Inv V c t.val (Nat.le_of_lt t.isLt) := by
  dsimp only [dat]; simp only [Fin.coe_castSucc]

theorem after_x (c : Dev nD) (t : Fin cfg0.N) : (dat V c).after 0 t = iblk V c 0 t := by dsimp only [dat]
theorem after_a (c : Dev nD) (t : Fin cfg0.N) : (dat V c).after 1 t = iblk V c 1 t := by dsimp only [dat]
theorem after_out (c : Dev nD) (t : Fin cfg0.N) : (dat V c).after 2 t = outAt V c t := by dsimp only [dat]

theorem before_x (c : Dev nD) (t : Fin cfg0.N) (d) : (dat V c).before 0 t d = iblk V c 0 t :=
  before_x_of V (dat V c) (A_eq V c 0) (after_x V c) t d
theorem before_a (c : Dev nD) (t : Fin cfg0.N) (d) : (dat V c).before 1 t d = iblk V c 1 t :=
  before_a_of V (dat V c) (A_eq V c 1) (after_a V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mA t) fullShare ((dat V c).before 1 t d))
    ∗ (∃ d, owns (c : Thread nD τ) (mO t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_a]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (mX t) fullShare ((dat V c).after 0 t) from by
    unfold Dat.leavesExact; rw [live_x t], after_x]
  rw [show (dat V c).leavesExact 1 t = owns (c : Thread nD τ) (mA t) fullShare ((dat V c).after 1 t) from by
    unfold Dat.leavesExact; rw [live_a t], after_a]
  by_cases h0 : t.val % 4 = 0
  · have h1 : ¬t.val % 4 = 3 := by omega
    have hnl : ¬isLast (grid0.coords t) := fun h => h1 ((isLast_iff t).mp h)
    rw [Dat.leavesExact_idle (dat V c) 2 t (idle_out t hnl) (noFlush_out t hnl)]
    rw [accAt_first V c t h0 h1]
    unfold accFirst; (try dsimp only)
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hnl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _)
          iexact Hoth
        iexact Hg
      isplitl [Ho]; · iexact Ho
      isplitl [H0]; · iexact H0
      isplitl [H1]; · iexact H1
      iexists _; iexact H2
    · rw [Inv_castSucc V c t, Inv_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hnl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    have hnf : ¬isFirst (grid0.coords t) := fun h => h0 ((isFirst_iff t).mp h)
    by_cases h1 : t.val % 4 = 3
    · have hl : isLast (grid0.coords t) := (isLast_iff t).mpr h1
      rw [show (dat V c).leavesExact 2 t = owns (c : Thread nD τ) (mO t) fullShare ((dat V c).after 2 t) from by
        unfold Dat.leavesExact; rw [live_out t hl], after_out]
      rw [show outAt V c t = outLast c (grid0.coords t) (mX t) (hX t) (mA t) (hA t) (mO t) (hO t) mAcc (Memref.isWhole_whole _) hnf hl (iblk V c 0 t) (iblk V c 1 t)
        (accAt V c (t.val - 1) (Nat.lt_of_le_of_lt (Nat.sub_le _ _) t.isLt)) from dif_pos h1]
      rw [accAt_last V c t h0 h1]
      unfold outLast accLast; (try dsimp only)
      rw [Inv_castSucc V c t, Inv_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ hnf hl (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_last_acc c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hnl : ¬isLast (grid0.coords t) := fun h => h1 ((isLast_iff t).mp h)
      rw [Dat.leavesExact_idle (dat V c) 2 t (idle_out t hnl) (noFlush_out t hnl)]
      rw [accAt_mid V c t h0 h1]
      unfold accMid; (try dsimp only)
      rw [Inv_castSucc V c t, Inv_pos V c _ _ hz]
      iintro ⟨⟨⟨HS, Hoth⟩, Hg⟩, Ho, ⟨%d0, H0⟩, ⟨%d1, H1⟩, ⟨%d2, H2⟩⟩
      iapply ((runMid c (grid0.coords t) _ _ _ _ _ _ _ _ hnf hnl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (cover_mid c _ _ _ _ _ _ _ _ _ _ _ _ _ _)
          iexact Hoth
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

/-- Entering: the class invariant is the invariant before the first point. -/
theorem inv_in (c : Dev nD) : Pipeline.ΦA spec0 c ⊢ (dat V c).Φ 0 := by
  rw [show (dat V c).Φ 0 = Inv V c 0 (Nat.zero_le _) from rfl, Inv_zero V c 0 _ rfl]
  try exact Idealize.SL.BI.Entails.refl _

/-- Leaving: the accumulator's contents are forgotten. -/
theorem inv_out (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl,
    Inv_pos V c _ _ (by rw [Fin.val_last]; have : cfg0.N = 32 := N_0; omega), PhiA_eq]
  iintro ⟨⟨HS, Hoth⟩, Hg⟩
  isplitl [HS Hoth]
  · isplitl [HS]
    · iexists _; iexact HS
    iexact Hoth
  iexact Hg

end

end Cert.KernelIdeal.Reg0

end
-- ==== Proof.KI.R1Base.lean ====
/- The second pallas_call (out = (h·Baᵀ + t) + (h·Bmᵀ + s) · (x·Wᵀ), the dense product accumulated over four blocks
   of the contracted axis), what its frame proof shares: a window's block read off its array; that each of the seven
   inputs' staging buffers holds its block at every grid point, fetched there or not; the two branch conditions of
   the body in closed form over the grid (the accumulator is reset where the contraction index k = t mod 4 is 0, the
   result block is stored where k = 3); where the output window is idle; and the class invariant with the
   accumulator buffer split off the other scoped buffers. -/
import proofs.«135921_j83004537962674_1_alg».proof.Proof.Gen.KernelIdeal.Launch
import proofs.«135921_j83004537962674_1_alg».proof.Proof.Gen.KernelIdeal.Skeleton
import proofs.«135921_j83004537962674_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off the window's array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds block (m, k) of x at every point. -/
theorem before_in0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight's staging buffer holds block (k, n) of Wᵀ at every point. -/
theorem before_in1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The hidden activations' staging buffer holds block (m, 0) of h at every point, fetched there or not. -/
theorem before_in2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The multiplicative factor's staging buffer holds block (0, n) at every point, fetched there or not. -/
theorem before_in3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The additive factor's staging buffer holds block (0, n) at every point, fetched there or not. -/
theorem before_in4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The scale's staging buffer holds block (0, n) at every point, fetched there or not. -/
theorem before_in5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The bias's staging buffer holds block (0, n) at every point, fetched there or not. -/
theorem before_in6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end

/-! ## The body's two branches over the grid -/

/-- The accumulator is reset: the contraction coordinate is 0. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 4 = 0 :=
  (by decide +kernel : ∀ t : Fin grid1.N, isFirst (grid1.coords t) ↔ t.val % 4 = 0)

/-- The result block is stored: the contraction coordinate is 3, the last. -/
abbrev isLast (i : grid1.Coords) : Prop := k1_cond2 i = 1#1
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live_in0 : ∀ t : Fin cfg1.N, cfg1.idle 0 (grid1.coords t) = false := fun _ => rfl
theorem live_in1 : ∀ t : Fin cfg1.N, cfg1.idle 1 (grid1.coords t) = false := fun _ => rfl
theorem live_in2 : ∀ t : Fin cfg1.N, cfg1.idle 2 (grid1.coords t) = false := fun _ => rfl
theorem live_in3 : ∀ t : Fin cfg1.N, cfg1.idle 3 (grid1.coords t) = false := fun _ => rfl
theorem live_in4 : ∀ t : Fin cfg1.N, cfg1.idle 4 (grid1.coords t) = false := fun _ => rfl
theorem live_in5 : ∀ t : Fin cfg1.N, cfg1.idle 5 (grid1.coords t) = false := fun _ => rfl
theorem live_in6 : ∀ t : Fin cfg1.N, cfg1.idle 6 (grid1.coords t) = false := fun _ => rfl
/-- Away from the last contraction block the output window is idle and not written back. -/
theorem idle_out : ∀ t : Fin cfg1.N, ¬isLast (grid1.coords t) → cfg1.idle 7 (grid1.coords t) = true := by decide +kernel
theorem noFlush_out : ∀ t : Fin cfg1.N, ¬isLast (grid1.coords t) → (cfg1.win 7).flush t = false := by decide +kernel
theorem live_out : ∀ t : Fin cfg1.N, isLast (grid1.coords t) → cfg1.idle 7 (grid1.coords t) = false := by decide +kernel

/-! ## The memrefs the body is called with -/

abbrev mX (t : Fin cfg1.N) : Memref sig .tc .vmem S512x1024 .bf16 := win1_0.stage (cfg1.slots t 0)
abbrev hX (t : Fin cfg1.N) : (mX t).IsWhole := hstage1_0 ((cfg1.slots t 0).cast nbuf1_0)
abbrev mW (t : Fin cfg1.N) : Memref sig .tc .vmem S1024x512 .bf16 := win1_1.stage (cfg1.slots t 1)
abbrev hW (t : Fin cfg1.N) : (mW t).IsWhole := hstage1_1 ((cfg1.slots t 1).cast nbuf1_1)
abbrev mH (t : Fin cfg1.N) : Memref sig .tc .vmem S512x128 .bf16 := win1_2.stage (cfg1.slots t 2)
abbrev hH (t : Fin cfg1.N) : (mH t).IsWhole := hstage1_2 ((cfg1.slots t 2).cast nbuf1_2)
abbrev mBm (t : Fin cfg1.N) : Memref sig .tc .vmem S128x512 .bf16 := win1_3.stage (cfg1.slots t 3)
abbrev hBm (t : Fin cfg1.N) : (mBm t).IsWhole := hstage1_3 ((cfg1.slots t 3).cast nbuf1_3)
abbrev mBa (t : Fin cfg1.N) : Memref sig .tc .vmem S128x512 .bf16 := win1_4.stage (cfg1.slots t 4)
abbrev hBa (t : Fin cfg1.N) : (mBa t).IsWhole := hstage1_4 ((cfg1.slots t 4).cast nbuf1_4)
abbrev mSc (t : Fin cfg1.N) : Memref sig .tc .vmem S1x512 .f32 := win1_5.stage (cfg1.slots t 5)
abbrev hSc (t : Fin cfg1.N) : (mSc t).IsWhole := hstage1_5 ((cfg1.slots t 5).cast nbuf1_5)
abbrev mBi (t : Fin cfg1.N) : Memref sig .tc .vmem S1x512 .f32 := win1_6.stage (cfg1.slots t 6)
abbrev hBi (t : Fin cfg1.N) : (mBi t).IsWhole := hstage1_6 ((cfg1.slots t 6).cast nbuf1_6)
abbrev mO (t : Fin cfg1.N) : Memref sig .tc .vmem S512x512 .f32 := win1_7.stage (cfg1.slots t 7)
abbrev hO (t : Fin cfg1.N) : (mO t).IsWhole := hstage1_7 ((cfg1.slots t 7).cast nbuf1_7)
/-- The accumulator: a scoped buffer of the kernel's own, carried from point to point. -/
abbrev mAcc : Memref sig .tc .vmem S512x512 .f32 := Memref.whole cc1_scratch0
abbrev vAcc : View sig .tc .vmem S512x512 .f32 := mAcc.view
abbrev vOut : View sig .tc .vmem S512x512 .f32 := (Memref.whole cc1_stg7_0 : Memref sig .tc .vmem S512x512 .f32).view

/-- The scoped buffers that are neither staged by this call nor its accumulator, each at some contents. -/
abbrev others (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA_eq (c : Dev nD) :
    (Pipeline.ΦA spec1 c : sProp 𝕄)
      = iprop(iprop((∃ d, owns (c : Thread nD τ) mAcc fullShare d) ∗ others (F := F) c) ∗ (∃ r, prngReg c r)) := by
  unfold Pipeline.ΦA
  rw [Pipeline.scopedRest_split_of_list spec1 c [cc1_scratch0] (by decide) (by decide)]
  simp only [mAcc, owns_whole, bigSepL]
  rfl

end Cert.KernelIdeal.Reg1

end
-- ==== Proof.KI.R1RunFirst.lean ====
/- The second pallas_call's body at a point that opens a contraction (k = 0): the accumulator is overwritten with zeros, then with zeros plus the product of the activation and weight blocks; nothing is stored into the output window, whose buffer is handed back as it was. The list of pieces the accumulator ends with is found by running the body. -/
import proofs.«135921_j83004537962674_1_alg».proof.Proof.KI.R1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runFirst (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) :
    { LS : List (View.Piece (Elt F) S512x512 .f32) //
      ∀ (xo : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun xo E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]
    · iexists _; isplitr; · ipureintro; exact harg10.read_unread _
      iexact HO
    iexists _; iexact HS

end Cert.KernelIdeal.Reg1

end
-- ==== Proof.KI.R1RunMid.lean ====
/- The second pallas_call's body at a point inside a contraction (k = 1, 2): the accumulator, found at what the point before left, is overwritten with itself plus the product of the activation and weight blocks; the output window's buffer is handed back as it was. -/
import proofs.«135921_j83004537962674_1_alg».proof.Proof.KI.R1RunFirst

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runMid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    { LS : List (View.Piece (Elt F) S512x512 .f32) //
      ∀ (xo : Vec F S512x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun xo E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfo; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]
    · iexists _; isplitr; · ipureintro; exact harg10.read_unread _
      iexact HO
    iexists _; iexact HS

end Cert.KernelIdeal.Reg1

end
-- ==== Proof.KI.R1RunLast.lean ====
/- The second pallas_call's body at a point that closes a contraction (k = 3): the accumulator, found at what the point before left, is overwritten with itself plus the product of the activation and weight blocks; then the two low-rank products of the hidden block are formed, scale and bias added along the rows, and (additive) + (multiplicative) · (accumulator) is stored over the whole output block. -/
import proofs.«135921_j83004537962674_1_alg».proof.Proof.KI.R1RunMid

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    Σ' (LO : List (View.Piece (Elt F) S512x512 .f32)), { LS : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HO]; · iexists _; iexact HO
    iexists _; iexact HS

end Cert.KernelIdeal.Reg1

end
-- ==== Proof.KI.R1.lean ====
/- The second pallas_call, out = (h·Baᵀ + t) + (h·Bmᵀ + s) · (x·Wᵀ): what its accumulator and its output block hold
   after each grid point, the call's proof data and the body obligation at every point.
   The grid is (row block m, column block n, contraction block k), visited with k fastest: point t has k = t mod 4.
   After point t the accumulator holds the sum of the products of the activation and weight blocks at the points of
   the same (m, n) up to t (the run restarts at every k = 0); the output block is stored only at k = 3, from the
   accumulator and the five blocks that do not depend on k, and is written back there. -/
import proofs.«135921_j83004537962674_1_alg».proof.Proof.KI.R1RunLast

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What a point leaves in the accumulator and in the output block -/

theorem cover_first (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (y : S512x512.Idx) :
    ∃ pc ∈ (runFirst c i arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (runFirst c i arg3 harg3 arg4 harg4 arg5 harg5 arg6 harg6 arg7 harg7 arg8 harg8 arg9 harg9 arg10 harg10 arg11 harg11 hc0 hc1 x0 x1 x2 x3 x4 x5 x6).1 S512x512.size (by sl_kernel_rfl) y

/-- The accumulator after a point with k = 0. -/
def accFirst (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) : Vec F S512x512 .f32 :=
  vAcc.read (Elt F) (vAcc.writes (Elt F) vAcc.junk (runFirst c i arg3 harg3 arg4 harg4 arg5 harg5 arg6 harg6 arg7 harg7 arg8 harg8 arg9 harg9 arg10 harg10 arg11 harg11 hc0 hc1 x0 x1 x2 x3 x4 x5 x6).1)

theorem cover_mid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runMid c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (runMid c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

/-- The accumulator after a point with k = 1 or 2, over what the point before left. -/
def accMid (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vAcc.read (Elt F) (vAcc.writes (Elt F) vAcc.junk (runMid c i arg3 harg3 arg4 harg4 arg5 harg5 arg6 harg6 arg7 harg7 arg8 harg8 arg9 harg9 arg10 harg10 arg11 harg11 hc0 hc1 x0 x1 x2 x3 x4 x5 x6 xs).1)

theorem cover_last_acc (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runLast c i arg3 harg3 arg4 harg4 arg5 harg5 arg6 harg6 arg7 harg7 arg8 harg8 arg9 harg9 arg10 harg10 arg11 harg11 hc0 hc1 x0 x1 x2 x3 x4 x5 x6 xs).2.1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 x4 x5 x6 xs).2.1 S512x512.size (by sl_kernel_rfl) y

theorem cover_last_out (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) (y : S512x512.Idx) :
    ∃ pc ∈ (runLast c i arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (runLast c i arg3 harg3 arg4 harg4 arg5 harg5 arg6 harg6 arg7 harg7 arg8 harg8 arg9 harg9 arg10 harg10 arg11 harg11 hc0 hc1 x0 x1 x2 x3 x4 x5 x6 xs).1 S512x512.size (by sl_kernel_rfl) y

/-- The accumulator after a point with k = 3, over what the point before left. -/
def accLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vAcc.read (Elt F) (vAcc.writes (Elt F) vAcc.junk (runLast c i arg3 harg3 arg4 harg4 arg5 harg5 arg6 harg6 arg7 harg7 arg8 harg8 arg9 harg9 arg10 harg10 arg11 harg11 hc0 hc1 x0 x1 x2 x3 x4 x5 x6 xs).2.1)

/-- The output block after a point with k = 3. -/
def outLast (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) : Vec F S512x512 .f32 :=
  vOut.read (Elt F) (vOut.writes (Elt F) vOut.junk (runLast c i arg3 harg3 arg4 harg4 arg5 harg5 arg6 harg6 arg7 harg7 arg8 harg8 arg9 harg9 arg10 harg10 arg11 harg11 hc0 hc1 x0 x1 x2 x3 x4 x5 x6 xs).1)

/-! ## The accumulation, point by point -/

/-- What the accumulator holds after the body at position `n`. -/
def accAt (c : Dev nD) : (n : ℕ) → n < cfg1.N → Vec F S512x512 .f32
  | 0, hn => accFirst c (grid1.coords ⟨0, hn⟩) (mX ⟨0, hn⟩) (hX ⟨0, hn⟩) (mW ⟨0, hn⟩) (hW ⟨0, hn⟩) (mH ⟨0, hn⟩) (hH ⟨0, hn⟩) (mBm ⟨0, hn⟩) (hBm ⟨0, hn⟩) (mBa ⟨0, hn⟩) (hBa ⟨0, hn⟩) (mSc ⟨0, hn⟩) (hSc ⟨0, hn⟩) (mBi ⟨0, hn⟩) (hBi ⟨0, hn⟩) (mO ⟨0, hn⟩) (hO ⟨0, hn⟩) mAcc (Memref.isWhole_whole _) ((isFirst_iff ⟨0, hn⟩).mpr (Nat.zero_mod _)) (fun h => by have := (isLast_iff ⟨0, hn⟩).mp h; (try dsimp only at this); omega) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩)
  | n + 1, hn =>
    if h0 : (n + 1) % 4 = 0 then
      accFirst c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) ((isFirst_iff ⟨n + 1, hn⟩).mpr h0) (fun h => by have := (isLast_iff ⟨n + 1, hn⟩).mp h; (try dsimp only at this); omega) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩)
    else if h1 : (n + 1) % 4 = 3 then
      accLast c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (accAt c n (Nat.lt_of_succ_lt hn))
    else
      accMid c (grid1.coords ⟨n + 1, hn⟩) (mX ⟨n + 1, hn⟩) (hX ⟨n + 1, hn⟩) (mW ⟨n + 1, hn⟩) (hW ⟨n + 1, hn⟩) (mH ⟨n + 1, hn⟩) (hH ⟨n + 1, hn⟩) (mBm ⟨n + 1, hn⟩) (hBm ⟨n + 1, hn⟩) (mBa ⟨n + 1, hn⟩) (hBa ⟨n + 1, hn⟩) (mSc ⟨n + 1, hn⟩) (hSc ⟨n + 1, hn⟩) (mBi ⟨n + 1, hn⟩) (hBi ⟨n + 1, hn⟩) (mO ⟨n + 1, hn⟩) (hO ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (accAt c n (Nat.lt_of_succ_lt hn))

theorem accAt_first (c : Dev nD) (t : Fin cfg1.N) (h0 : t.val % 4 = 0) (h1 : ¬t.val % 4 = 3) :
    accAt V c t.val t.isLt = accFirst c (grid1.coords t) (mX t) (hX t) (mW t) (hW t) (mH t) (hH t) (mBm t) (hBm t) (mBa t) (hBa t) (mSc t) (hSc t) (mBi t) (hBi t) (mO t) (hO t) mAcc (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t) := by
  obtain ⟨n, hn⟩ := t
  cases n with
  | zero => exact rfl
  | succ n => exact (dif_pos h0).trans rfl

theorem accAt_mid (c : Dev nD) (t : Fin cfg1.N) (h0 : ¬t.val % 4 = 0) (h1 : ¬t.val % 4 = 3) :
    accAt V c t.val t.isLt = accMid c (grid1.coords t) (mX t) (hX t) (mW t) (hW t) (mH t) (hH t) (mBm t) (hBm t) (mBa t) (hBa t) (mSc t) (hSc t) (mBi t) (hBi t) (mO t) (hO t) mAcc (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = accLast c (grid1.coords t) (mX t) (hX t) (mW t) (hW t) (mH t) (hH t) (mBm t) (hBm t) (mBa t) (hBa t) (mSc t) (hSc t) (mBi t) (hBi t) (mO t) (hO t) mAcc (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after the body at point `t`: the stored block where k = 3; elsewhere the
    window is idle and nothing reads this value. -/
def outAt (c : Dev nD) (t : Fin cfg1.N) : Vec F S512x512 .f32 :=
  if h1 : t.val % 4 = 3 then
    outLast c (grid1.coords t) (mX t) (hX t) (mW t) (hW t) (mH t) (hH t) (mBm t) (hBm t) (mBa t) (hBa t) (mSc t) (hSc t) (mBi t) (hBi t) (mO t) (hO t) mAcc (Memref.isWhole_whole _) (fun h => by have := (isFirst_iff t).mp h; omega) ((isLast_iff t).mpr h1) (iblk V c 0 t) (iblk V c 1 t) (iblk V c 2 t) (iblk V c 3 t) (iblk V c 4 t) (iblk V c 5 t) (iblk V c 6 t)
      (accAt V c (t.val - 1) (Nat.lt_of_le_of_lt (Nat.sub_le _ _) t.isLt))
  else vOut.read (Elt F) vOut.junk

/-! ## The invariant and the proof data -/

/-- Before position `n`: at the start the class invariant (every scoped buffer at anything); afterwards the accumulator
    at what the point before left, the other scoped buffers at anything, the generator register at some state. -/
def Inv (c : Dev nD) : (n : ℕ) → n ≤ cfg1.N → sProp 𝕄
  | 0, _ => Pipeline.ΦA spec1 c
  | n + 1, hn => iprop(iprop(owns (c : Thread nD τ) mAcc fullShare (accAt V c n hn) ∗ others (F := F) c) ∗ (∃ r, prngReg c r))

theorem Inv_zero (c : Dev nD) (n : ℕ) (h : n ≤ cfg1.N) (hz : n = 0) : Inv V c n h = Pipeline.ΦA spec1 c := by
  subst hz; rfl

theorem Inv_succ (c : Dev nD) (n : ℕ) (hn : n < cfg1.N) :
    Inv V c (n + 1) hn = iprop(iprop(owns (c : Thread nD τ) mAcc fullShare (accAt V c n hn) ∗ others (F := F) c) ∗ (∃ r, prngReg c r)) := rfl

theorem Inv_pos (c : Dev nD) (n : ℕ) (h : n ≤ cfg1.N) (hz : n ≠ 0) :
    Inv V c n h = iprop(iprop(owns (c : Thread nD τ) mAcc fullShare (accAt V c (n - 1) (by omega)) ∗ others (F := F) c) ∗ (∃ r, prngReg c r)) := by
  cases n with
  | zero => exact absurd rfl hz
  | succ n => rfl

/-- The call's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]

theorem Inv_castSucc (c : Dev nD) (t : Fin cfg1.N) :
    (dat V c).Φ t.castSucc = Inv V c t.val (Nat.le_of_lt t.isLt) := by
  dsimp only [dat]; simp only [Fin.coe_castSucc]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_in6 (c : Dev nD) (t : Fin cfg1.N) : (dat V c).after 6 t = iblk V c 6 t := by dsimp only [dat]
theorem after_out (c : Dev nD) (t : Fin cfg1.N) : (dat V c).after 7 t = outAt V c t := by dsimp only [dat]

theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d
theorem before_in6 (c : Dev nD) (t : Fin cfg1.N) (d) : (dat V c).before 6 t d = iblk V c 6 t :=
  before_in6_of V (dat V c) (A_eq V c 6) (after_in6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mW t) fullShare ((dat V c).before 1 t d))
    ∗ (∃ d, owns (c : Thread nD τ) (mH t) fullShare ((dat V c).before 2 t d))
    ∗ (∃ d, owns (c : Thread nD τ) (mBm t) fullShare ((dat V c).before 3 t d))
    ∗ (∃ d, owns (c : Thread nD τ) (mBa t) fullShare ((dat V c).before 4 t d))
    ∗ (∃ d, owns (c : Thread nD τ) (mSc t) fullShare ((dat V c).before 5 t d))
    ∗ (∃ d, owns (c : Thread nD τ) (mBi t) fullShare ((dat V c).before 6 t d))
    ∗ (∃ d, owns (c : Thread nD τ) (mO t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5, before_in6]
  rw [show (dat V c).owesAt () t.succ = (dat V c).owesAt () t.castSucc from rfl]
  rw [show (dat V c).Φ t.succ = Inv V c (t.val + 1) t.isLt from rfl, Inv_succ]
  have hN : t.val < 512 := lt_of_lt_of_eq t.isLt (show cfg1.N = 512 from N_1)
  rw [show (dat V c).leavesExact 0 t = owns (c : Thread nD τ) (mX t) fullShare ((dat V c).after 0 t) from by
    unfold Dat.leavesExact; rw [live_in0 t], after_in0]
  rw [show (dat V c).leavesExact 1 t = owns (c : Thread nD τ) (mW t) fullShare ((dat V c).after 1 t) from by
    unfold Dat.leavesExact; rw [live_in1 t], after_in1]
  rw [show (dat V c).leavesExact 2 t = owns (c : Thread nD τ) (mH t) fullShare ((dat V c).after 2 t) from by
    unfold Dat.leavesExact; rw [live_in2 t], after_in2]
  rw [show (dat V c).leavesExact 3 t = owns (c : Thread nD τ) (mBm t) fullShare ((dat V c).after 3 t) from by
    unfold Dat.leavesExact; rw [live_in3 t], after_in3]
  rw [show (dat V c).leavesExact 4 t = owns (c : Thread nD τ) (mBa t) fullShare ((dat V c).after 4 t) from by
    unfold Dat.leavesExact; rw [live_in4 t], after_in4]
  rw [show (dat V c).leavesExact 5 t = owns (c : Thread nD τ) (mSc t) fullShare ((dat V c).after 5 t) from by
    unfold Dat.leavesExact; rw [live_in5 t], after_in5]
  rw [show (dat V c).leavesExact 6 t = owns (c : Thread nD τ) (mBi t) fullShare ((dat V c).after 6 t) from by
    unfold Dat.leavesExact; rw [live_in6 t], after_in6]
  by_cases h0 : t.val % 4 = 0
  · have h1 : ¬t.val % 4 = 3 := by omega
    have hnl : ¬isLast (grid1.coords t) := fun h => h1 ((isLast_iff t).mp h)
    rw [Dat.leavesExact_idle (dat V c) 7 t (idle_out t hnl) (noFlush_out t hnl)]
    rw [accAt_first V c t h0 h1]
    unfold accFirst; (try dsimp only)
    by_cases hz : t.val = 0
    · rw [Inv_castSucc V c t, Inv_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hnl (iblk V c 0 t) (iblk V c 1 t) (iblk V c 2 t) (iblk V c 3 t) (iblk V c 4 t) (iblk V c 5 t) (iblk V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runFirst c (grid1.coords t) _ _ _ _ _ _ _ _ _ _ _ _ _ _ _ _ _ _ ((isFirst_iff t).mpr h0) hnl (iblk V c 0 t) (iblk V c 1 t) (iblk V c 2 t) (iblk V c 3 t) (iblk V c 4 t) (iblk V c 5 t) (iblk V c 6 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_first c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    have hnf : ¬isFirst (grid1.coords t) := fun h => h0 ((isFirst_iff t).mp h)
    by_cases h1 : t.val % 4 = 3
    · have hl : isLast (grid1.coords t) := (isLast_iff t).mpr h1
      rw [show (dat V c).leavesExact 7 t = owns (c : Thread nD τ) (mO t) fullShare ((dat V c).after 7 t) from by
        unfold Dat.leavesExact; rw [live_out t hl], after_out]
      rw [show outAt V c t = outLast c (grid1.coords t) (mX t) (hX t) (mW t) (hW t) (mH t) (hH t) (mBm t) (hBm t) (mBa t) (hBa t) (mSc t) (hSc t) (mBi t) (hBi t) (mO t) (hO t) mAcc (Memref.isWhole_whole _) hnf hl (iblk V c 0 t) (iblk V c 1 t) (iblk V c 2 t) (iblk V c 3 t) (iblk V c 4 t) (iblk V c 5 t) (iblk V c 6 t)
        (accAt V c (t.val - 1) (Nat.lt_of_le_of_lt (Nat.sub_le _ _) t.isLt)) from dif_pos h1]
      rw [accAt_last V c t h0 h1]
      unfold outLast accLast; (try dsimp only)
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ hnf hl (iblk V c 0 t) (iblk V c 1 t) (iblk V c 2 t) (iblk V c 3 t) (iblk V c 4 t) (iblk V c 5 t) (iblk V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_last_acc c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_last_out c _ _ _ _ _ _ _ _ _ _ _ _ _ _ _ _ _ _ _ _ _ _ _ _ _ _ _ _ _)
    · have hnl : ¬isLast (grid1.coords t) := fun h => h1 ((isLast_iff t).mp h)
      rw [Dat.leavesExact_idle (dat V c) 7 t (idle_out t hnl) (noFlush_out t hnl)]
      rw [accAt_mid V c t h0 h1]
      unfold accMid; (try dsimp only)
      rw [Inv_castSucc V c t, Inv_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ hnf hnl (iblk V c 0 t) (iblk V c 1 t) (iblk V c 2 t) (iblk V c 3 t) (iblk V c 4 t) (iblk V c 5 t) (iblk V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (cover_mid c _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) V c) (defs₀ (F := F)) Variants.none () Set.univ := fun t => by
  rw [bigSep_W1, bigSep_W1]
  exact sound_body V c t

/-- Entering: the class invariant is the invariant before the first point. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- Leaving: the accumulator's contents are forgotten. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 512 := N_1; omega), PhiA_eq]
  iintro ⟨⟨HS, Hoth⟩, Hg⟩
  isplitl [HS Hoth]
  · isplitl [HS]
    · iexists _; iexact HS
    iexact Hoth
  iexact Hg

end

end Cert.KernelIdeal.Reg1

end
-- ==== Proof.KI.Whole.lean ====
/- The whole program's run: @main is three stretches of host operations (a reshape of the index array, the
   dequantising gather, the layout changes of the operands), the two pallas_calls, and a last reshape. Between two
   items the core holds every unscoped buffer at known contents: the launch memory folded through the host stretches,
   and after a pallas_call its arrays at what its write-backs leave, every other buffer as before. The run is the
   library's rule for a program of several kernel regions over these thread states; its post names every unscoped
   buffer's final contents, from which both the frame claim (the arguments end as launched) and the value of the
   result are read. -/
import proofs.«135921_j83004537962674_1_alg».proof.Proof.KI.R0
import proofs.«135921_j83004537962674_1_alg».proof.Proof.KI.R1
import proofs.«135921_j83004537962674_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- When the first pallas_call is entered: the launch memory after the three host stretches. -/
abbrev W3 : Dev nD → Valuation τ sig (Elt F) := fun c => Gen.V3 m c
abbrev E3 : (c : Dev nD) → (b : Ref sig .tc) → Buf (Elt F) ((c : Thread nD τ).loc b) := fun c b => W3 m c b
/-- When it is left: its arrays at what the pipeline leaves, every other buffer as entered. -/
def W4 (c : Dev nD) : Valuation τ sig (Elt F) :=
  Pipeline.withArrays spec0 c (W3 m c) fun w => (Reg0.dat (E3 m) c).arrAt w cfg0.N
theorem W4_arr (c : Dev nD) (w : Fin cfg0.W) :
    W4 m c (Proc.devRef .tc (Pipeline.arrRef spec0 w)) = (Reg0.dat (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (Reg0.dat (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- When the second pallas_call is left. -/
def W5 (c : Dev nD) : Valuation τ sig (Elt F) :=
  Pipeline.withArrays spec1 c (W4 m c) fun w => (Reg1.dat (E4 m) c).arrAt w cfg1.N
theorem W5_arr (c : Dev nD) (w : Fin cfg1.W) :
    W5 m c (Proc.devRef .tc (Pipeline.arrRef spec1 w)) = (Reg1.dat (E4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev E5 : (c : Dev nD) → (b : Ref sig .tc) → Buf (Elt F) ((c : Thread nD τ).loc b) := fun c b => W5 m c b
theorem hF1 (c : Dev nD) (w : Fin cfg1.W) : (Reg1.dat (E4 m) c).arrAt w cfg1.N = E5 m c (Pipeline.arrRef spec1 w) :=
  (W5_arr m c w).symm
theorem hrest1 (c : Dev nD) : ∀ b, b ∉ Finset.univ.image (Pipeline.arrRef spec1) → E5 m c b = E4 m c b :=
  fun b hb => W5_of_ne m c b fun w e => hb (Finset.mem_image.mpr ⟨w, Finset.mem_univ _, e⟩)

/-- At the return: after the last reshape. -/
abbrev W6 : Dev nD → Valuation τ sig (Elt F) := fun c => StableHlo.after hostOps2 (W5 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => Reg0.dat (E3 m) c
  | ⟨1, _⟩ => fun c => Reg1.dat (E4 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The pallas_calls as segments -/

set_option backward.isDefEq.respectTransparency.types false in
/-- The first pallas_call over the thread state: its arrays split out of the unscoped buffers and put back at the
    exit contents; the generator register and the scoped buffers into its invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h1.trans (Reg0.inv_in (E3 m) c)
  hout c := by
    rw [Pipeline.ownSems0_none]
    have h2 : (Pipeline.ΦA spec0 c : sProp 𝕄)
        ⊢ iprop((∃ r, prngReg c r) ∗ emp
          ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (Reg0.inv_out (E3 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call, the same way, from the first's exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h1.trans (Reg1.inv_in (E4 m) c)
  hout c := by
    rw [Pipeline.ownSems0_none]
    have h2 : (Pipeline.ΦA spec1 c : sProp 𝕄)
        ⊢ iprop((∃ r, prngReg c r) ∗ emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Reg1.inv_out (E4 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .region (reg1 m),
    .host (hseg hostOps2 hostOps2_sub hostOps2_fresh (W5 m)) ]

theorem main_run (c : Dev nD) : main (F := F) c = Pipeline.Seg.run (segs m) := by
  rw [main_chain c, Pipeline.Seg.run_eq_chain]
  rfl

set_option backward.isDefEq.respectTransparency.types false in
/-- Every weakly fair execution of @main from memory `m` with zero counters terminates, nothing faulting, and every
    final memory holds each unscoped buffer at the contents the fold `W6` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c =>
      show iprop(StableHlo.held (c : Thread nD τ) (Pipeline.ucRefs τ sig) (W6 m c) ∗ R (F := F) c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Whole

end
-- ==== Proof.KI.Frame.lean ====
/- The frame claim from the whole run: no host stretch writes an argument array and no pallas_call's window is one,
   so the fold of the buffers' contents, read at an argument, walks back to the launch memory. -/
import proofs.«135921_j83004537962674_1_alg».proof.Proof.KI.Whole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and no window of either call stages ends at its launch contents. -/
theorem W6_untouched (c : Dev nD) (r : Ref sig .tc) (h2 : r ∉ hostOps2_W) (h1 : ∀ w, Pipeline.arrRef spec1 w ≠ r)
    (h0 : ∀ w, Pipeline.arrRef spec0 w ≠ r) (h02 : r ∉ hostOps0_2_W) (h01 : r ∉ hostOps0_1_W) (h00 : r ∉ hostOps0_W) :
    W6 m c r = m ((c : Thread nD τ).loc r) :=
  (StableHlo.after_of_writes_sub hostOps2 _ hostOps2_writes h2).trans <| (W5_of_ne m c r h1).trans <| (W4_of_ne m c r h0).trans <|
    (V3_of m c r h02).trans <| (V2_of m c r h01).trans <| (V1_of m c r h00).trans rfl

/-- A memory that holds every unscoped buffer at the run's final contents holds the nine argument arrays as launched. -/
theorem args_kept (c : Dev nD) (mem : (ℓ : Loc nD τ sig) → Buf (Elt F) ℓ)
    (h : ∀ b ∈ Pipeline.ucRefs τ sig, mem (((c : Thread nD τ)).1, b) = W6 m c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (W6_untouched m c main_arg0 (by decide) (by decide) (by decide) (by decide) (by decide) (by decide)),
    (h _ (mem_uc main_arg1 (by decide))).trans (W6_untouched m c main_arg1 (by decide) (by decide) (by decide) (by decide) (by decide) (by decide)),
    (h _ (mem_uc main_arg2 (by decide))).trans (W6_untouched m c main_arg2 (by decide) (by decide) (by decide) (by decide) (by decide) (by decide)),
    (h _ (mem_uc main_arg3 (by decide))).trans (W6_untouched m c main_arg3 (by decide) (by decide) (by decide) (by decide) (by decide) (by decide)),
    (h _ (mem_uc main_arg4 (by decide))).trans (W6_untouched m c main_arg4 (by decide) (by decide) (by decide) (by decide) (by decide) (by decide)),
    (h _ (mem_uc main_arg5 (by decide))).trans (W6_untouched m c main_arg5 (by decide) (by decide) (by decide) (by decide) (by decide) (by decide)),
    (h _ (mem_uc main_arg6 (by decide))).trans (W6_untouched m c main_arg6 (by decide) (by decide) (by decide) (by decide) (by decide) (by decide)),
    (h _ (mem_uc main_arg7 (by decide))).trans (W6_untouched m c main_arg7 (by decide) (by decide) (by decide) (by decide) (by decide) (by decide)),
    (h _ (mem_uc main_arg8 (by decide))).trans (W6_untouched m c main_arg8 (by decide) (by decide) (by decide) (by decide) (by decide) (by decide))⟩

/-- Every weakly fair execution of @main terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m c r.2.mem (h c)) (run_all m ρ)

end Cert.KernelIdeal.Whole

end
-- ==== Proof.KI.Val0a.lean ====
/- The first pallas_call, h = x · Aᵀ, read as values (first part). What each of the body's three cases leaves in the
   accumulator and in the output block, as the payloads of the blocks it read (any float values); then, at the ideal
   values, each payload at an entry (p, q): the reset block is 0, the update is the accumulator's entry plus
   ∑ₖ x(p, k) · a(k, q) over the block's 1024 contraction coordinates, the narrowing is the identity; and where an
   entry of an input block sits in its array: block index × block size + the coordinate inside the block, with the
   block indices (t / 4, t mod 4) for x, (t mod 4, 0) for Aᵀ and (t / 4, 0) for h decided once over the 32 points. -/
import proofs.«135921_j83004537962674_1_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-- The zero offsets of a whole-block rectangle, however they are spelt. -/
theorem zeroOff : (![0, 0] : Fin 2 → Nat) = fun _ => 0 := funext fun a => by fin_cases a <;> rfl

/-! ## What each case leaves, as the payloads of the blocks it read -/

/-- Inside a contraction (k = 1, 2) the accumulator ends at itself plus the product of the two input blocks. -/
theorem accMid_eq (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : ¬isLast i)
    (x0 : Vec F S1024x1024 .bf16) (x1 : Vec F S1024x128 .bf16) (xs : Vec F S1024x128 .f32) :
    accMid c i arg2 harg2 arg3 harg3 arg4 harg4 arg5 harg5 hc0 hc1 x0 x1 xs = k0_pay2 xs x0 x1 := by
  unfold accMid
  rw [View.read_writes_eq_canon _ _ _ (cover_mid c i arg2 harg2 arg3 harg3 arg4 harg4 arg5 harg5 hc0 hc1 x0 x1 xs)]
  unfold runMid
  dsimp only
  sl_unfold_words
  rw [View.canon_unit_zero zeroOff]
  simp only [View.readAt_eq_ld, harg2.read_unread, harg3.read_unread, harg5.read_unread,
    View.ld_unit_zero (S := S1024x1024) zeroOff, View.ld_unit_zero (S := S1024x128) zeroOff]

/-- Where a contraction opens (k = 0) the accumulator is zeroed first, so it ends at zero plus the product. -/
theorem accFirst_eq (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : isFirst i) (hc1 : ¬isLast i)
    (x0 : Vec F S1024x1024 .bf16) (x1 : Vec F S1024x128 .bf16) :
    accFirst c i arg2 harg2 arg3 harg3 arg4 harg4 arg5 harg5 hc0 hc1 x0 x1 = k0_pay2 (k0_pay1 (F := F)) x0 x1 := by
  unfold accFirst
  rw [View.read_writes_eq_canon _ _ _ (cover_first c i arg2 harg2 arg3 harg3 arg4 harg4 arg5 harg5 hc0 hc1 x0 x1)]
  unfold runFirst
  dsimp only
  sl_unfold_words
  rw [View.canon_cons_unit_zero (S := S1024x128) zeroOff]
  simp only [View.readAt_eq_ld, harg2.read_unread, harg3.read_unread, View.readCov_unit_zero (S := S1024x128) _ zeroOff,
    View.ld_unit_zero (S := S1024x1024) zeroOff, View.ld_unit_zero (S := S1024x128) zeroOff]

/-- Where a contraction closes (k = 3) the accumulator ends as inside it: itself plus the product. -/
theorem accLast_eq (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) :
    accLast c i arg2 harg2 arg3 harg3 arg4 harg4 arg5 harg5 hc0 hc1 x0 x1 xs = k0_pay2 xs x0 x1 := by
  unfold accLast
  rw [View.read_writes_eq_canon _ _ _ (cover_last_acc c i arg2 harg2 arg3 harg3 arg4 harg4 arg5 harg5 hc0 hc1 x0 x1 xs)]
  unfold runLast
  dsimp only
  sl_unfold_words
  rw [View.canon_unit_zero zeroOff]
  simp only [View.readAt_eq_ld, harg2.read_unread, harg3.read_unread, harg5.read_unread, View.readCov_unit_zero (S := S1024x128) _ zeroOff,
    View.ld_unit_zero (S := S1024x1024) zeroOff, View.ld_unit_zero (S := S1024x128) zeroOff]

/-- and the output block is stored with the accumulator's new contents, narrowed. -/
theorem outLast_eq (c : Dev nD) (i : grid0.Coords) (arg2 : Memref sig .tc .vmem S1024x1024 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .f32) (harg5 : arg5.IsWhole) (hc0 : ¬isFirst i) (hc1 : isLast i)
    (x0 : Vec F S1024x1024 .bf16) (x1 : Vec F S1024x128 .bf16) (xs : Vec F S1024x128 .f32) :
    outLast c i arg2 harg2 arg3 harg3 arg4 harg4 arg5 harg5 hc0 hc1 x0 x1 xs = k0_pay3 (k0_pay2 xs x0 x1) := by
  unfold outLast
  rw [View.read_writes_eq_canon _ _ _ (cover_last_out c i arg2 harg2 arg3 harg3 arg4 harg4 arg5 harg5 hc0 hc1 x0 x1 xs)]
  unfold runLast
  dsimp only
  sl_unfold_words
  rw [View.canon_unit_zero zeroOff]
  simp only [View.readAt_eq_ld, harg2.read_unread, harg3.read_unread, harg5.read_unread, View.readCov_unit_zero (S := S1024x128) _ zeroOff,
    View.ld_unit_zero (S := S1024x1024) zeroOff, View.ld_unit_zero (S := S1024x128) zeroOff]

/-! ## The payloads at an index, at the ideal values -/

theorem lhs_hid_0 (i : S1024x128.Idx) (k : dot_S1024x1024_S1024x128_S1024x128_1_0_0_1_n_n.contr.Idx) :
    (dot_S1024x1024_S1024x128_S1024x128_1_0_0_1_n_n.lhsIdx i k 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_hid_1 (i : S1024x128.Idx) (k : dot_S1024x1024_S1024x128_S1024x128_1_0_0_1_n_n.contr.Idx) :
    (dot_S1024x1024_S1024x128_S1024x128_1_0_0_1_n_n.lhsIdx i k 1).val = (k ⟨0, by decide⟩).val :=
  dot_S1024x1024_S1024x128_S1024x128_1_0_0_1_n_n.lhsIdx_val_of_single rfl i k
theorem rhs_hid_0 (i : S1024x128.Idx) (k : dot_S1024x1024_S1024x128_S1024x128_1_0_0_1_n_n.contr.Idx) :
    (dot_S1024x1024_S1024x128_S1024x128_1_0_0_1_n_n.rhsIdx i k 0).val = (k ⟨0, by decide⟩).val :=
  dot_S1024x1024_S1024x128_S1024x128_1_0_0_1_n_n.rhsIdx_val_of_single rfl i k
theorem rhs_hid_1 (i : S1024x128.Idx) (k : dot_S1024x1024_S1024x128_S1024x128_1_0_0_1_n_n.contr.Idx) :
    (dot_S1024x1024_S1024x128_S1024x128_1_0_0_1_n_n.rhsIdx i k 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The block product into the zero accumulator, at (p, q): the sum over the block's contraction coordinate. -/
theorem blockProduct_apply (x0 : FVec Ideal S1024x1024 .bf16) (x1 : FVec Ideal S1024x128 .bf16) (p : Fin 1024) (q : Fin 128) :
    matmul dot_S1024x1024_S1024x128_S1024x128_1_0_0_1_n_n none x0 x1 (constant (F := Ideal) S1024x128 .f32 0x00000000#32) (ix2 p q)
      = ∑ kk : Fin 1024, x0 (ix2 p kk) * x1 (ix2 kk q) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhs_hid_0 _ _
    | ⟨1, _⟩ => exact (lhs_hid_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhs_hid_0 _ _).trans hk
    | ⟨1, _⟩ => exact rhs_hid_1 _ _)
  rw [el, er]

/-- The reset block is zero everywhere. -/
theorem pay1_apply (p : Fin 1024) (q : Fin 128) : (k0_pay1 (F := Ideal)) (ix2 p q) = 0 := by
  unfold k0_pay1
  simp only [shapeCast_self]
  exact Ideal.ofBits_zero_f32

/-- The update at (p, q): the accumulator there plus the block product there. -/
theorem pay2_apply (xs : FVec Ideal S1024x128 .f32) (x0 : FVec Ideal S1024x1024 .bf16) (x1 : FVec Ideal S1024x128 .bf16) (p : Fin 1024) (q : Fin 128) :
    k0_pay2 (F := Ideal) xs x0 x1 (ix2 p q) = xs (ix2 p q) + ∑ kk : Fin 1024, x0 (ix2 p kk) * x1 (ix2 kk q) := by
  unfold k0_pay2
  simp only [shapeCast_self]
  exact congrArg (fun z => xs (ix2 p q) + z) (blockProduct_apply x0 x1 p q)

/-- Narrowing is the identity on the ideal values. -/
theorem pay3_apply (v : FVec Ideal S1024x128 .f32) (p : Fin 1024) (q : Fin 128) :
    k0_pay3 (F := Ideal) v (ix2 p q) = v (ix2 p q) := by
  unfold k0_pay3
  rfl

/-! ## The arrays and the blocks, at their literal types -/

section
variable (V : (c : Dev nD) → (b : Ref sig .tc) → Buf (Elt Ideal) ((c : Thread nD τ).loc b))

/-- The activations x, the factor Aᵀ, as the call finds them. -/
abbrev xArr (c : Dev nD) : FVec Ideal S8192x4096 .bf16 := V c main_v14
abbrev aArr (c : Dev nD) : FVec Ideal S4096x128 .bf16 := V c main_v16
/-- Their blocks at grid point t. -/
abbrev xBlk (c : Dev nD) (t : Fin cfg0.N) : FVec Ideal S1024x1024 .bf16 := iblk V c 0 t
abbrev aBlk (c : Dev nD) (t : Fin cfg0.N) : FVec Ideal S1024x128 .bf16 := iblk V c 1 t

/-- Point t has row block t / 4 and contraction block t mod 4: the three windows' block indices there. -/
theorem index_x : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index_a : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem index_h : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- Entry (a, b) of x's block at t is x at row (t / 4) · 1024 + a, column (t mod 4) · 1024 + b. -/
theorem xBlk_apply (c : Dev nD) (t : Fin cfg0.N) (a b : Fin 1024) (r : Fin 8192) (s : Fin 4096)
    (hr : r.val = t.val / 4 * 1024 + a.val) (hs : s.val = t.val % 4 * 1024 + b.val) :
    xBlk V c t (ix2 a b) = xArr V c (ix2 r s) := by
  have hi := index_x t
  unfold xBlk iblk
  rw [View.read_apply]
  show V c main_v14 _ = V c main_v14 _
  congr 1
  funext d
  apply Fin.ext
  match d with
  | ⟨0, _⟩ => show win0_0.index t 0 * 1024 + 1 * a.val = r.val; rw [hi.1]; omega
  | ⟨1, _⟩ => show win0_0.index t 1 * 1024 + 1 * b.val = s.val; rw [hi.2]; omega

/-- Entry (a, b) of Aᵀ's block at t is Aᵀ at row (t mod 4) · 1024 + a, column b. -/
theorem aBlk_apply (c : Dev nD) (t : Fin cfg0.N) (a : Fin 1024) (b : Fin 128) (r : Fin 4096)
    (hr : r.val = t.val % 4 * 1024 + a.val) :
    aBlk V c t (ix2 a b) = aArr V c (ix2 r b) := by
  have hi := index_a t
  unfold aBlk iblk
  rw [View.read_apply]
  show V c main_v16 _ = V c main_v16 _
  congr 1
  funext d
  apply Fin.ext
  match d with
  | ⟨0, _⟩ => show win0_1.index t 0 * 1024 + 1 * a.val = r.val; rw [hi.1]; omega
  | ⟨1, _⟩ => show win0_1.index t 1 * 128 + 1 * b.val = b.val; rw [hi.2]; omega

end

end Cert.KernelIdeal.Reg0

end
-- ==== Proof.KI.Val0.lean ====
/- The first pallas_call, h = x · Aᵀ, read as values (second part): the VALUE of its result array, as one function.
   The grid is (row block m, contraction block k) with k fastest: point t has m = t / 4 and k = t mod 4. At the
   ideal values the accumulator after point t holds, at (p, q), the sum over the contraction blocks kb ≤ t mod 4 of
   ∑ₖ x((t / 4) · 1024 + p, kb · 1024 + k) · Aᵀ(kb · 1024 + k, q)  (by induction over the points: a point with k = 0
   starts from zero, every other point adds its blocks' product to what the point before left). At k = 3 that is
   the sum over all 4096 contracted coordinates (4 blocks of 1024, regrouped through Fin 4 × Fin 1024 ≃ Fin 4096),
   and it is what is stored, narrowed (the identity on the ideal values), and written back as block (t / 4, 0) of h.
   The row blocks' write-backs cover the array (row r lies in the block of the point 4 · (r / 1024) + 3), so the
   array ends holding  h(j₀, j₁) = ∑ᵢ x(j₀, i) · Aᵀ(i, j₁). -/
import proofs.«135921_j83004537962674_1_alg».proof.Proof.KI.Val0a
import Mathlib.Algebra.BigOperators.Fin
import Mathlib.Logic.Equiv.Fin.Basic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

section
variable (V : (c : Dev nD) → (b : Ref sig .tc) → Buf (Elt Ideal) ((c : Thread nD τ).loc b))

/-! ## The accumulator, point by point -/

/-- The accumulator after position n, at its literal type. -/
abbrev accI (c : Dev nD) (n : ℕ) (hn : n < cfg0.N) : FVec Ideal S1024x128 .f32 := accAt V c n hn

theorem accI_congr (c : Dev nD) (m k : ℕ) (hm : m < cfg0.N) (hk : k < cfg0.N) (e : m = k) : accI V c m hm = accI V c k hk := by
  subst e; rfl

/-- Where a contraction opens the accumulator ends at the product of the point's two blocks. -/
theorem acc_open (c : Dev nD) (t : Fin cfg0.N) (h0 : t.val % 4 = 0) (p : Fin 1024) (q : Fin 128) :
    accI V c t.val t.isLt (ix2 p q) = ∑ kk : Fin 1024, xBlk V c t (ix2 p kk) * aBlk V c t (ix2 kk q) := by
  have h1 : ¬t.val % 4 = 3 := by omega
  unfold accI
  rw [accAt_first V c t h0 h1]
  refine (congrFun (accFirst_eq (F := Ideal) c (grid0.coords t) (mX t) (hX t) (mA t) (hA t) (mO t) (hO t) mAcc (Memref.isWhole_whole _) ((isFirst_iff t).mpr h0) (fun h => h1 ((isLast_iff t).mp h)) (iblk V c 0 t) (iblk V c 1 t)) (ix2 p q)).trans ?_
  refine (pay2_apply (k0_pay1 (F := Ideal)) (xBlk V c t) (aBlk V c t) p q).trans ?_
  rw [pay1_apply, zero_add]

/-- Everywhere else it ends at what the point before left plus that product. -/
theorem acc_step (c : Dev nD) (t : Fin cfg0.N) (h0 : ¬t.val % 4 = 0) (p : Fin 1024) (q : Fin 128) :
    accI V c t.val t.isLt (ix2 p q)
      = accI V c (t.val - 1) (Nat.lt_of_le_of_lt (Nat.sub_le _ _) t.isLt) (ix2 p q)
        + ∑ kk : Fin 1024, xBlk V c t (ix2 p kk) * aBlk V c t (ix2 kk q) := by
  unfold accI
  by_cases h1 : t.val % 4 = 3
  · rw [accAt_last V c t h0 h1]
    refine (congrFun (accLast_eq (F := Ideal) c (grid0.coords t) (mX t) (hX t) (mA t) (hA t) (mO t) (hO t) mAcc (Memref.isWhole_whole _) (fun h => h0 ((isFirst_iff t).mp h)) ((isLast_iff t).mpr h1) (iblk V c 0 t) (iblk V c 1 t) (accAt V c (t.val - 1) (Nat.lt_of_le_of_lt (Nat.sub_le _ _) t.isLt))) (ix2 p q)).trans ?_
    exact pay2_apply (accI V c (t.val - 1) (Nat.lt_of_le_of_lt (Nat.sub_le _ _) t.isLt)) (xBlk V c t) (aBlk V c t) p q
  · rw [accAt_mid V c t h0 h1]
    refine (congrFun (accMid_eq (F := Ideal) c (grid0.coords t) (mX t) (hX t) (mA t) (hA t) (mO t) (hO t) mAcc (Memref.isWhole_whole _) (fun h => h0 ((isFirst_iff t).mp h)) (fun h => h1 ((isLast_iff t).mp h)) (iblk V c 0 t) (iblk V c 1 t) (accAt V c (t.val - 1) (Nat.lt_of_le_of_lt (Nat.sub_le _ _) t.isLt))) (ix2 p q)).trans ?_
    exact pay2_apply (accI V c (t.val - 1) (Nat.lt_of_le_of_lt (Nat.sub_le _ _) t.isLt)) (xBlk V c t) (aBlk V c t) p q

/-- The part of row R of x times column q of Aᵀ that lies in contraction block kb: the sum over the block's 1024 coordinates. -/
def part (c : Dev nD) (R : Fin 8192) (q : Fin 128) (kb : ℕ) : EReal :=
  ∑ kk : Fin 1024, xArr V c (ix2 R ⟨(kb * 1024 + kk.val) % 4096, Nat.mod_lt _ (by decide)⟩)
    * aArr V c (ix2 ⟨(kb * 1024 + kk.val) % 4096, Nat.mod_lt _ (by decide)⟩ q)

/-- The product of the blocks at point t, at (p, q), is the part in contraction block t mod 4 of row (t / 4) · 1024 + p. -/
theorem blkProd_eq (c : Dev nD) (t : Fin cfg0.N) (p : Fin 1024) (q : Fin 128) (R : Fin 8192) (hR : R.val = t.val / 4 * 1024 + p.val) :
    (∑ kk : Fin 1024, xBlk V c t (ix2 p kk) * aBlk V c t (ix2 kk q)) = part V c R q (t.val % 4) := by
  unfold part
  refine Finset.sum_congr rfl fun kk _ => ?_
  have hk : kk.val < 1024 := kk.isLt
  have hm : (t.val % 4 * 1024 + kk.val) % 4096 = t.val % 4 * 1024 + kk.val := Nat.mod_eq_of_lt (by omega)
  rw [xBlk_apply V c t p kk R ⟨(t.val % 4 * 1024 + kk.val) % 4096, Nat.mod_lt _ (by decide)⟩ hR hm,
    aBlk_apply V c t kk q ⟨(t.val % 4 * 1024 + kk.val) % 4096, Nat.mod_lt _ (by decide)⟩ hm]

/-- After point n the accumulator holds, at (p, q), the parts of the contraction blocks 0 … n mod 4 of row (n / 4) · 1024 + p. -/
theorem acc_eq (c : Dev nD) : ∀ (n : ℕ) (hn : n < cfg0.N) (p : Fin 1024) (q : Fin 128) (R : Fin 8192), R.val = n / 4 * 1024 + p.val →
    accI V c n hn (ix2 p q) = ∑ kb ∈ Finset.range (n % 4 + 1), part V c R q kb := by
  intro n
  induction n with
  | zero =>
    intro hn p q R hR
    refine (acc_open V c ⟨0, hn⟩ (Nat.zero_mod 4) p q).trans ?_
    refine (blkProd_eq V c ⟨0, hn⟩ p q R hR).trans ?_
    exact (Finset.sum_range_one _).symm
  | succ n ih =>
    intro hn p q R hR
    by_cases h0 : (n + 1) % 4 = 0
    · refine (acc_open V c ⟨n + 1, hn⟩ h0 p q).trans ?_
      refine (blkProd_eq V c ⟨n + 1, hn⟩ p q R hR).trans ?_
      show part V c R q ((n + 1) % 4) = _
      rw [h0]
      exact (Finset.sum_range_one _).symm
    · refine (acc_step V c ⟨n + 1, hn⟩ h0 p q).trans ?_
      rw [blkProd_eq V c ⟨n + 1, hn⟩ p q R hR]
      rw [accI_congr V c ((⟨n + 1, hn⟩ : Fin cfg0.N).val - 1) n _ (Nat.lt_of_succ_lt hn) rfl]
      rw [ih (Nat.lt_of_succ_lt hn) p q R (by omega)]
      show _ + part V c R q ((n + 1) % 4) = _
      rw [show (n + 1) % 4 = n % 4 + 1 from by omega, Finset.sum_range_succ _ (n % 4 + 1)]

end

/-- A sum over the 4096 contraction coordinates, taken block by block: 4 blocks of 1024. -/
theorem sum_blocks {M : Type*} [AddCommMonoid M] (f : Fin 4096 → M) :
    ∑ kb ∈ Finset.range 4, ∑ kk : Fin 1024, f ⟨(kb * 1024 + kk.val) % 4096, Nat.mod_lt _ (by decide)⟩ = ∑ i : Fin 4096, f i := by
  rw [Finset.sum_range (fun kb => ∑ kk : Fin 1024, f ⟨(kb * 1024 + kk.val) % 4096, Nat.mod_lt _ (by decide)⟩)]
  show _ = ∑ i : Fin (4 * 1024), f i
  rw [← Equiv.sum_comp (finProdFinEquiv : Fin 4 × Fin 1024 ≃ Fin (4 * 1024)) f, Fintype.sum_prod_type]
  refine Finset.sum_congr rfl fun a _ => Finset.sum_congr rfl fun b _ => ?_
  congr 1
  apply Fin.ext
  show (a.val * 1024 + b.val) % 4096 = b.val + 1024 * a.val
  have ha := a.isLt
  have hb := b.isLt
  omega

section
variable (V : (c : Dev nD) → (b : Ref sig .tc) → Buf (Elt Ideal) ((c : Thread nD τ).loc b))

/-! ## The result array -/

/-- h = x · Aᵀ as one function of the two arrays: entry j is row j₀ of x times column j₁ of Aᵀ. -/
abbrev hidG (c : Dev nD) : FVec Ideal S8192x128 .bf16 :=
  fun j => ∑ i : Fin 4096, xArr V c (ix2 (j 0) i) * aArr V c (ix2 i (j 1))

/-- Where a contraction closes (t mod 4 = 3) the stored block holds, at (p, q), the whole contraction of row
    (t / 4) · 1024 + p of x with column q of Aᵀ. -/
theorem out_closed (c : Dev nD) (t : Fin cfg0.N) (h3 : t.val % 4 = 3) (p : Fin 1024) (q : Fin 128) (R : Fin 8192)
    (hR : R.val = t.val / 4 * 1024 + p.val) :
    (outAt V c t : FVec Ideal S1024x128 .bf16) (ix2 p q) = ∑ i : Fin 4096, xArr V c (ix2 R i) * aArr V c (ix2 i q) := by
  have h0 : ¬t.val % 4 = 0 := by omega
  rw [show outAt V c t = outLast c (grid0.coords t) (mX t) (hX t) (mA t) (hA t) (mO t) (hO t) mAcc (Memref.isWhole_whole _) (fun h => h0 ((isFirst_iff t).mp h)) ((isLast_iff t).mpr h3) (iblk V c 0 t) (iblk V c 1 t)
    (accAt V c (t.val - 1) (Nat.lt_of_le_of_lt (Nat.sub_le _ _) t.isLt)) from dif_pos h3]
  refine (congrFun (outLast_eq (F := Ideal) c (grid0.coords t) (mX t) (hX t) (mA t) (hA t) (mO t) (hO t) mAcc (Memref.isWhole_whole _) (fun h => h0 ((isFirst_iff t).mp h)) ((isLast_iff t).mpr h3) (iblk V c 0 t) (iblk V c 1 t)
    (accAt V c (t.val - 1) (Nat.lt_of_le_of_lt (Nat.sub_le _ _) t.isLt))) (ix2 p q)).trans ?_
  refine (pay3_apply (k0_pay2 (F := Ideal) (accI V c (t.val - 1) (Nat.lt_of_le_of_lt (Nat.sub_le _ _) t.isLt)) (xBlk V c t) (aBlk V c t)) p q).trans ?_
  refine (pay2_apply (accI V c (t.val - 1) (Nat.lt_of_le_of_lt (Nat.sub_le _ _) t.isLt)) (xBlk V c t) (aBlk V c t) p q).trans ?_
  refine (acc_step V c t h0 p q).symm.trans ?_
  refine (acc_eq V c t.val t.isLt p q R hR).trans ?_
  rw [h3]
  unfold part
  exact sum_blocks (fun i => xArr V c (ix2 R i) * aArr V c (ix2 i q))

/-- What point t writes back is block t of that function. -/
theorem flushed_eq (c : Dev nD) (t : Fin cfg0.N) (hf : (cfg0.win 2).flush t = true) :
    (dat V c).flushed 2 t = ((cfg0.win 2).blk t).view.read (Elt Ideal) (hidG V c) := by
  have h3 : t.val % 4 = 3 := (flush0_2 t).mp hf
  have hN : t.val < 32 := lt_of_lt_of_eq t.isLt N_0
  have hi := index_h t
  funext y
  obtain ⟨p, q, rfl⟩ : ∃ (p : Fin 1024) (q : Fin 128), y = ix2 p q := ⟨y 0, y 1, eq_ix2 y⟩
  rw [View.read_apply]
  show (outAt V c t : FVec Ideal S1024x128 .bf16) (ix2 p q) = hidG V c (((cfg0.win 2).blk t).view.emb (ix2 p q))
  have hp : p.val < 1024 := p.isLt
  have e : ((cfg0.win 2).blk t).view.emb (ix2 p q) = ix2 (⟨t.val / 4 * 1024 + p.val, by omega⟩ : Fin 8192) q := by
    funext d
    apply Fin.ext
    match d with
    | ⟨0, _⟩ => show win0_2.index t 0 * 1024 + 1 * p.val = t.val / 4 * 1024 + p.val; rw [hi.1]; omega
    | ⟨1, _⟩ => show win0_2.index t 1 * 128 + 1 * q.val = q.val; rw [hi.2]; omega
  rw [e]
  exact out_closed V c t h3 p q ⟨t.val / 4 * 1024 + p.val, by omega⟩ rfl

/-- Row r of the array is in the block written back at the point that closes row block r / 1024. -/
theorem cover_h (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  have hN : cfg0.N = 32 := N_0
  obtain ⟨t, ht⟩ : ∃ t : Fin cfg0.N, t.val = (i 0).val / 1024 * 4 + 3 := ⟨⟨(i 0).val / 1024 * 4 + 3, by rw [hN]; omega⟩, rfl⟩
  have hi := index_h t
  refine ⟨t, (flush0_2 t).mpr (by rw [ht]; omega), ?_⟩
  show i ∈ ((View.whole main_v25).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [hi.1, ht]; omega
  | ⟨1, _⟩ => show win0_2.index t 1 * 128 ≤ (i 1).val ∧ (i 1).val < win0_2.index t 1 * 128 + 128; rw [hi.2]; omega

/-- The first call's result array ends holding h = x · Aᵀ: entry j is ∑ᵢ x(j₀, i) · Aᵀ(i, j₁) over the 4096 contracted coordinates. -/
theorem hid_final (c : Dev nD) :
    ((dat V c).arrAt 2 cfg0.N : FVec Ideal S8192x128 .bf16)
      = fun j => ∑ i : Fin 4096, xArr V c (ix2 (j 0) i) * aArr V c (ix2 i (j 1)) :=
  (dat V c).arrAt_eq_of_cover 2 (hidG V c) (flushed_eq V c) cover_h

end

end Cert.KernelIdeal.Reg0

end
-- ==== Proof.KI.Val1a.lean ====
/- The second pallas_call: what one grid point leaves in the accumulator and in the output block, as the payloads of
   the point's stores. Every store of the body covers its whole buffer and every load reads a whole buffer, so the
   buffer read back after the point is the last store's payload applied to the buffers' contents before it. -/
import proofs.«135921_j83004537962674_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! The accumulator and the output block after one grid point, as the payloads of the point's stores:
    every store covers its whole buffer, so the buffer read back is the last store's payload, and a load of a
    whole buffer reads its contents. -/

theorem hz2 : (![0, 0] : Fin 2 → Nat) = fun _ => 0 := funext fun a => by fin_cases a <;> rfl

/-- After a point with k = 1 or 2 the accumulator holds what it held plus the product of the two blocks. -/
theorem accMid_eq (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    accMid c i arg3 harg3 arg4 harg4 arg5 harg5 arg6 harg6 arg7 harg7 arg8 harg8 arg9 harg9 arg10 harg10 arg11 harg11 hc0 hc1 x0 x1 x2 x3 x4 x5 x6 xs = k1_pay2 xs x0 x1 := by
  unfold accMid
  rw [View.read_writes_eq_canon _ _ _ (cover_mid c i arg3 harg3 arg4 harg4 arg5 harg5 arg6 harg6 arg7 harg7 arg8 harg8 arg9 harg9 arg10 harg10 arg11 harg11 hc0 hc1 x0 x1 x2 x3 x4 x5 x6 xs)]
  unfold runMid
  dsimp only
  sl_unfold_words
  rw [View.canon_unit_zero hz2]
  simp only [View.readAt_eq_ld, harg3.read_unread, harg4.read_unread, harg11.read_unread,
    View.ld_unit_zero (S := S512x512) hz2, View.ld_unit_zero (S := S512x1024) hz2, View.ld_unit_zero (S := S1024x512) hz2]

/-- After a point with k = 0 the accumulator holds the zero block plus the product of the two blocks. -/
theorem accFirst_eq (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : isFirst i) (hc1 : ¬isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) :
    accFirst c i arg3 harg3 arg4 harg4 arg5 harg5 arg6 harg6 arg7 harg7 arg8 harg8 arg9 harg9 arg10 harg10 arg11 harg11 hc0 hc1 x0 x1 x2 x3 x4 x5 x6 = k1_pay2 (k1_pay1 (F := F)) x0 x1 := by
  unfold accFirst
  rw [View.read_writes_eq_canon _ _ _ (cover_first c i arg3 harg3 arg4 harg4 arg5 harg5 arg6 harg6 arg7 harg7 arg8 harg8 arg9 harg9 arg10 harg10 arg11 harg11 hc0 hc1 x0 x1 x2 x3 x4 x5 x6)]
  unfold runFirst
  dsimp only
  sl_unfold_words
  rw [View.canon_cons_unit_zero (S := S512x512) hz2, View.readCov_unit_zero (S := S512x512) _ hz2]
  simp only [View.readAt_eq_ld, harg3.read_unread, harg4.read_unread, harg11.read_unread,
    View.ld_unit_zero (S := S512x512) hz2, View.ld_unit_zero (S := S512x1024) hz2, View.ld_unit_zero (S := S1024x512) hz2]

/-- After a point with k = 3 the accumulator holds what it held plus the product of the two blocks. -/
theorem accLast_eq (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    accLast c i arg3 harg3 arg4 harg4 arg5 harg5 arg6 harg6 arg7 harg7 arg8 harg8 arg9 harg9 arg10 harg10 arg11 harg11 hc0 hc1 x0 x1 x2 x3 x4 x5 x6 xs = k1_pay2 xs x0 x1 := by
  unfold accLast
  rw [View.read_writes_eq_canon _ _ _ (cover_last_acc c i arg3 harg3 arg4 harg4 arg5 harg5 arg6 harg6 arg7 harg7 arg8 harg8 arg9 harg9 arg10 harg10 arg11 harg11 hc0 hc1 x0 x1 x2 x3 x4 x5 x6 xs)]
  unfold runLast
  dsimp only
  sl_unfold_words
  rw [View.canon_unit_zero hz2]
  simp only [View.readAt_eq_ld, harg3.read_unread, harg4.read_unread, harg11.read_unread,
    View.ld_unit_zero (S := S512x512) hz2, View.ld_unit_zero (S := S512x1024) hz2, View.ld_unit_zero (S := S1024x512) hz2]

/-- At a point with k = 3 the output block is stored from the five blocks that do not depend on k and the
    accumulator just updated. -/
theorem outLast_eq (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x128 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (hc0 : ¬isFirst i) (hc1 : isLast i)
    (x0 : Vec F S512x1024 .bf16) (x1 : Vec F S1024x512 .bf16) (x2 : Vec F S512x128 .bf16) (x3 : Vec F S128x512 .bf16) (x4 : Vec F S128x512 .bf16) (x5 : Vec F S1x512 .f32) (x6 : Vec F S1x512 .f32) (xs : Vec F S512x512 .f32) :
    outLast c i arg3 harg3 arg4 harg4 arg5 harg5 arg6 harg6 arg7 harg7 arg8 harg8 arg9 harg9 arg10 harg10 arg11 harg11 hc0 hc1 x0 x1 x2 x3 x4 x5 x6 xs = k1_pay3 x2 x3 x5 x4 x6 (k1_pay2 xs x0 x1) := by
  unfold outLast
  rw [View.read_writes_eq_canon _ _ _ (cover_last_out c i arg3 harg3 arg4 harg4 arg5 harg5 arg6 harg6 arg7 harg7 arg8 harg8 arg9 harg9 arg10 harg10 arg11 harg11 hc0 hc1 x0 x1 x2 x3 x4 x5 x6 xs)]
  unfold runLast
  dsimp only
  sl_unfold_words
  rw [View.canon_unit_zero hz2]
  simp only [View.readCov_unit_zero (S := S512x512) _ hz2, View.readAt_eq_ld, harg3.read_unread, harg4.read_unread, harg5.read_unread,
    harg6.read_unread, harg7.read_unread, harg8.read_unread, harg9.read_unread, harg11.read_unread,
    View.ld_unit_zero (S := S512x512) hz2, View.ld_unit_zero (S := S512x1024) hz2, View.ld_unit_zero (S := S1024x512) hz2,
    View.ld_unit_zero (S := S512x128) hz2, View.ld_unit_zero (S := S128x512) hz2, View.ld_unit_zero (S := S1x512) hz2]

end Cert.KernelIdeal.Reg1

end
-- ==== Proof.KI.Val1b.lean ====
/- The second pallas_call: its three payloads read at an index over the extended reals. The reset block is zero; the
   update adds to the accumulator, at (p, q), the sum over the 1024 contracted positions of the products of the
   activation block's row p and the weight block's column q; the stored block is
   (h·Baᵀ + bias) + (h·Bmᵀ + scale) · accumulator, with scale and bias read along their one row. -/
import proofs.«135921_j83004537962674_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! The three payloads of the second call read at an index, over the extended reals: the reset block is zero;
    the update adds to the accumulator the sum over the 1024 contracted positions of the products of the
    activation and weight blocks; the stored block is (h·Baᵀ + bias) + (h·Bmᵀ + scale) · accumulator, scale and
    bias read along their one row. -/

/-! ### The operand indices of the [512,1024] × [1024,512] product -/

theorem lhsA_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsA_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhsA_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhsA_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product of a [512,1024] block and a [1024,512] block into the zero accumulator, at (p, q). -/
theorem matmulA_apply (x0 : FVec Ideal S512x1024 .bf16) (x1 : FVec Ideal S1024x512 .bf16) (p q : Fin 512) :
    matmul dot_S512x1024_S1024x512_S512x512_1_0_0_1_n_n none x0 x1 (constant (F := Ideal) S512x512 .f32 0x00000000#32) (ix2 p q)
      = ∑ kk : Fin 1024, x0 (ix2 p kk) * x1 (ix2 kk q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhsA_0 _ _
    | ⟨1, _⟩ => exact (lhsA_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

/-! ### The operand indices of the [512,128] × [128,512] products -/

theorem lhsB_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhsB_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhsB_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhsB_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The product of a [512,128] block and a [128,512] block into the zero accumulator, at (p, q). -/
theorem matmulB_apply (x0 : FVec Ideal S512x128 .bf16) (x1 : FVec Ideal S128x512 .bf16) (p q : Fin 512) :
    matmul dot_S512x128_S128x512_S512x512_1_0_0_1_n_n none x0 x1 (constant (F := Ideal) S512x512 .f32 0x00000000#32) (ix2 p q)
      = ∑ r : Fin 128, x0 (ix2 p r) * x1 (ix2 r q) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k := funext fun a => Fin.ext (by
    match a with
    | ⟨0, _⟩ => exact lhsB_0 _ _
    | ⟨1, _⟩ => exact (lhsB_1 _ _).trans hk)
  have er : dot_S512x128_S128x512_S512x512_1_0_0_1_n_n.rhsIdx (ix2 p q) ((contrEquiv1 dot_S512x128_S128x512_S512x512_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The payloads -/

/-- The reset block is zero everywhere. -/
theorem pay1_apply (p q : Fin 512) : (k1_pay1 (F := Ideal)) (ix2 p q) = 0 := by
  unfold k1_pay1
  simp only [shapeCast_self]
  exact Ideal.ofBits_zero_f32

/-- The update at (p, q): the accumulator there plus the 1024 products. -/
theorem pay2_apply (xs : FVec Ideal S512x512 .f32) (x0 : FVec Ideal S512x1024 .bf16) (x1 : FVec Ideal S1024x512 .bf16) (p q : Fin 512) :
    k1_pay2 xs x0 x1 (ix2 p q) = xs (ix2 p q) + ∑ kk : Fin 1024, x0 (ix2 p kk) * x1 (ix2 kk q) := by
  unfold k1_pay2
  simp only [shapeCast_self]
  refine (addf_apply _ _ _).trans ?_
  exact congrArg (xs (ix2 p q) + ·) (matmulA_apply x0 x1 p q)

/-- The stored block at (p, q). -/
theorem pay3_apply (h : FVec Ideal S512x128 .bf16) (bm : FVec Ideal S128x512 .bf16) (sc : FVec Ideal S1x512 .f32)
    (ba : FVec Ideal S128x512 .bf16) (bi : FVec Ideal S1x512 .f32) (acc : FVec Ideal S512x512 .f32) (p q : Fin 512) :
    (k1_pay3 (F := Ideal) h bm sc ba bi acc (ix2 p q) : EReal)
      = ((∑ r : Fin 128, h (ix2 p r) * ba (ix2 r q)) + bi (ix2 (0 : Fin 1) q))
        + ((∑ r : Fin 128, h (ix2 p r) * bm (ix2 r q)) + sc (ix2 (0 : Fin 1) q)) * acc (ix2 p q) := by
  unfold k1_pay3
  simp only [shapeCast_self]
  refine (addf_apply _ _ _).trans ?_
  refine congrArg₂ (· + ·) ?_ ?_
  · refine (addf_apply _ _ _).trans ?_
    exact congrArg₂ (· + ·) (matmulB_apply h ba p q) (broadcastTo_1b_ab_apply bi broadcasts_S1x512_S512x512 p q)
  · refine (mulf_apply _ _ _).trans ?_
    refine congrArg (· * acc (ix2 p q)) ?_
    refine (addf_apply _ _ _).trans ?_
    exact congrArg₂ (· + ·) (matmulB_apply h bm p q) (broadcastTo_1b_ab_apply sc broadcasts_S1x512_S512x512 p q)

end Cert.KernelIdeal.Reg1

end
-- ==== Proof.KI.Val1c.lean ====
/- The second pallas_call: the seven arrays it reads and their blocks at a grid point, named at their literal types,
   and each block's entry as an entry of its array. The grid is (16, 8, 4), visited with the last axis fastest: point t
   has row block t / 32, column block (t / 4) mod 8 and contraction block t mod 4; a block's entry sits in its array,
   on each axis, at block index × block size + its own coordinate. -/
import proofs.«135921_j83004537962674_1_alg».proof.Proof.KI.R1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section
variable (V : (c : Dev nD) → (b : Ref sig .tc) → Buf (Elt F) ((c : Thread nD τ).loc b))

/-! ## The arrays the call reads and their blocks, at their literal types -/

/-- x, the activations [8192, 4096]. -/
abbrev arrX (c : Dev nD) : FVec F S8192x4096 .bf16 := V c main_v14
/-- Wᵀ, the dense weight [4096, 4096]. -/
abbrev arrW (c : Dev nD) : FVec F S4096x4096 .bf16 := V c main_v12
/-- h, the hidden activations [8192, 128]. -/
abbrev arrH (c : Dev nD) : FVec F S8192x128 .bf16 := V c main_v25
/-- Bmᵀ, the multiplicative low-rank factor [128, 4096]. -/
abbrev arrBm (c : Dev nD) : FVec F S128x4096 .bf16 := V c main_v19
/-- Baᵀ, the additive low-rank factor [128, 4096]. -/
abbrev arrBa (c : Dev nD) : FVec F S128x4096 .bf16 := V c main_v22
/-- The scale row [1, 4096]. -/
abbrev arrSc (c : Dev nD) : FVec F S1x4096 .f32 := V c main_v23
/-- The bias row [1, 4096]. -/
abbrev arrBi (c : Dev nD) : FVec F S1x4096 .f32 := V c main_v24

abbrev blkX (c : Dev nD) (t : Fin cfg1.N) : FVec F S512x1024 .bf16 := iblk V c 0 t
abbrev blkW (c : Dev nD) (t : Fin cfg1.N) : FVec F S1024x512 .bf16 := iblk V c 1 t
abbrev blkH (c : Dev nD) (t : Fin cfg1.N) : FVec F S512x128 .bf16 := iblk V c 2 t
abbrev blkBm (c : Dev nD) (t : Fin cfg1.N) : FVec F S128x512 .bf16 := iblk V c 3 t
abbrev blkBa (c : Dev nD) (t : Fin cfg1.N) : FVec F S128x512 .bf16 := iblk V c 4 t
abbrev blkSc (c : Dev nD) (t : Fin cfg1.N) : FVec F S1x512 .f32 := iblk V c 5 t
abbrev blkBi (c : Dev nD) (t : Fin cfg1.N) : FVec F S1x512 .f32 := iblk V c 6 t

/-! ## The block index maps over the grid

Point t of the grid (16, 8, 4) has row block t / 32, column block (t / 4) mod 8 and contraction block t mod 4. -/

theorem idx_w0 : ∀ t : Fin cfg1.N, win1_0.index t (0 : Fin 2) = t.val / 32 ∧ win1_0.index t (1 : Fin 2) = t.val % 4 :=
  (by decide +kernel : ∀ t : Fin grid1.N, win1_0.index t (0 : Fin 2) = t.val / 32 ∧ win1_0.index t (1 : Fin 2) = t.val % 4)
theorem idx_w1 : ∀ t : Fin cfg1.N, win1_1.index t (0 : Fin 2) = t.val % 4 ∧ win1_1.index t (1 : Fin 2) = t.val / 4 % 8 :=
  (by decide +kernel : ∀ t : Fin grid1.N, win1_1.index t (0 : Fin 2) = t.val % 4 ∧ win1_1.index t (1 : Fin 2) = t.val / 4 % 8)
theorem idx_w2 : ∀ t : Fin cfg1.N, win1_2.index t (0 : Fin 2) = t.val / 32 ∧ win1_2.index t (1 : Fin 2) = 0 :=
  (by decide +kernel : ∀ t : Fin grid1.N, win1_2.index t (0 : Fin 2) = t.val / 32 ∧ win1_2.index t (1 : Fin 2) = 0)
theorem idx_w3 : ∀ t : Fin cfg1.N, win1_3.index t (0 : Fin 2) = 0 ∧ win1_3.index t (1 : Fin 2) = t.val / 4 % 8 :=
  (by decide +kernel : ∀ t : Fin grid1.N, win1_3.index t (0 : Fin 2) = 0 ∧ win1_3.index t (1 : Fin 2) = t.val / 4 % 8)
theorem idx_w4 : ∀ t : Fin cfg1.N, win1_4.index t (0 : Fin 2) = 0 ∧ win1_4.index t (1 : Fin 2) = t.val / 4 % 8 :=
  (by decide +kernel : ∀ t : Fin grid1.N, win1_4.index t (0 : Fin 2) = 0 ∧ win1_4.index t (1 : Fin 2) = t.val / 4 % 8)
theorem idx_w5 : ∀ t : Fin cfg1.N, win1_5.index t (0 : Fin 2) = 0 ∧ win1_5.index t (1 : Fin 2) = t.val / 4 % 8 :=
  (by decide +kernel : ∀ t : Fin grid1.N, win1_5.index t (0 : Fin 2) = 0 ∧ win1_5.index t (1 : Fin 2) = t.val / 4 % 8)
theorem idx_w6 : ∀ t : Fin cfg1.N, win1_6.index t (0 : Fin 2) = 0 ∧ win1_6.index t (1 : Fin 2) = t.val / 4 % 8 :=
  (by decide +kernel : ∀ t : Fin grid1.N, win1_6.index t (0 : Fin 2) = 0 ∧ win1_6.index t (1 : Fin 2) = t.val / 4 % 8)
theorem idx_w7 : ∀ t : Fin cfg1.N, win1_7.index t (0 : Fin 2) = t.val / 32 ∧ win1_7.index t (1 : Fin 2) = t.val / 4 % 8 :=
  (by decide +kernel : ∀ t : Fin grid1.N, win1_7.index t (0 : Fin 2) = t.val / 32 ∧ win1_7.index t (1 : Fin 2) = t.val / 4 % 8)

/-! ## The blocks as entries of their arrays

An entry of a window's block sits in the array, on each axis, at block index × block size + its own coordinate. -/

theorem blkX_apply (c : Dev nD) (t : Fin cfg1.N) (a : Fin 512) (b : Fin 1024) (r : Fin 8192) (s : Fin 4096)
    (hr : r.val = t.val / 32 * 512 + a.val) (hs : s.val = t.val % 4 * 1024 + b.val) :
    blkX V c t (ix2 a b) = arrX V c (ix2 r s) := by
  obtain ⟨e0, e1⟩ := idx_w0 t
  unfold blkX arrX iblk
  rw [View.read_apply]
  show V c main_v14 _ = V c main_v14 _
  congr 1
  funext ax
  apply Fin.ext
  match ax with
  | ⟨0, _⟩ => show win1_0.index t 0 * 512 + 1 * a.val = r.val; rw [e0, hr]; omega
  | ⟨1, _⟩ => show win1_0.index t 1 * 1024 + 1 * b.val = s.val; rw [e1, hs]; omega

theorem blkW_apply (c : Dev nD) (t : Fin cfg1.N) (a : Fin 1024) (b : Fin 512) (r : Fin 4096) (s : Fin 4096)
    (hr : r.val = t.val % 4 * 1024 + a.val) (hs : s.val = t.val / 4 % 8 * 512 + b.val) :
    blkW V c t (ix2 a b) = arrW V c (ix2 r s) := by
  obtain ⟨e0, e1⟩ := idx_w1 t
  unfold blkW arrW iblk
  rw [View.read_apply]
  show V c main_v12 _ = V c main_v12 _
  congr 1
  funext ax
  apply Fin.ext
  match ax with
  | ⟨0, _⟩ => show win1_1.index t 0 * 1024 + 1 * a.val = r.val; rw [e0, hr]; omega
  | ⟨1, _⟩ => show win1_1.index t 1 * 512 + 1 * b.val = s.val; rw [e1, hs]; omega

theorem blkH_apply (c : Dev nD) (t : Fin cfg1.N) (a : Fin 512) (b : Fin 128) (r : Fin 8192)
    (hr : r.val = t.val / 32 * 512 + a.val) :
    blkH V c t (ix2 a b) = arrH V c (ix2 r b) := by
  obtain ⟨e0, e1⟩ := idx_w2 t
  unfold blkH arrH iblk
  rw [View.read_apply]
  show V c main_v25 _ = V c main_v25 _
  congr 1
  funext ax
  apply Fin.ext
  match ax with
  | ⟨0, _⟩ => show win1_2.index t 0 * 512 + 1 * a.val = r.val; rw [e0, hr]; omega
  | ⟨1, _⟩ => show win1_2.index t 1 * 128 + 1 * b.val = b.val; rw [e1]; omega

theorem blkBm_apply (c : Dev nD) (t : Fin cfg1.N) (a : Fin 128) (b : Fin 512) (s : Fin 4096)
    (hs : s.val = t.val / 4 % 8 * 512 + b.val) :
    blkBm V c t (ix2 a b) = arrBm V c (ix2 a s) := by
  obtain ⟨e0, e1⟩ := idx_w3 t
  unfold blkBm arrBm iblk
  rw [View.read_apply]
  show V c main_v19 _ = V c main_v19 _
  congr 1
  funext ax
  apply Fin.ext
  match ax with
  | ⟨0, _⟩ => show win1_3.index t 0 * 128 + 1 * a.val = a.val; rw [e0]; omega
  | ⟨1, _⟩ => show win1_3.index t 1 * 512 + 1 * b.val = s.val; rw [e1, hs]; omega

theorem blkBa_apply (c : Dev nD) (t : Fin cfg1.N) (a : Fin 128) (b : Fin 512) (s : Fin 4096)
    (hs : s.val = t.val / 4 % 8 * 512 + b.val) :
    blkBa V c t (ix2 a b) = arrBa V c (ix2 a s) := by
  obtain ⟨e0, e1⟩ := idx_w4 t
  unfold blkBa arrBa iblk
  rw [View.read_apply]
  show V c main_v22 _ = V c main_v22 _
  congr 1
  funext ax
  apply Fin.ext
  match ax with
  | ⟨0, _⟩ => show win1_4.index t 0 * 128 + 1 * a.val = a.val; rw [e0]; omega
  | ⟨1, _⟩ => show win1_4.index t 1 * 512 + 1 * b.val = s.val; rw [e1, hs]; omega

theorem blkSc_apply (c : Dev nD) (t : Fin cfg1.N) (b : Fin 512) (s : Fin 4096)
    (hs : s.val = t.val / 4 % 8 * 512 + b.val) :
    blkSc V c t (ix2 (0 : Fin 1) b) = arrSc V c (ix2 (0 : Fin 1) s) := by
  obtain ⟨e0, e1⟩ := idx_w5 t
  unfold blkSc arrSc iblk
  rw [View.read_apply]
  show V c main_v23 _ = V c main_v23 _
  congr 1
  funext ax
  apply Fin.ext
  match ax with
  | ⟨0, _⟩ => show win1_5.index t 0 * 1 + 1 * 0 = 0; rw [e0]
  | ⟨1, _⟩ => show win1_5.index t 1 * 512 + 1 * b.val = s.val; rw [e1, hs]; omega

theorem blkBi_apply (c : Dev nD) (t : Fin cfg1.N) (b : Fin 512) (s : Fin 4096)
    (hs : s.val = t.val / 4 % 8 * 512 + b.val) :
    blkBi V c t (ix2 (0 : Fin 1) b) = arrBi V c (ix2 (0 : Fin 1) s) := by
  obtain ⟨e0, e1⟩ := idx_w6 t
  unfold blkBi arrBi iblk
  rw [View.read_apply]
  show V c main_v24 _ = V c main_v24 _
  congr 1
  funext ax
  apply Fin.ext
  match ax with
  | ⟨0, _⟩ => show win1_6.index t 0 * 1 + 1 * 0 = 0; rw [e0]
  | ⟨1, _⟩ => show win1_6.index t 1 * 512 + 1 * b.val = s.val; rw [e1, hs]; omega

end

end Cert.KernelIdeal.Reg1

end
-- ==== Proof.KI.Val1.lean ====
/- The second pallas_call: the value of its result array over the extended reals.
   After grid point t the accumulator holds, at (p, q), the sum over the contraction blocks 0 … t mod 4 of the products
   of row (t / 32)·512 + p of x with column ((t / 4) mod 8)·512 + q of Wᵀ restricted to the block (by induction along
   the grid; the run restarts at every t mod 4 = 0); at t mod 4 = 3 that is the whole sum over the 4096 contracted
   positions, four blocks of 1024. There the output block is stored as (h·Baᵀ + bias) + (h·Bmᵀ + scale) · accumulator
   and written back; the blocks written back tile the [8192, 4096] result, so the array ends holding that function
   of the seven arrays at every entry. -/
import proofs.«135921_j83004537962674_1_alg».proof.Proof.KI.Val1a
import proofs.«135921_j83004537962674_1_alg».proof.Proof.KI.Val1b
import proofs.«135921_j83004537962674_1_alg».proof.Proof.KI.Val1c
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The accumulation over the four contraction blocks -/

/-- The 4096 contracted positions are four blocks of 1024. -/
theorem sum_blocks (f : Fin 4096 → EReal) :
    ∑ kb : Fin 4, ∑ kk : Fin 1024, f ⟨kb.val * 1024 + kk.val, by have := kb.isLt; have := kk.isLt; omega⟩ = ∑ i : Fin 4096, f i := by
  have e := Equiv.sum_comp (finProdFinEquiv : Fin 4 × Fin 1024 ≃ Fin (4 * 1024)) f
  rw [← e, Fintype.sum_prod_type]
  refine Finset.sum_congr rfl fun kb _ => Finset.sum_congr rfl fun kk _ => congrArg f (Fin.ext ?_)
  show kb.val * 1024 + kk.val = kk.val + 1024 * kb.val
  omega

/-- What contraction block kb contributes to entry (r, s) of x·Wᵀ. -/
def part (X : FVec Ideal S8192x4096 .bf16) (W : FVec Ideal S4096x4096 .bf16) (r : Fin 8192) (s : Fin 4096) (kb : Fin 4) : EReal :=
  ∑ kk : Fin 1024, X (ix2 r ⟨kb.val * 1024 + kk.val, by have := kb.isLt; have := kk.isLt; omega⟩)
    * W (ix2 ⟨kb.val * 1024 + kk.val, by have := kb.isLt; have := kk.isLt; omega⟩ s)

/-- The same over a natural number, zero past the four blocks. -/
def partN (X : FVec Ideal S8192x4096 .bf16) (W : FVec Ideal S4096x4096 .bf16) (r : Fin 8192) (s : Fin 4096) (j : ℕ) : EReal :=
  if h : j < 4 then part X W r s ⟨j, h⟩ else 0

theorem partN_of_lt (X : FVec Ideal S8192x4096 .bf16) (W : FVec Ideal S4096x4096 .bf16) (r : Fin 8192) (s : Fin 4096) (j : ℕ) (h : j < 4) :
    partN X W r s j = part X W r s ⟨j, h⟩ := by
  unfold partN
  exact dif_pos h

/-- The four parts add up to the whole contraction. -/
theorem sum_partN (X : FVec Ideal S8192x4096 .bf16) (W : FVec Ideal S4096x4096 .bf16) (r : Fin 8192) (s : Fin 4096) :
    ∑ j ∈ Finset.range 4, partN X W r s j = ∑ i : Fin 4096, X (ix2 r i) * W (ix2 i s) := by
  rw [← Fin.sum_univ_eq_sum_range (partN X W r s) 4, ← sum_blocks (fun i => X (ix2 r i) * W (ix2 i s))]
  refine Finset.sum_congr rfl fun kb _ => ?_
  exact partN_of_lt X W r s kb.val kb.isLt

section
variable (V : (c : Dev nD) → (b : Ref sig .tc) → Buf (Elt Ideal) ((c : Thread nD τ).loc b))

/-- The product of the activation and weight blocks of point t, at (p, q), is the part of entry (r, s) of x·Wᵀ from
    the point's contraction block, (r, s) being where (p, q) of the point's output block sits in the result. -/
theorem blockProd_eq (c : Dev nD) (t : Fin cfg1.N) (p q : Fin 512) (r : Fin 8192) (s : Fin 4096) (kb : Fin 4)
    (hr : r.val = t.val / 32 * 512 + p.val) (hs : s.val = t.val / 4 % 8 * 512 + q.val) (hk : kb.val = t.val % 4) :
    ∑ kk : Fin 1024, blkX V c t (ix2 p kk) * blkW V c t (ix2 kk q) = part (arrX V c) (arrW V c) r s kb := by
  unfold part
  refine Finset.sum_congr rfl fun kk _ => ?_
  exact congrArg₂ (· * ·)
    (blkX_apply V c t p kk r ⟨kb.val * 1024 + kk.val, by have := kb.isLt; have := kk.isLt; omega⟩ hr (by show kb.val * 1024 + kk.val = _; rw [hk]))
    (blkW_apply V c t kk q ⟨kb.val * 1024 + kk.val, by have := kb.isLt; have := kk.isLt; omega⟩ s (by show kb.val * 1024 + kk.val = _; rw [hk]) hs)

/-- At a point that opens a contraction the accumulator ends at the first block's part. -/
theorem acc_open (c : Dev nD) (t : Fin cfg1.N) (h0 : t.val % 4 = 0) (p q : Fin 512) (r : Fin 8192) (s : Fin 4096)
    (hr : r.val = t.val / 32 * 512 + p.val) (hs : s.val = t.val / 4 % 8 * 512 + q.val) :
    (accAt V c t.val t.isLt : FVec Ideal S512x512 .f32) (ix2 p q) = part (arrX V c) (arrW V c) r s 0 := by
  have h1 : ¬t.val % 4 = 3 := by omega
  rw [accAt_first V c t h0 h1, accFirst_eq]
  refine (pay2_apply (k1_pay1 (F := Ideal)) (blkX V c t) (blkW V c t) p q).trans ?_
  rw [pay1_apply, zero_add]
  exact blockProd_eq V c t p q r s 0 hr hs (by rw [h0]; rfl)

/-- At any later point of the contraction the accumulator gains that point's part. -/
theorem acc_step (c : Dev nD) (t : Fin cfg1.N) (h0 : ¬t.val % 4 = 0) (p q : Fin 512) (r : Fin 8192) (s : Fin 4096)
    (hr : r.val = t.val / 32 * 512 + p.val) (hs : s.val = t.val / 4 % 8 * 512 + q.val) :
    (accAt V c t.val t.isLt : FVec Ideal S512x512 .f32) (ix2 p q)
      = (accAt V c (t.val - 1) (Nat.lt_of_le_of_lt (Nat.sub_le _ _) t.isLt) : FVec Ideal S512x512 .f32) (ix2 p q)
        + part (arrX V c) (arrW V c) r s ⟨t.val % 4, Nat.mod_lt t.val (Nat.succ_pos 3)⟩ := by
  by_cases h1 : t.val % 4 = 3
  · rw [accAt_last V c t h0 h1, accLast_eq]
    refine (pay2_apply (accAt V c (t.val - 1) (Nat.lt_of_le_of_lt (Nat.sub_le _ _) t.isLt)) (blkX V c t) (blkW V c t) p q).trans ?_
    exact congrArg (_ + ·) (blockProd_eq V c t p q r s ⟨t.val % 4, Nat.mod_lt t.val (Nat.succ_pos 3)⟩ hr hs rfl)
  · rw [accAt_mid V c t h0 h1, accMid_eq]
    refine (pay2_apply (accAt V c (t.val - 1) (Nat.lt_of_le_of_lt (Nat.sub_le _ _) t.isLt)) (blkX V c t) (blkW V c t) p q).trans ?_
    exact congrArg (_ + ·) (blockProd_eq V c t p q r s ⟨t.val % 4, Nat.mod_lt t.val (Nat.succ_pos 3)⟩ hr hs rfl)

/-- After point n the accumulator holds, at (p, q), the parts of entry (r, s) of x·Wᵀ from the contraction blocks
    0 … n mod 4: by induction along the grid. -/
theorem acc_inv (c : Dev nD) (n : ℕ) : ∀ (hn : n < cfg1.N) (p q : Fin 512) (r : Fin 8192) (s : Fin 4096),
    r.val = n / 32 * 512 + p.val → s.val = n / 4 % 8 * 512 + q.val →
    (accAt V c n hn : FVec Ideal S512x512 .f32) (ix2 p q)
      = ∑ j ∈ Finset.range (n % 4 + 1), partN (arrX V c) (arrW V c) r s j := by
  induction n with
  | zero =>
    intro hn p q r s hr hs
    refine (acc_open V c ⟨0, hn⟩ rfl p q r s hr hs).trans ?_
    show _ = ∑ j ∈ Finset.range 1, partN (arrX V c) (arrW V c) r s j
    rw [Finset.sum_range_one]
    exact (partN_of_lt (arrX V c) (arrW V c) r s 0 (by decide)).symm
  | succ n ih =>
    intro hn p q r s hr hs
    by_cases h0 : (n + 1) % 4 = 0
    · refine (acc_open V c ⟨n + 1, hn⟩ h0 p q r s hr hs).trans ?_
      rw [h0, Finset.sum_range_one]
      exact (partN_of_lt (arrX V c) (arrW V c) r s 0 (by decide)).symm
    · have hm : (n + 1) % 4 = n % 4 + 1 := by omega
      have ih' := ih (Nat.lt_of_succ_lt hn) p q r s (by omega) (by omega)
      refine (acc_step V c ⟨n + 1, hn⟩ h0 p q r s hr hs).trans ?_
      show (accAt V c n (Nat.lt_of_succ_lt hn) : FVec Ideal S512x512 .f32) (ix2 p q) + part (arrX V c) (arrW V c) r s ⟨(n + 1) % 4, _⟩ = _
      rw [ih']
      conv_rhs => rw [hm, Finset.sum_range_succ]
      refine congrArg (_ + ·) ?_
      have hlt : n % 4 + 1 < 4 := by omega
      rw [partN_of_lt (arrX V c) (arrW V c) r s (n % 4 + 1) hlt]
      exact congrArg (part (arrX V c) (arrW V c) r s) (Fin.ext hm)

end

/-! ## The stored block, the write-back and the result array -/

section
variable (V : (c : Dev nD) → (b : Ref sig .tc) → Buf (Elt F) ((c : Thread nD τ).loc b))

/-- Where k = 3 the output block is stored from the blocks of h, Bmᵀ, scale, Baᵀ, bias and the accumulator as the
    point leaves it. -/
theorem outAt_eq (c : Dev nD) (t : Fin cfg1.N) (h3 : t.val % 4 = 3) :
    outAt V c t = k1_pay3 (iblk V c 2 t) (iblk V c 3 t) (iblk V c 5 t) (iblk V c 4 t) (iblk V c 6 t) (accAt V c t.val t.isLt) := by
  have h0 : ¬t.val % 4 = 0 := by omega
  rw [accAt_last V c t h0 h3, accLast_eq]
  unfold outAt
  rw [dif_pos h3, outLast_eq]

end

section
variable (V : (c : Dev nD) → (b : Ref sig .tc) → Buf (Elt Ideal) ((c : Thread nD τ).loc b))

/-- Entry (r, s) of the result: (h·Baᵀ + bias) + (h·Bmᵀ + scale) · (x·Wᵀ). -/
def resAt (c : Dev nD) (r : Fin 8192) (s : Fin 4096) : EReal :=
  ((∑ k : Fin 128, arrH V c (ix2 r k) * arrBa V c (ix2 k s)) + arrBi V c (ix2 (0 : Fin 1) s))
    + ((∑ k : Fin 128, arrH V c (ix2 r k) * arrBm V c (ix2 k s)) + arrSc V c (ix2 (0 : Fin 1) s))
      * (∑ i : Fin 4096, arrX V c (ix2 r i) * arrW V c (ix2 i s))

/-- The result array as one function of the seven arrays the call reads. -/
abbrev resG (c : Dev nD) : FVec Ideal S8192x4096 .f32 := fun j => resAt V c (j 0) (j 1)

/-- What a point with k = 3 writes back is its block of the result function: the stored block at (p, q) is the entry
    at row (t / 32)·512 + p and column ((t / 4) mod 8)·512 + q, the accumulator there holding all four parts. -/
theorem flushed_eq (c : Dev nD) (t : Fin cfg1.N) (hf : (cfg1.win 7).flush t = true) :
    (dat V c).flushed 7 t = ((cfg1.win 7).blk t).view.read (Elt Ideal) (resG V c) := by
  have h3 : t.val % 4 = 3 := (flush1_7 t).mp hf
  have hN : t.val < 512 := lt_of_lt_of_eq t.isLt N_1
  obtain ⟨e0, e1⟩ := idx_w7 t
  show (cfg1.win 7).cut (grid1.coords t) ((dat V c).after 7 t) = _
  rw [after_out, outAt_eq V c t h3]
  funext j
  have hj0 : (j 0).val < 512 := (j 0).isLt
  have hj1 : (j 1).val < 512 := (j 1).isLt
  generalize hp : (⟨(j 0).val, hj0⟩ : Fin 512) = p
  generalize hq : (⟨(j 1).val, hj1⟩ : Fin 512) = q
  have hpv : (j 0).val = p.val := by rw [← hp]
  have hqv : (j 1).val = q.val := by rw [← hq]
  have hx : (cfg1.win 7).xinj (grid1.coords t) j = ix2 p q := by
    funext a
    apply Fin.ext
    match a with
    | ⟨0, _⟩ => exact hpv
    | ⟨1, _⟩ => exact hqv
  have hpl := p.isLt
  have hql := q.isLt
  have hemb : ((cfg1.win 7).blk t).view.emb j = ix2 (⟨t.val / 32 * 512 + p.val, by omega⟩ : Fin 8192) (⟨t.val / 4 % 8 * 512 + q.val, by omega⟩ : Fin 4096) := by
    funext a
    apply Fin.ext
    match a with
    | ⟨0, _⟩ => show win1_7.index t 0 * 512 + 1 * (j 0).val = t.val / 32 * 512 + p.val; rw [e0, hpv]; omega
    | ⟨1, _⟩ => show win1_7.index t 1 * 512 + 1 * (j 1).val = t.val / 4 % 8 * 512 + q.val; rw [e1, hqv]; omega
  show k1_pay3 (blkH V c t) (blkBm V c t) (blkSc V c t) (blkBa V c t) (blkBi V c t) (accAt V c t.val t.isLt) ((cfg1.win 7).xinj (grid1.coords t) j)
    = resG V c (((cfg1.win 7).blk t).view.emb j)
  rw [hx, hemb]
  refine (pay3_apply (blkH V c t) (blkBm V c t) (blkSc V c t) (blkBa V c t) (blkBi V c t) (accAt V c t.val t.isLt) p q).trans ?_
  show _ = resAt V c ⟨t.val / 32 * 512 + p.val, _⟩ ⟨t.val / 4 % 8 * 512 + q.val, _⟩
  unfold resAt
  rw [acc_inv V c t.val t.isLt p q ⟨t.val / 32 * 512 + p.val, by omega⟩ ⟨t.val / 4 % 8 * 512 + q.val, by omega⟩ rfl rfl]
  rw [show t.val % 4 + 1 = 4 from by omega, sum_partN]
  refine congrArg₂ (· + ·) (congrArg₂ (· + ·) (Finset.sum_congr rfl fun k _ => congrArg₂ (· * ·) (blkH_apply V c t p k _ rfl) (blkBa_apply V c t k q _ rfl)) (blkBi_apply V c t q _ rfl)) ?_
  exact congrArg (· * _) (congrArg₂ (· + ·) (Finset.sum_congr rfl fun k _ => congrArg₂ (· * ·) (blkH_apply V c t p k _ rfl) (blkBm_apply V c t k q _ rfl)) (blkSc_apply V c t q _ rfl))

/-- An entry of the result array is in point t's block iff each coordinate is in the block's range on its axis. -/
theorem mem_blk (t : Fin cfg1.N) (i : S8192x4096.Idx) :
    i ∈ ((cfg1.win 7).blk t).view.set ↔ ∀ a : Fin 2, win1_7.index t a * S512x512.size a ≤ (i a).val ∧ (i a).val < win1_7.index t a * S512x512.size a + S512x512.size a := by
  show i ∈ ((View.whole main_v26).slice (win1_7.rect t)).set ↔ _
  rw [View.set_slice_whole, Rect.mem_set_unit]
  exact Iff.rfl

/-- Every entry is in the block of a point that writes back: row block ⌊row / 512⌋, column block ⌊column / 512⌋,
    contraction block 3. -/
theorem cover (i : S8192x4096.Idx) : ∃ t : Fin cfg1.N, (cfg1.win 7).flush t = true ∧ i ∈ ((cfg1.win 7).blk t).view.set := by
  have hi0 : (i 0).val < 8192 := (i 0).isLt
  have hi1 : (i 1).val < 4096 := (i 1).isLt
  have hlt : (i 0).val / 512 * 32 + (i 1).val / 512 * 4 + 3 < cfg1.N := by rw [show cfg1.N = 512 from N_1]; omega
  refine ⟨⟨(i 0).val / 512 * 32 + (i 1).val / 512 * 4 + 3, hlt⟩, (flush1_7 _).mpr (by show ((i 0).val / 512 * 32 + (i 1).val / 512 * 4 + 3) % 4 = 3; omega), ?_⟩
  obtain ⟨e0, e1⟩ := idx_w7 ⟨(i 0).val / 512 * 32 + (i 1).val / 512 * 4 + 3, hlt⟩
  rw [mem_blk]
  intro a
  match a with
  | ⟨0, _⟩ =>
    show win1_7.index _ (0 : Fin 2) * 512 ≤ (i 0).val ∧ (i 0).val < win1_7.index _ (0 : Fin 2) * 512 + 512
    rw [e0]; show ((i 0).val / 512 * 32 + (i 1).val / 512 * 4 + 3) / 32 * 512 ≤ (i 0).val ∧ (i 0).val < ((i 0).val / 512 * 32 + (i 1).val / 512 * 4 + 3) / 32 * 512 + 512
    omega
  | ⟨1, _⟩ =>
    show win1_7.index _ (1 : Fin 2) * 512 ≤ (i 1).val ∧ (i 1).val < win1_7.index _ (1 : Fin 2) * 512 + 512
    rw [e1]; show ((i 0).val / 512 * 32 + (i 1).val / 512 * 4 + 3) / 4 % 8 * 512 ≤ (i 1).val ∧ (i 1).val < ((i 0).val / 512 * 32 + (i 1).val / 512 * 4 + 3) / 4 % 8 * 512 + 512
    omega

/-- THE RESULT of the second call: entry (j₀, j₁) of its result array is
    (h·Baᵀ + bias) + (h·Bmᵀ + scale) · (x·Wᵀ) there, the dense product summed over all 4096 contracted positions. -/
theorem out_final (c : Dev nD) :
    ((dat V c).arrAt 7 cfg1.N : FVec Ideal S8192x4096 .f32)
      = fun j => ((∑ r : Fin 128, arrH V c (ix2 (j 0) r) * arrBa V c (ix2 r (j 1))) + arrBi V c (ix2 (0 : Fin 1) (j 1)))
                  + ((∑ r : Fin 128, arrH V c (ix2 (j 0) r) * arrBm V c (ix2 r (j 1))) + arrSc V c (ix2 (0 : Fin 1) (j 1)))
                    * (∑ i : Fin 4096, arrX V c (ix2 (j 0) i) * arrW V c (ix2 i (j 1))) :=
  ((dat V c).arrAt_eq_of_cover 7 (resG V c) (flushed_eq V c) cover).trans rfl

end

end Cert.KernelIdeal.Reg1

end
-- ==== Proof.KI.HostVals.lean ====
/- What the program's host lines leave in the buffers the two pallas_calls read, and what the last host line makes of
   the second call's result, read at an index over the extended reals (a change of float format is the identity there):
   the activations flattened to 8192 rows; the first low-rank factor transposed; the dequantised weight transposed; the
   two halves of the second low-rank factor, each transposed; the scale and the bias as single rows; the 8192 × 4096
   result cut back into 4 batches of 2048 rows. The dequantised weight itself is left unopened: it is shown equal to one
   named composition `deq` of the four arguments it is made from, spelt operation by operation as the host lines run. -/
import proofs.«135921_j83004537962674_1_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.HostVals

open Cert.KernelIdeal Cert.KernelIdeal.Gen
open Idealize.ShloMosaic Idealize.ShloMosaic.TcCoe
open Idealize.SL.Sem
open Idealize.ShloMosaic.StableHlo Idealize.ShloMosaic.ValueIdx

variable (m : (ℓ : Loc nD τ sig) → Buf (Elt Ideal) ℓ) (c : Dev nD)

/-! ## The operands of the two pallas_calls, read at an index -/

/-- The activations flattened to rows: row p of the 8192 × 4096 matrix is row p mod 2048 of batch p / 2048. -/
theorem x2d_apply (p : Fin 8192) (i : Fin 4096) :
    (Gen.V3 m c main_v14 : S8192x4096.Idx → EReal) (ix2 p i)
      = ((m ((c.tc : Thread nD τ).loc main_arg0)) : S4x2048x4096.Idx → EReal) (ix3 (⟨p.val / 2048, by omega⟩ : Fin 4) (⟨p.val % 2048, by omega⟩ : Fin 2048) i) := by
  have e : @Eq (S8192x4096.Idx → EReal) (Gen.V3 m c main_v14)
      (truncf (F := Ideal) .bf16 (shapeCast S8192x4096 ((m ((c.tc : Thread nD τ).loc main_arg0)) : S4x2048x4096.Idx → EReal) shapeCasts_S4x2048x4096_S8192x4096) bitsLt_bf16_f32) := by
    dsimp only [Gen.V3, Gen.V2, Gen.V1, Gen.V0]; after_results; first | done | rfl
  refine (congrFun e _).trans ?_
  refine (truncf_apply (s := S8192x4096) (φ := .f32) (ψ := .bf16) _ bitsLt_bf16_f32 _).trans ?_
  exact shapeCast_apply (s := S4x2048x4096) (t := S8192x4096) _ _ _ _ (by
    rw [Shape.rowMajor_val_three, Shape.rowMajor_val_two]
    show (p.val / 2048 * 2048 + p.val % 2048) * 4096 + i.val = p.val * 4096 + i.val
    omega)

/-- The first low-rank factor transposed: entry (i, r) of Aᵀ is entry (r, i) of A. -/
theorem aT_apply (i : Fin 4096) (r : Fin 128) :
    (Gen.V3 m c main_v16 : S4096x128.Idx → EReal) (ix2 i r) = ((m ((c.tc : Thread nD τ).loc main_arg3)) : S128x4096.Idx → EReal) (ix2 r i) := by
  have e : @Eq (S4096x128.Idx → EReal) (Gen.V3 m c main_v16)
      (truncf (F := Ideal) .bf16 (transpose S4096x128 [1, 0] ((m ((c.tc : Thread nD τ).loc main_arg3)) : S128x4096.Idx → EReal) transposes_S128x4096_S4096x128_1_0) bitsLt_bf16_f32) := by
    dsimp only [Gen.V3, Gen.V2, Gen.V1, Gen.V0]; after_results; first | done | rfl
  refine (congrFun e _).trans ?_
  refine (truncf_apply (s := S4096x128) (φ := .f32) (ψ := .bf16) _ bitsLt_bf16_f32 _).trans ?_
  exact transpose_ix2_apply _ _ i r

/-- The weight transposed: entry (i, o) of Wᵀ is entry (o, i) of the dequantised weight. -/
theorem wT_apply (i o : Fin 4096) :
    (Gen.V3 m c main_v12 : S4096x4096.Idx → EReal) (ix2 i o) = (Gen.V3 m c main_v10 : S4096x4096.Idx → EReal) (ix2 o i) := by
  have e : @Eq (S4096x4096.Idx → EReal) (Gen.V3 m c main_v12)
      (truncf (F := Ideal) .bf16 (transpose S4096x4096 [1, 0] (Gen.V3 m c main_v10 : S4096x4096.Idx → EReal) transposes_S4096x4096_S4096x4096_1_0) bitsLt_bf16_f32) := by
    dsimp only [Gen.V3]
    rw [← List.take_append_drop 9 (hostOps0_2 (F := Ideal)), StableHlo.after_append]
    generalize StableHlo.after (List.take 9 (hostOps0_2 (F := Ideal))) (Gen.V2 m c) = X
    dsimp only [hostOps0_2, List.drop]
    after_results; first | done | rfl
  refine (congrFun e _).trans ?_
  refine (truncf_apply (s := S4096x4096) (φ := .f32) (ψ := .bf16) _ bitsLt_bf16_f32 _).trans ?_
  exact transpose_ix2_apply _ _ i o

/-- The multiplicative half of the second low-rank factor, transposed: entry (r, o) is row o of B. -/
theorem bmT_apply (r : Fin 128) (o : Fin 4096) :
    (Gen.V3 m c main_v19 : S128x4096.Idx → EReal) (ix2 r o)
      = ((m ((c.tc : Thread nD τ).loc main_arg4)) : S8192x128.Idx → EReal) (ix2 (⟨o.val, by omega⟩ : Fin 8192) r) := by
  have e : @Eq (S128x4096.Idx → EReal) (Gen.V3 m c main_v19)
      (truncf (F := Ideal) .bf16 (transpose S128x4096 [1, 0] (extractStridedSlice S4096x128 ![0, 0] ((m ((c.tc : Thread nD τ).loc main_arg4)) : S8192x128.Idx → EReal) slices_S8192x128_S4096x128_0_0) transposes_S4096x128_S128x4096_1_0) bitsLt_bf16_f32) := by
    dsimp only [Gen.V3, Gen.V2, Gen.V1, Gen.V0]; after_results; first | done | rfl
  refine (congrFun e _).trans ?_
  refine (truncf_apply (s := S128x4096) (φ := .f32) (ψ := .bf16) _ bitsLt_bf16_f32 _).trans ?_
  refine (transpose_ix2_apply _ _ r o).trans ?_
  exact slice2_axis0_apply 0 _ _ o r _ (by show o.val = 0 + o.val; omega)

/-- The additive half of the second low-rank factor, transposed: entry (r, o) is row 4096 + o of B. -/
theorem baT_apply (r : Fin 128) (o : Fin 4096) :
    (Gen.V3 m c main_v22 : S128x4096.Idx → EReal) (ix2 r o)
      = ((m ((c.tc : Thread nD τ).loc main_arg4)) : S8192x128.Idx → EReal) (ix2 (⟨4096 + o.val, by omega⟩ : Fin 8192) r) := by
  have e : @Eq (S128x4096.Idx → EReal) (Gen.V3 m c main_v22)
      (truncf (F := Ideal) .bf16 (transpose S128x4096 [1, 0] (extractStridedSlice S4096x128 ![4096, 0] ((m ((c.tc : Thread nD τ).loc main_arg4)) : S8192x128.Idx → EReal) slices_S8192x128_S4096x128_4096_0) transposes_S4096x128_S128x4096_1_0) bitsLt_bf16_f32) := by
    dsimp only [Gen.V3, Gen.V2, Gen.V1, Gen.V0]; after_results; first | done | rfl
  refine (congrFun e _).trans ?_
  refine (truncf_apply (s := S128x4096) (φ := .f32) (ψ := .bf16) _ bitsLt_bf16_f32 _).trans ?_
  refine (transpose_ix2_apply _ _ r o).trans ?_
  exact slice2_axis0_apply 4096 _ _ o r _ rfl

/-- The scale as one row. -/
theorem scale_apply (o : Fin 4096) :
    (Gen.V3 m c main_v23 : S1x4096.Idx → EReal) (ix2 (0 : Fin 1) o) = ((m ((c.tc : Thread nD τ).loc main_arg7)) : S4096.Idx → EReal) (ix1 o) := by
  have e : @Eq (S1x4096.Idx → EReal) (Gen.V3 m c main_v23)
      (shapeCast S1x4096 ((m ((c.tc : Thread nD τ).loc main_arg7)) : S4096.Idx → EReal) shapeCasts_S4096_S1x4096) := by
    dsimp only [Gen.V3, Gen.V2, Gen.V1, Gen.V0]; after_results; first | done | rfl
  refine (congrFun e _).trans ?_
  exact shapeCast_a_1a_apply _ _ 0 o

/-- The bias as one row. -/
theorem bias_apply (o : Fin 4096) :
    (Gen.V3 m c main_v24 : S1x4096.Idx → EReal) (ix2 (0 : Fin 1) o) = ((m ((c.tc : Thread nD τ).loc main_arg8)) : S4096.Idx → EReal) (ix1 o) := by
  have e : @Eq (S1x4096.Idx → EReal) (Gen.V3 m c main_v24)
      (shapeCast S1x4096 ((m ((c.tc : Thread nD τ).loc main_arg8)) : S4096.Idx → EReal) shapeCasts_S4096_S1x4096) := by
    dsimp only [Gen.V3, Gen.V2, Gen.V1, Gen.V0]; after_results; first | done | rfl
  refine (congrFun e _).trans ?_
  exact shapeCast_a_1a_apply _ _ 0 o

/-- The result unflattened: entry (b, s, o) of the output is row b · 2048 + s of the second call's result. -/
theorem out3d_apply (W : Valuation τ sig (Elt Ideal)) (b : Fin 4) (s : Fin 2048) (o : Fin 4096) :
    (StableHlo.after hostOps2 W main_v27 : S4x2048x4096.Idx → EReal) (ix3 b s o)
      = (W main_v26 : S8192x4096.Idx → EReal) (ix2 (⟨b.val * 2048 + s.val, by omega⟩ : Fin 8192) o) := by
  have e : @Eq (S4x2048x4096.Idx → EReal) (StableHlo.after hostOps2 W main_v27)
      (shapeCast S4x2048x4096 (W main_v26 : S8192x4096.Idx → EReal) shapeCasts_S8192x4096_S4x2048x4096) := by
    after_results; first | done | rfl
  refine (congrFun e _).trans ?_
  exact shapeCast_apply (s := S8192x4096) (t := S4x2048x4096) _ _ _ _ (by
    rw [Shape.rowMajor_val_two, Shape.rowMajor_val_three]
    show (b.val * 2048 + s.val) * 4096 + o.val = (b.val * 2048 + s.val) * 4096 + o.val
    rfl)

/-! ## The dequantised weight as the host operations compose it -/

section Deq
variable {F : FTy → Type} [FloatOps F]

/-- The indices made ready for the gather: each negative index moved up by the codebook length 256, and a trailing
    unit axis added. -/
def deqIdx (i0 : IVec S4096x4096 32) : IVec S4096x4096x1 32 :=
  shapeCast S4096x4096x1
    (select (cmpi .slt i0 (broadcastInDim S4096x4096 ![] bcast_S_S4096x4096 (constantI S_ 32 0#32)))
      (addi i0 (broadcastInDim S4096x4096 ![] bcast_S_S4096x4096 (constantI S_ 32 256#32))) i0)
    shapeCasts_S4096x4096_S4096x4096x1

/-- The gather proper: the mask "0 ≤ index ≤ 255" reduced over the unit axis; the codebook rows gathered at the
    indices; the quiet NaN where the mask fails. -/
def deqGather (i5 : IVec S4096x4096x1 32) (x2 : FVec F S4096x256 .f32) : FVec F S4096x4096 .f32 :=
  select
    (Host.reduce IntOp.andi
      (andi
        (cmpi .sge i5 (broadcastInDim S4096x4096x1 ![] bcast_S_S4096x4096x1 (constantI S_ 32 0#32)))
        (cmpi .sle i5
          (broadcastInDim S4096x4096x1 ![0, 1, 2] bcast_S1x1x1_S4096x4096x1_0_1_2
            (broadcastInDim S1x1x1 ![2] bcast_S1_S1x1x1_2 (constantI S1 32 255#32)))))
      (constantI S_ 1 1#1) reducesTo_S4096x4096x1_S4096x4096_d2 h_S_)
    (Host.gather gather_S4096x256_S4096x4096x1_S4096x4096_n_1_0_0_1_2_11 x2 i5)
    (broadcastInDim S4096x4096 ![] bcast_S_S4096x4096 (constant S_ .f32 0x7FC00000#32))

/-- The gathered values regrouped from (block row, block column, row in block, column in block) to (block row, row in
    block, block column, column in block) and flattened to the 4096 × 4096 matrix; that matrix cut into 8 × 8 cells,
    each cell multiplied by its grid scale and added to its grid bias; the cells flattened back to 4096 × 4096. -/
def deqAffine (g : FVec F S4096x4096 .f32) (x5 x6 : FVec F S512x1x512x1 .f32) : FVec F S4096x4096 .f32 :=
  shapeCast S4096x4096
    (addf (broadcastInDim S512x8x512x8 ![0, 1, 2, 3] bcast_S512x1x512x1_S512x8x512x8_0_1_2_3 x6)
      (mulf
        (shapeCast S512x8x512x8
          (shapeCast S4096x4096
            (transpose S64x64x64x64 [0, 2, 1, 3] (shapeCast S64x64x64x64 g shapeCasts_S4096x4096_S64x64x64x64)
              transposes_S64x64x64x64_S64x64x64x64_0_2_1_3)
            shapeCasts_S64x64x64x64_S4096x4096)
          shapeCasts_S4096x4096_S512x8x512x8)
        (broadcastInDim S512x8x512x8 ![0, 1, 2, 3] bcast_S512x1x512x1_S512x8x512x8_0_1_2_3 x5)))
    shapeCasts_S512x8x512x8_S4096x4096

/-- The weight's dequantisation, operation by operation as the program's host lines have them: the block indices
    flattened to 4096 × 4096, made ready (`deqIdx`), the codebook rows gathered at them (`deqGather`), the gathered
    values regrouped, scaled and shifted cell by cell (`deqAffine`). -/
def deq (x1 : IVec S64x64x64x64 32) (x2 : FVec F S4096x256 .f32) (x5 x6 : FVec F S512x1x512x1 .f32) :
    FVec F S4096x4096 .f32 :=
  deqAffine (deqGather (deqIdx (shapeCast S4096x4096 x1 shapeCasts_S64x64x64x64_S4096x4096)) x2) x5 x6

end Deq

/-- `deq` with its four parts written out in one term: the composition operation by operation. -/
theorem deq_flat {F : FTy → Type} [FloatOps F] (x1 : IVec S64x64x64x64 32) (x2 : FVec F S4096x256 .f32)
    (x5 x6 : FVec F S512x1x512x1 .f32) :
    deq x1 x2 x5 x6 =
  shapeCast S4096x4096
    (addf (broadcastInDim S512x8x512x8 ![0, 1, 2, 3] bcast_S512x1x512x1_S512x8x512x8_0_1_2_3 x6)
      (mulf
        (shapeCast S512x8x512x8
          (shapeCast S4096x4096
            (transpose S64x64x64x64 [0, 2, 1, 3]
              (shapeCast S64x64x64x64
                (select
                  (Host.reduce IntOp.andi
                    (andi
                      (cmpi .sge
                        (shapeCast S4096x4096x1
                          (select
                            (cmpi .slt (shapeCast S4096x4096 x1 shapeCasts_S64x64x64x64_S4096x4096)
                              (broadcastInDim S4096x4096 ![] bcast_S_S4096x4096 (constantI S_ 32 0#32)))
                            (addi (shapeCast S4096x4096 x1 shapeCasts_S64x64x64x64_S4096x4096)
                              (broadcastInDim S4096x4096 ![] bcast_S_S4096x4096 (constantI S_ 32 256#32)))
                            (shapeCast S4096x4096 x1 shapeCasts_S64x64x64x64_S4096x4096))
                          shapeCasts_S4096x4096_S4096x4096x1)
                        (broadcastInDim S4096x4096x1 ![] bcast_S_S4096x4096x1 (constantI S_ 32 0#32)))
                      (cmpi .sle
                        (shapeCast S4096x4096x1
                          (select
                            (cmpi .slt (shapeCast S4096x4096 x1 shapeCasts_S64x64x64x64_S4096x4096)
                              (broadcastInDim S4096x4096 ![] bcast_S_S4096x4096 (constantI S_ 32 0#32)))
                            (addi (shapeCast S4096x4096 x1 shapeCasts_S64x64x64x64_S4096x4096)
                              (broadcastInDim S4096x4096 ![] bcast_S_S4096x4096 (constantI S_ 32 256#32)))
                            (shapeCast S4096x4096 x1 shapeCasts_S64x64x64x64_S4096x4096))
                          shapeCasts_S4096x4096_S4096x4096x1)
                        (broadcastInDim S4096x4096x1 ![0, 1, 2] bcast_S1x1x1_S4096x4096x1_0_1_2
                          (broadcastInDim S1x1x1 ![2] bcast_S1_S1x1x1_2 (constantI S1 32 255#32)))))
                    (constantI S_ 1 1#1) reducesTo_S4096x4096x1_S4096x4096_d2 h_S_)
                  (Host.gather gather_S4096x256_S4096x4096x1_S4096x4096_n_1_0_0_1_2_11 x2
                    (shapeCast S4096x4096x1
                      (select
                        (cmpi .slt (shapeCast S4096x4096 x1 shapeCasts_S64x64x64x64_S4096x4096)
                          (broadcastInDim S4096x4096 ![] bcast_S_S4096x4096 (constantI S_ 32 0#32)))
                        (addi (shapeCast S4096x4096 x1 shapeCasts_S64x64x64x64_S4096x4096)
                          (broadcastInDim S4096x4096 ![] bcast_S_S4096x4096 (constantI S_ 32 256#32)))
                        (shapeCast S4096x4096 x1 shapeCasts_S64x64x64x64_S4096x4096))
                      shapeCasts_S4096x4096_S4096x4096x1))
                  (broadcastInDim S4096x4096 ![] bcast_S_S4096x4096 (constant S_ .f32 0x7FC00000#32)))
                shapeCasts_S4096x4096_S64x64x64x64)
              transposes_S64x64x64x64_S64x64x64x64_0_2_1_3)
            shapeCasts_S64x64x64x64_S4096x4096)
          shapeCasts_S4096x4096_S512x8x512x8)
        (broadcastInDim S512x8x512x8 ![0, 1, 2, 3] bcast_S512x1x512x1_S512x8x512x8_0_1_2_3 x5)))
    shapeCasts_S512x8x512x8_S4096x4096 := by
  unfold deq deqAffine deqGather deqIdx
  with_reducible rfl

/-! ### The gather's operations, in three runs over any contents -/

section Stages
variable (X : Valuation τ sig (Elt Ideal))

/-- Its first eight operations leave the prepared indices … -/
theorem take_head_idx :
    @Eq (IVec S4096x4096x1 32) (StableHlo.after (List.take 8 hostOps0_1) X main_call0_v5) (deqIdx (X main_v0)) := by
  dsimp only [hostOps0_1, List.take]
  after_results_simp
  first | done | (unfold deqIdx; rfl)
/-- … and do not touch the codebook. -/
theorem take_head_arg2 : StableHlo.after (List.take 8 hostOps0_1) X main_arg2 = X main_arg2 := by
  dsimp only [hostOps0_1, List.take]
  after_results_simp

/-- The next nine leave the range mask "0 ≤ index" and "index ≤ 255" … -/
theorem take_mid_mask :
    @Eq (IVec S4096x4096x1 1) (StableHlo.after (List.take 9 (List.drop 8 hostOps0_1)) X main_call0_v11)
      (andi
        (cmpi .sge (X main_call0_v5) (broadcastInDim S4096x4096x1 ![] bcast_S_S4096x4096x1 (constantI S_ 32 0#32)))
        (cmpi .sle (X main_call0_v5)
          (broadcastInDim S4096x4096x1 ![0, 1, 2] bcast_S1x1x1_S4096x4096x1_0_1_2
            (broadcastInDim S1x1x1 ![2] bcast_S1_S1x1x1_2 (constantI S1 32 255#32))))) := by
  dsimp only [hostOps0_1, List.drop, List.take]
  after_results_simp
  first | done | rfl
/-- … the reduction's starting bit … -/
theorem take_mid_init :
    @Eq (IVec S_ 1) (StableHlo.after (List.take 9 (List.drop 8 hostOps0_1)) X main_call0_c_3) (constantI S_ 1 1#1) := by
  dsimp only [hostOps0_1, List.drop, List.take]
  after_results_simp
  first | done | (funext i; rfl)
/-- … and do not touch the prepared indices or the codebook. -/
theorem take_mid_idx : StableHlo.after (List.take 9 (List.drop 8 hostOps0_1)) X main_call0_v5 = X main_call0_v5 := by
  dsimp only [hostOps0_1, List.drop, List.take]
  after_results_simp
theorem take_mid_arg2 : StableHlo.after (List.take 9 (List.drop 8 hostOps0_1)) X main_arg2 = X main_arg2 := by
  dsimp only [hostOps0_1, List.drop, List.take]
  after_results_simp

/-- Of the last five, the first four leave the reduced mask … -/
theorem take_tail_mask :
    @Eq (IVec S4096x4096 1) (StableHlo.after (List.take 4 (List.drop 17 hostOps0_1)) X main_call0_v12)
      (Host.reduce IntOp.andi (X main_call0_v11) (X main_call0_c_3) reducesTo_S4096x4096x1_S4096x4096_d2 h_S_) := by
  dsimp only [hostOps0_1, List.drop, List.take]
  after_results_simp
  first | done | exact cast_eq _ _
/-- … the gathered codebook entries … -/
theorem take_tail_gather :
    @Eq (S4096x4096.Idx → EReal) (StableHlo.after (List.take 4 (List.drop 17 hostOps0_1)) X main_call0_v13)
      (Host.gather gather_S4096x256_S4096x4096x1_S4096x4096_n_1_0_0_1_2_11 (X main_arg2) (X main_call0_v5)) := by
  dsimp only [hostOps0_1, List.drop, List.take]
  after_results_simp
  first | done | rfl
/-- … and the quiet NaN everywhere; … -/
theorem take_tail_nan :
    @Eq (S4096x4096.Idx → EReal) (StableHlo.after (List.take 4 (List.drop 17 hostOps0_1)) X main_call0_v14)
      (broadcastInDim S4096x4096 ![] bcast_S_S4096x4096 (constant (F := Ideal) S_ .f32 0x7FC00000#32)) := by
  dsimp only [hostOps0_1, List.drop, List.take]
  after_results_simp
  first | done | rfl
/-- … the fifth selects between the last two by the first. -/
theorem take_tail_select :
    @Eq (S4096x4096.Idx → EReal) (StableHlo.after (List.drop 4 (List.drop 17 hostOps0_1)) X main_v1)
      (select (X main_call0_v12) (X main_call0_v13) (X main_call0_v14)) := by
  dsimp only [hostOps0_1, List.drop]
  after_results_simp
  first | done | rfl

/-- The last five reduce the mask, gather, and select. -/
theorem take_tail :
    @Eq (S4096x4096.Idx → EReal) (StableHlo.after (List.drop 17 hostOps0_1) X main_v1)
      (select
        (Host.reduce IntOp.andi (X main_call0_v11) (X main_call0_c_3) reducesTo_S4096x4096x1_S4096x4096_d2 h_S_)
        (Host.gather gather_S4096x256_S4096x4096x1_S4096x4096_n_1_0_0_1_2_11 (X main_arg2) (X main_call0_v5))
        (broadcastInDim S4096x4096 ![] bcast_S_S4096x4096 (constant (F := Ideal) S_ .f32 0x7FC00000#32))) := by
  rw [← List.take_append_drop 4 (List.drop 17 (hostOps0_1 (F := Ideal))), StableHlo.after_append,
    take_tail_select, take_tail_mask, take_tail_gather, take_tail_nan]

/-- The gather's twenty-two operations leave, in its result, the gather of the codebook at the prepared indices. -/
theorem take_run :
    @Eq (S4096x4096.Idx → EReal) (StableHlo.after hostOps0_1 X main_v1)
      (deqGather (F := Ideal) (deqIdx (X main_v0)) (X main_arg2)) := by
  rw [← List.take_append_drop 8 (hostOps0_1 (F := Ideal)), StableHlo.after_append,
    ← List.take_append_drop 9 (List.drop 8 (hostOps0_1 (F := Ideal))), StableHlo.after_append,
    show List.drop 9 (List.drop 8 (hostOps0_1 (F := Ideal))) = List.drop 17 hostOps0_1 from rfl,
    take_tail, take_mid_mask, take_mid_init, take_mid_idx, take_mid_arg2, take_head_idx, take_head_arg2]
  first | done | (unfold deqGather; with_reducible rfl)

/-- The first nine operations after the gather leave the dequantised weight. -/
theorem affine_run :
    @Eq (S4096x4096.Idx → EReal) (StableHlo.after (List.take 9 hostOps0_2) X main_v10)
      (deqAffine (F := Ideal) (X main_v1) (X main_arg5) (X main_arg6)) := by
  dsimp only [hostOps0_2, List.take]
  after_results_simp
  first | done | (unfold deqAffine; rfl)
/-- The operations after those do not touch it. -/
theorem affine_rest : StableHlo.after (List.drop 9 hostOps0_2) X main_v10 = X main_v10 := by
  dsimp only [hostOps0_2, List.drop]
  after_results_simp

/-- The first host line flattens the block indices. -/
theorem idx_run :
    @Eq (IVec S4096x4096 32) (StableHlo.after hostOps0 X main_v0)
      (shapeCast S4096x4096 (X main_arg1) shapeCasts_S64x64x64x64_S4096x4096) := by
  after_results_simp
  first | done | rfl

end Stages

/-- The weight the second pallas_call reads transposed is that composition of the four arguments it is made from:
    each stretch of host lines read through in turn, the arguments untouched by the stretches before. -/
theorem w_eq :
    @Eq (S4096x4096.Idx → EReal) (Gen.V3 m c main_v10)
      (deq (F := Ideal) (m ((c.tc : Thread nD τ).loc main_arg1)) (m ((c.tc : Thread nD τ).loc main_arg2)) (m ((c.tc : Thread nD τ).loc main_arg5)) (m ((c.tc : Thread nD τ).loc main_arg6))) := by
  have h3 : @Eq (S4096x4096.Idx → EReal) (Gen.V3 m c main_v10)
      (deqAffine (F := Ideal) (Gen.V2 m c main_v1) (Gen.V2 m c main_arg5) (Gen.V2 m c main_arg6)) := by
    dsimp only [Gen.V3]
    rw [← List.take_append_drop 9 (hostOps0_2 (F := Ideal)), StableHlo.after_append, affine_rest, affine_run]
  have h2 : @Eq (S4096x4096.Idx → EReal) (Gen.V2 m c main_v1)
      (deqGather (F := Ideal) (deqIdx (Gen.V1 m c main_v0)) (Gen.V1 m c main_arg2)) := take_run (Gen.V1 m c)
  have h1 : @Eq (IVec S4096x4096 32) (Gen.V1 m c main_v0)
      (shapeCast S4096x4096 (m ((c.tc : Thread nD τ).loc main_arg1)) shapeCasts_S64x64x64x64_S4096x4096) := idx_run (Gen.V0 m c)
  have a2 : Gen.V1 m c main_arg2 = (m ((c.tc : Thread nD τ).loc main_arg2)) := (Gen.V1_of m c main_arg2 (by decide)).trans rfl
  have a5 : Gen.V2 m c main_arg5 = (m ((c.tc : Thread nD τ).loc main_arg5)) :=
    (Gen.V2_of m c main_arg5 (by decide)).trans ((Gen.V1_of m c main_arg5 (by decide)).trans rfl)
  have a6 : Gen.V2 m c main_arg6 = (m ((c.tc : Thread nD τ).loc main_arg6)) :=
    (Gen.V2_of m c main_arg6 (by decide)).trans ((Gen.V1_of m c main_arg6 (by decide)).trans rfl)
  rw [h3, h2, h1, a2, a5, a6]
  first | done | (unfold deq; with_reducible rfl)

end Cert.KernelIdeal.HostVals

end
-- ==== Proof.Spec.lean ====
/- The value both programs compute, as one function of the argument arrays over the extended reals.
   With x the activations [4,2048,4096], W the dequantised weight [4096,4096] (rows = output features),
   A the first low-rank factor [128,4096], B the second low-rank factor [8192,128] (rows 0..4095 feed the
   multiplicative path, rows 4096..8191 the additive one), s and t the per-feature scale and bias:
     h(b,s,r)   = Σ_i x(b,s,i) · A(r,i)
     out(b,s,o) = (Σ_r h(b,s,r)·B(4096+o,r) + t(o)) + (Σ_r h(b,s,r)·B(o,r) + s(o)) · (Σ_i x(b,s,i)·W(o,i)).
   Also the two elementary regroupings of a finite sum that relate a sum accumulated block by block to the
   whole sum; both hold in any commutative additive monoid, so no finiteness of the summands is needed. -/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The low-rank hidden activation h(b,s,r) = Σ_i x(b,s,i) · A(r,i). -/
def hid (x : FVec Ideal (⟨3, ![4, 2048, 4096]⟩ : Shape) .f32) (lf : FVec Ideal (⟨2, ![128, 4096]⟩ : Shape) .f32)
    (b : Fin 4) (s : Fin 2048) (r : Fin 128) : EReal :=
  ∑ i : Fin 4096, x (ix3 b s i) * lf (ix2 r i)

/-- The dense product Σ_i x(b,s,i) · W(o,i). -/
def base (x : FVec Ideal (⟨3, ![4, 2048, 4096]⟩ : Shape) .f32) (rm : FVec Ideal (⟨2, ![4096, 4096]⟩ : Shape) .f32)
    (b : Fin 4) (s : Fin 2048) (o : Fin 4096) : EReal :=
  ∑ i : Fin 4096, x (ix3 b s i) * rm (ix2 o i)

/-- One entry of the result: (Σ_r h·B(4096+o,r) + t(o)) + (Σ_r h·B(o,r) + s(o)) · base(b,s,o). -/
def outAt (x : FVec Ideal (⟨3, ![4, 2048, 4096]⟩ : Shape) .f32) (rm : FVec Ideal (⟨2, ![4096, 4096]⟩ : Shape) .f32)
    (lf : FVec Ideal (⟨2, ![128, 4096]⟩ : Shape) .f32) (ls : FVec Ideal (⟨2, ![8192, 128]⟩ : Shape) .f32)
    (scale bias : FVec Ideal (⟨1, ![4096]⟩ : Shape) .f32) (b : Fin 4) (s : Fin 2048) (o : Fin 4096) : EReal :=
  ((∑ r : Fin 128, hid x lf b s r * ls (ix2 (⟨4096 + o.val, by omega⟩ : Fin 8192) r)) + bias (ix1 o))
    + ((∑ r : Fin 128, hid x lf b s r * ls (ix2 (⟨o.val, by omega⟩ : Fin 8192) r)) + scale (ix1 o)) * base x rm b s o

/-- The whole result array. -/
def out (x : FVec Ideal (⟨3, ![4, 2048, 4096]⟩ : Shape) .f32) (rm : FVec Ideal (⟨2, ![4096, 4096]⟩ : Shape) .f32)
    (lf : FVec Ideal (⟨2, ![128, 4096]⟩ : Shape) .f32) (ls : FVec Ideal (⟨2, ![8192, 128]⟩ : Shape) .f32)
    (scale bias : FVec Ideal (⟨1, ![4096]⟩ : Shape) .f32) : FVec Ideal (⟨3, ![4, 2048, 4096]⟩ : Shape) .f32 :=
  fun j => outAt x rm lf ls scale bias (j 0) (j 1) (j 2)

end Cert.Spec

end
-- ==== Proof.KI.Result.lean ====
/- The value of the kernel program's result, read off the whole run: the last reshape reads the second call's
   result array; that array is (h·Baᵀ + t) + (h·Bmᵀ + s)·(x·Wᵀ) of the arrays the second call finds, of which h is
   the first call's result, Σᵢ x·Aᵀ, and the others are what the host stretches made of the arguments (a reshape of
   x to [8192, 4096] — row b·2048 + s is (b, s) —, transposes of A, of W and of the two halves of B, scale and bias as
   rows); read at an index, this is the specification's function of the arguments and the dequantised weight. -/
import proofs.«135921_j83004537962674_1_alg».proof.Proof.KI.Whole
import proofs.«135921_j83004537962674_1_alg».proof.Proof.KI.Val0
import proofs.«135921_j83004537962674_1_alg».proof.Proof.KI.Val1
import proofs.«135921_j83004537962674_1_alg».proof.Proof.KI.HostVals
import proofs.«135921_j83004537962674_1_alg».proof.Proof.Spec
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-! The arrays at their literal types. -/
abbrev argX (c : Dev nD) : FVec Ideal S4x2048x4096 .f32 := m ((c.tc : Thread nD τ).loc main_arg0)
abbrev argA (c : Dev nD) : FVec Ideal S128x4096 .f32 := m ((c.tc : Thread nD τ).loc main_arg3)
abbrev argB (c : Dev nD) : FVec Ideal S8192x128 .f32 := m ((c.tc : Thread nD τ).loc main_arg4)
abbrev argS (c : Dev nD) : FVec Ideal S4096 .f32 := m ((c.tc : Thread nD τ).loc main_arg7)
abbrev argT (c : Dev nD) : FVec Ideal S4096 .f32 := m ((c.tc : Thread nD τ).loc main_arg8)
abbrev hostW (c : Dev nD) : FVec Ideal S4096x4096 .f32 := Gen.V3 m c main_v10
abbrev hostX (c : Dev nD) : FVec Ideal S8192x4096 .bf16 := Gen.V3 m c main_v14
abbrev hostAt (c : Dev nD) : FVec Ideal S4096x128 .bf16 := Gen.V3 m c main_v16
abbrev hostWt (c : Dev nD) : FVec Ideal S4096x4096 .bf16 := Gen.V3 m c main_v12
abbrev hostBm (c : Dev nD) : FVec Ideal S128x4096 .bf16 := Gen.V3 m c main_v19
abbrev hostBa (c : Dev nD) : FVec Ideal S128x4096 .bf16 := Gen.V3 m c main_v22
abbrev hostSc (c : Dev nD) : FVec Ideal S1x4096 .f32 := Gen.V3 m c main_v23
abbrev hostBi (c : Dev nD) : FVec Ideal S1x4096 .f32 := Gen.V3 m c main_v24

theorem E4_x2d (c : Dev nD) : E4 m c main_v14 = E3 m c main_v14 :=
  (W4_arr m c 0).trans (((Reg0.dat (E3 m) c).arrAt_in 0 rfl _).trans (Reg0.A_eq (E3 m) c 0))
theorem E4_aT (c : Dev nD) : E4 m c main_v16 = E3 m c main_v16 :=
  (W4_arr m c 1).trans (((Reg0.dat (E3 m) c).arrAt_in 1 rfl _).trans (Reg0.A_eq (E3 m) c 1))
theorem E4_hid (c : Dev nD) : E4 m c main_v25 = (Reg0.dat (E3 m) c).arrAt 2 cfg0.N := W4_arr m c 2
theorem W5_out (c : Dev nD) : W5 m c main_v26 = (Reg1.dat (E4 m) c).arrAt 7 cfg1.N := W5_arr m c 7

/-- What the second call finds in each of its seven operand arrays. -/
theorem e4X (c : Dev nD) : Reg1.arrX (E4 m) c = hostX m c := E4_x2d m c
theorem e4W (c : Dev nD) : Reg1.arrW (E4 m) c = hostWt m c := W4_of_ne m c main_v12 (by decide)
theorem e4Bm (c : Dev nD) : Reg1.arrBm (E4 m) c = hostBm m c := W4_of_ne m c main_v19 (by decide)
theorem e4Ba (c : Dev nD) : Reg1.arrBa (E4 m) c = hostBa m c := W4_of_ne m c main_v22 (by decide)
theorem e4Sc (c : Dev nD) : Reg1.arrSc (E4 m) c = hostSc m c := W4_of_ne m c main_v23 (by decide)
theorem e4Bi (c : Dev nD) : Reg1.arrBi (E4 m) c = hostBi m c := W4_of_ne m c main_v24 (by decide)
theorem e4H (c : Dev nD) : Reg1.arrH (E4 m) c = fun j => ∑ i : Fin 4096, hostX m c (ix2 (j 0) i) * hostAt m c (ix2 i (j 1)) :=
  (E4_hid m c).trans (Reg0.hid_final (E3 m) c)

/-! What the host stretches made of the arguments, over the arrays at their literal types. -/
theorem hostX_apply (c : Dev nD) (p : Fin 8192) (i : Fin 4096) :
    hostX m c (ix2 p i) = argX m c (ix3 (⟨p.val / 2048, by omega⟩ : Fin 4) (⟨p.val % 2048, Nat.mod_lt _ (by norm_num)⟩ : Fin 2048) i) :=
  HostVals.x2d_apply m c p i
theorem hostAt_apply (c : Dev nD) (i : Fin 4096) (r : Fin 128) : hostAt m c (ix2 i r) = argA m c (ix2 r i) := HostVals.aT_apply m c i r
theorem hostWt_apply (c : Dev nD) (i o : Fin 4096) : hostWt m c (ix2 i o) = hostW m c (ix2 o i) := HostVals.wT_apply m c i o
theorem hostBm_apply (c : Dev nD) (r : Fin 128) (o : Fin 4096) : hostBm m c (ix2 r o) = argB m c (ix2 (⟨o.val, by omega⟩ : Fin 8192) r) :=
  HostVals.bmT_apply m c r o
theorem hostBa_apply (c : Dev nD) (r : Fin 128) (o : Fin 4096) : hostBa m c (ix2 r o) = argB m c (ix2 (⟨4096 + o.val, by omega⟩ : Fin 8192) r) :=
  HostVals.baT_apply m c r o
theorem hostSc_apply (c : Dev nD) (o : Fin 4096) : hostSc m c (ix2 (0 : Fin 1) o) = argS m c (ix1 o) := HostVals.scale_apply m c o
theorem hostBi_apply (c : Dev nD) (o : Fin 4096) : hostBi m c (ix2 (0 : Fin 1) o) = argT m c (ix1 o) := HostVals.bias_apply m c o
theorem last_apply (c : Dev nD) (b : Fin 4) (s : Fin 2048) (o : Fin 4096) :
    (W6 m c main_v27 : FVec Ideal S4x2048x4096 .f32) (ix3 b s o)
      = (W5 m c main_v26 : FVec Ideal S8192x4096 .f32) (ix2 (⟨b.val * 2048 + s.val, by omega⟩ : Fin 8192) o) :=
  HostVals.out3d_apply (W5 m c) b s o

theorem result_eq (c : Dev nD) :
    (W6 m c main_v27 : FVec Ideal S4x2048x4096 .f32)
      = Cert.Spec.out (argX m c) (hostW m c) (argA m c) (argB m c) (argS m c) (argT m c) := by
  funext j
  obtain ⟨b, s, o, rfl⟩ : ∃ (b : Fin 4) (s : Fin 2048) (o : Fin 4096), j = ix3 b s o := ⟨j 0, j 1, j 2, eq_ix3 j⟩
  have hx : ∀ i : Fin 4096, hostX m c (ix2 (⟨b.val * 2048 + s.val, by omega⟩ : Fin 8192) i) = argX m c (ix3 b s i) := fun i => by
    rw [hostX_apply]
    congr 1
    refine congrArg₂ (fun (u : Fin 4) (v : Fin 2048) => ix3 u v i) (Fin.ext ?_) (Fin.ext ?_)
    · show (b.val * 2048 + s.val) / 2048 = b.val; omega
    · show (b.val * 2048 + s.val) % 2048 = s.val; omega
  have hH : ∀ r : Fin 128, Reg1.arrH (E4 m) c (ix2 (⟨b.val * 2048 + s.val, by omega⟩ : Fin 8192) r)
      = ∑ i : Fin 4096, argX m c (ix3 b s i) * argA m c (ix2 r i) := fun r => by
    refine (congrFun (e4H m c) (ix2 (⟨b.val * 2048 + s.val, by omega⟩ : Fin 8192) r)).trans ?_
    show (∑ i : Fin 4096, hostX m c (ix2 (⟨b.val * 2048 + s.val, by omega⟩ : Fin 8192) i) * hostAt m c (ix2 i r)) = _
    exact Finset.sum_congr rfl fun i _ => by rw [hx i, hostAt_apply]
  have hout : (W5 m c main_v26 : FVec Ideal S8192x4096 .f32) (ix2 (⟨b.val * 2048 + s.val, by omega⟩ : Fin 8192) o)
      = ((∑ r : Fin 128, Reg1.arrH (E4 m) c (ix2 (⟨b.val * 2048 + s.val, by omega⟩ : Fin 8192) r) * Reg1.arrBa (E4 m) c (ix2 r o)) + Reg1.arrBi (E4 m) c (ix2 (0 : Fin 1) o))
        + ((∑ r : Fin 128, Reg1.arrH (E4 m) c (ix2 (⟨b.val * 2048 + s.val, by omega⟩ : Fin 8192) r) * Reg1.arrBm (E4 m) c (ix2 r o)) + Reg1.arrSc (E4 m) c (ix2 (0 : Fin 1) o))
          * (∑ i : Fin 4096, Reg1.arrX (E4 m) c (ix2 (⟨b.val * 2048 + s.val, by omega⟩ : Fin 8192) i) * Reg1.arrW (E4 m) c (ix2 i o)) :=
    congrFun ((W5_out m c).trans (Reg1.out_final (E4 m) c)) (ix2 (⟨b.val * 2048 + s.val, by omega⟩ : Fin 8192) o)
  refine (last_apply m c b s o).trans (hout.trans ?_)
  show _ = Cert.Spec.outAt (argX m c) (hostW m c) (argA m c) (argB m c) (argS m c) (argT m c) b s o
  unfold Cert.Spec.outAt Cert.Spec.hid Cert.Spec.base
  rw [e4X, e4W, e4Bm, e4Ba, e4Sc, e4Bi, hostSc_apply, hostBi_apply]
  simp only [hH, hx]
  refine congrArg₂ (· + ·) (congrArg₂ (· + ·) (Finset.sum_congr rfl fun r _ => by rw [hostBa_apply]) rfl)
    (congrArg₂ (· * ·) (congrArg₂ (· + ·) (Finset.sum_congr rfl fun r _ => by rw [hostBm_apply]) rfl)
      (Finset.sum_congr rfl fun i _ => by rw [hostWt_apply]))

end Cert.KernelIdeal.Whole

end
-- ==== Proof.RefStretches.lean ====
/- The reference's forty-three host operations read in seven consecutive stretches, each over ANY contents of the
   buffers, so that the typed-reference casts of the inlined gather function are met a few operations at a time: what
   the whole line leaves in its result buffer is one named composition of the nine arguments, equal to the composed
   term the run states. -/
import proofs.«135921_j83004537962674_1_alg».proof.Proof.RefRunOps

noncomputable section

namespace Cert.ReferenceIdeal.Stretches

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The run read in stretches

The forty-three operations are read in seven consecutive stretches, each over ANY contents `X` of the buffers: the
flattening of the block indices; the gather's first eight operations (the indices made ready); its next nine (the
range mask); its next four (the mask reduced, the codebook gathered, the quiet NaN); its select; the nine operations
that regroup, scale and shift the gathered values; the last eleven (the three products and the combination). What a
stretch leaves in a buffer it writes is a function of what the buffers it reads held before it; no stretch writes an
argument. The whole run is the stretches composed. -/

section Stretches

/-- Two lines run one after the other leave what their concatenation leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The indices made ready for the gather: each negative index moved up by the codebook length 256, and a trailing
    unit axis added. -/
def rIdx (i0 : IVec S4096x4096 32) : IVec S4096x4096x1 32 :=
  shapeCast S4096x4096x1
    (select (cmpi .slt i0 (broadcastInDim S4096x4096 ![] bcast_S_S4096x4096 (constantI S_ 32 0#32)))
      (addi i0 (broadcastInDim S4096x4096 ![] bcast_S_S4096x4096 (constantI S_ 32 256#32))) i0)
    shapeCasts_S4096x4096_S4096x4096x1

/-- The range mask "0 ≤ index" and "index ≤ 255". -/
def rMask (i5 : IVec S4096x4096x1 32) : IVec S4096x4096x1 1 :=
  andi
    (cmpi .sge i5 (broadcastInDim S4096x4096x1 ![] bcast_S_S4096x4096x1 (constantI S_ 32 0#32)))
    (cmpi .sle i5
      (broadcastInDim S4096x4096x1 ![0, 1, 2] bcast_S1x1x1_S4096x4096x1_0_1_2
        (broadcastInDim S1x1x1 ![2] bcast_S1_S1x1x1_2 (constantI S1 32 255#32))))

/-- The gather proper: the mask reduced over the unit axis; the codebook rows gathered at the indices; the quiet NaN
    where the mask fails. -/
def rGather (i5 : IVec S4096x4096x1 32) (x2 : FVec F S4096x256 .f32) : FVec F S4096x4096 .f32 :=
  select
    (Host.reduce IntOp.andi (rMask i5) (constantI S_ 1 1#1) reducesTo_S4096x4096x1_S4096x4096_d2 h_S_)
    (Host.gather gather_S4096x256_S4096x4096x1_S4096x4096_n_1_0_0_1_2_11 x2 i5)
    (broadcastInDim S4096x4096 ![] bcast_S_S4096x4096 (constant S_ .f32 0x7FC00000#32))

/-- The gathered values regrouped from (block row, block column, row in block, column in block) to (block row, row in
    block, block column, column in block) and flattened to the 4096 × 4096 matrix; that matrix cut into 8 × 8 cells,
    each cell multiplied by its grid scale and added to its grid bias; the cells flattened back to 4096 × 4096. -/
def rAffine (g : FVec F S4096x4096 .f32) (x5 x6 : FVec F S512x1x512x1 .f32) : FVec F S4096x4096 .f32 :=
  shapeCast S4096x4096
    (addf (broadcastInDim S512x8x512x8 ![0, 1, 2, 3] bcast_S512x1x512x1_S512x8x512x8_0_1_2_3 x6)
      (mulf
        (shapeCast S512x8x512x8
          (shapeCast S4096x4096
            (transpose S64x64x64x64 [0, 2, 1, 3] (shapeCast S64x64x64x64 g shapeCasts_S4096x4096_S64x64x64x64)
              transposes_S64x64x64x64_S64x64x64x64_0_2_1_3)
            shapeCasts_S64x64x64x64_S4096x4096)
          shapeCasts_S4096x4096_S512x8x512x8)
        (broadcastInDim S512x8x512x8 ![0, 1, 2, 3] bcast_S512x1x512x1_S512x8x512x8_0_1_2_3 x5)))
    shapeCasts_S512x8x512x8_S4096x4096

/-- The low-rank product x · Aᵀ · Bᵀ plus the concatenated scale and bias, 8192 columns wide. -/
def rLow (x0 : FVec F S4x2048x4096 .f32) (x3 : FVec F S128x4096 .f32) (x4 : FVec F S8192x128 .f32)
    (x7 x8 : FVec F S4096 .f32) : FVec F S4x2048x8192 .f32 :=
  addf
    (Host.dotGeneral dot_S4x2048x128_S8192x128_S4x2048x8192_2_1_01_0_n_n none
      (Host.dotGeneral dot_S4x2048x4096_S128x4096_S4x2048x128_2_1_01_0_n_n none x0 x3) x4)
    (broadcastInDim S4x2048x8192 ![0, 1, 2] bcast_S1x1x8192_S4x2048x8192_0_1_2
      (broadcastInDim S1x1x8192 ![2] bcast_S8192_S1x1x8192_2
        (concatenate S8192 0 [⟨S4096, x7⟩, ⟨S4096, x8⟩] concatenates_S4096_S4096_S8192_d0)))

/-- The result: the additive half of the low-rank term plus the multiplicative half times x · Wᵀ. -/
def rOut (x0 : FVec F S4x2048x4096 .f32) (w : FVec F S4096x4096 .f32) (x3 : FVec F S128x4096 .f32)
    (x4 : FVec F S8192x128 .f32) (x7 x8 : FVec F S4096 .f32) : FVec F S4x2048x4096 .f32 :=
  addf (extractStridedSlice S4x2048x4096 ![0, 0, 4096] (rLow x0 x3 x4 x7 x8) slices_S4x2048x8192_S4x2048x4096_0_0_4096)
    (mulf (extractStridedSlice S4x2048x4096 ![0, 0, 0] (rLow x0 x3 x4 x7 x8) slices_S4x2048x8192_S4x2048x4096_0_0_0)
      (Host.dotGeneral dot_S4x2048x4096_S4096x4096_S4x2048x4096_2_1_01_0_n_n none x0 w))

/-- The whole composition of the nine arguments. -/
def rAll (x0 : FVec F S4x2048x4096 .f32) (x1 : IVec S64x64x64x64 32) (x2 : FVec F S4096x256 .f32)
    (x3 : FVec F S128x4096 .f32) (x4 : FVec F S8192x128 .f32) (x5 x6 : FVec F S512x1x512x1 .f32)
    (x7 x8 : FVec F S4096 .f32) : FVec F S4x2048x4096 .f32 :=
  rOut x0 (rAffine (rGather (rIdx (shapeCast S4096x4096 x1 shapeCasts_S64x64x64x64_S4096x4096)) x2) x5 x6) x3 x4 x7 x8

set_option maxRecDepth 65536 in
/-- The named result is that composition of the launch contents of the arguments. -/
theorem res_main_v21_eq (m : (ℓ : Loc nD τ sig) → Buf (Elt F) ℓ) (c : Dev nD) :
    @Eq (FVec F S4x2048x4096 .f32) (res_main_v21 m c)
      (rAll (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8))) := by
  unfold res_main_v21 rAll rOut rLow rAffine rGather rMask rIdx
  first | with_reducible rfl | rfl

/-- The operations are the seven stretches in order. -/
theorem ops_split : (ops : List (HloOp τ sig (Elt F)))
    = List.take 1 (List.drop 0 ops) ++ (List.take 8 (List.drop 1 ops) ++ (List.take 9 (List.drop 9 ops) ++ (List.take 4 (List.drop 18 ops) ++ (List.take 1 (List.drop 22 ops) ++ (List.take 9 (List.drop 23 ops) ++ List.take 11 (List.drop 32 ops)))))) := rfl

/-- The references the operations write: every buffer but the nine arguments. -/
abbrev opsW : List (Ref sig .tc) :=
  [main_v0, main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_cst, main_call0_v14,
   main_v1, main_v2, main_v3, main_v4, main_v5, main_v6, main_v7, main_v8, main_v9, main_v10, main_v11, main_v12,
   main_v13, main_v14, main_v15, main_v16, main_v17, main_v18, main_v19, main_v20, main_v21]

set_option maxRecDepth 65536 in
theorem ops_writes : (ops : List (HloOp τ sig (Elt F))).Forall fun op =>
    op.writes ⊆ (opsW.map (Proc.devRef (τ := τ) .tc)).toFinset := by
  simp only [List.Forall]
  repeat' apply And.intro
  all_goals (simp only [nullary_writes, unary_writes, binary_writes, ternary_writes, reshape_writes,
    Finset.singleton_subset_iff, List.mem_toFinset]; exact List.mem_map_of_mem (by decide))

variable (X : Valuation τ sig (Elt F))

/-- No stretch writes a buffer that no operation writes: an argument keeps its contents through each. -/
theorem keep (n k : ℕ) {r : Ref sig .tc} (hr : r ∉ opsW) :
    after (List.take n (List.drop k ops)) X (no_index (Proc.devRef .tc r)) = X (Proc.devRef .tc r) :=
  after_of_writes_sub _ X
    (List.forall_iff_forall_mem.mpr fun op h =>
      List.forall_iff_forall_mem.mp ops_writes op (List.mem_of_mem_drop (List.mem_of_mem_take h))) hr

/-- The first line flattens the block indices. -/
theorem s0_idx :
    @Eq (IVec S4096x4096 32) (after (List.take 1 (List.drop 0 ops)) X (no_index (Proc.devRef .tc main_v0)))
      (shapeCast S4096x4096 (X main_arg1) shapeCasts_S64x64x64x64_S4096x4096) := by
  dsimp only [ops, List.drop, List.take]
  after_results_simp
  first | done | rfl

/-- The gather's first eight operations leave the prepared indices. -/
theorem s1_idx :
    @Eq (IVec S4096x4096x1 32) (after (List.take 8 (List.drop 1 ops)) X (no_index (Proc.devRef .tc main_call0_v5))) (rIdx (X main_v0)) := by
  dsimp only [ops, List.drop, List.take]
  after_results_simp
  first | done | (unfold rIdx; rfl)

/-- The next nine leave the range mask … -/
theorem s2_mask :
    @Eq (IVec S4096x4096x1 1) (after (List.take 9 (List.drop 9 ops)) X (no_index (Proc.devRef .tc main_call0_v11)))
      (rMask (X main_call0_v5)) := by
  dsimp only [ops, List.drop, List.take]
  after_results_simp
  first | done | (unfold rMask; rfl)
/-- … the reduction's starting bit … -/
theorem s2_init :
    @Eq (IVec S_ 1) (after (List.take 9 (List.drop 9 ops)) X (no_index (Proc.devRef .tc main_call0_c_3))) (constantI S_ 1 1#1) := by
  dsimp only [ops, List.drop, List.take]
  after_results_simp
  first | done | rfl
/-- … and do not touch the prepared indices. -/
theorem s2_idx : after (List.take 9 (List.drop 9 ops)) X (no_index (Proc.devRef .tc main_call0_v5)) = X main_call0_v5 := by
  dsimp only [ops, List.drop, List.take]
  after_results_simp

/-- The next four leave the reduced mask … -/
theorem s3_mask :
    @Eq (IVec S4096x4096 1) (after (List.take 4 (List.drop 18 ops)) X (no_index (Proc.devRef .tc main_call0_v12)))
      (Host.reduce IntOp.andi (X main_call0_v11) (X main_call0_c_3) reducesTo_S4096x4096x1_S4096x4096_d2 h_S_) := by
  dsimp only [ops, List.drop, List.take]
  after_results_simp
  first | done | exact cast_eq _ _
/-- … the gathered codebook entries … -/
theorem s3_gather :
    @Eq (FVec F S4096x4096 .f32) (after (List.take 4 (List.drop 18 ops)) X (no_index (Proc.devRef .tc main_call0_v13)))
      (Host.gather gather_S4096x256_S4096x4096x1_S4096x4096_n_1_0_0_1_2_11 (X main_arg2) (X main_call0_v5)) := by
  dsimp only [ops, List.drop, List.take]
  after_results_simp
  first | done | rfl
/-- … and the quiet NaN everywhere. -/
theorem s3_nan :
    @Eq (FVec F S4096x4096 .f32) (after (List.take 4 (List.drop 18 ops)) X (no_index (Proc.devRef .tc main_call0_v14)))
      (broadcastInDim S4096x4096 ![] bcast_S_S4096x4096 (constant S_ .f32 0x7FC00000#32)) := by
  dsimp only [ops, List.drop, List.take]
  after_results_simp
  first | done | rfl

/-- The gather's last operation selects between the last two by the first. -/
theorem s4_select :
    @Eq (FVec F S4096x4096 .f32) (after (List.take 1 (List.drop 22 ops)) X (no_index (Proc.devRef .tc main_v1)))
      (select (X main_call0_v12) (X main_call0_v13) (X main_call0_v14)) := by
  dsimp only [ops, List.drop, List.take]
  after_results_simp
  first | done | rfl

/-- The next nine operations leave the dequantised weight. -/
theorem s5_affine :
    @Eq (FVec F S4096x4096 .f32) (after (List.take 9 (List.drop 23 ops)) X (no_index (Proc.devRef .tc main_v10)))
      (rAffine (X main_v1) (X main_arg5) (X main_arg6)) := by
  dsimp only [ops, List.drop, List.take]
  after_results_simp
  first | done | (unfold rAffine; rfl)

/-- The last eleven leave the result. -/
theorem s6_out :
    @Eq (FVec F S4x2048x4096 .f32) (after (List.take 11 (List.drop 32 ops)) X (no_index (Proc.devRef .tc main_v21)))
      (rOut (X main_arg0) (X main_v10) (X main_arg3) (X main_arg4) (X main_arg7) (X main_arg8)) := by
  dsimp only [ops, List.drop, List.take]
  after_results_simp
  first | done | (unfold rOut rLow; rfl)

/-- The whole run leaves, in the result buffer, the composition of the arguments' contents. -/
theorem ops_run :
    @Eq (FVec F S4x2048x4096 .f32) (after ops X (Proc.devRef .tc main_v21))
      (rAll (X main_arg0) (X main_arg1) (X main_arg2) (X main_arg3) (X main_arg4) (X main_arg5) (X main_arg6)
        (X main_arg7) (X main_arg8)) := by
  rw [ops_split]
  simp only [after_app]
  simp (disch := decide) only [s6_out, s5_affine, s4_select, s3_mask, s3_gather, s3_nan, s2_mask, s2_init, s2_idx,
    s1_idx, s0_idx, keep]
  first | done | (unfold rAll rGather; with_reducible rfl)

end Stretches

end Cert.ReferenceIdeal.Stretches

end
-- ==== Proof.RefOut.lean ====
/- The reference side of the value claim: the reference program's result, read stage by stage at an index
   (b, s, o), is the specification function.
     h(b,s,r)        = Σ_i x(b,s,i) · A(r,i)                         (first low-rank contraction)
     base(b,s,o)     = Σ_i x(b,s,i) · W(o,i)                         (dense contraction; W the dequantised weight, kept whole)
     intercept(o')   = scale(o') for o' < 4096, bias(o' − 4096) for 4096 ≤ o'   (the two vectors laid end to end)
     lr_out(b,s,o')  = Σ_r h(b,s,r) · B(o',r) + intercept(o')        (second low-rank contraction, o' < 8192)
     multiplicative  = lr_out at positions 0 … 4095,  additive = lr_out at positions 4096 … 8191
     result(b,s,o)   = additive(b,s,o) + multiplicative(b,s,o) · base(b,s,o)
                     = (Σ_r h·B(4096+o,r) + bias(o)) + (Σ_r h·B(o,r) + scale(o)) · base(b,s,o).
   Every step is an identification of indices; the sums agree term by term, so nothing about finiteness is used. -/
import proofs.«135921_j83004537962674_1_alg».proof.Proof.RefRead
import proofs.«135921_j83004537962674_1_alg».proof.Proof.Spec
import Idealize.ShloMosaic.PureOps.Ideal
import Idealize.ShloMosaic.Lib.Pipeline.Value
import Idealize.ShloMosaic.Lib.ValueIdx
import Mathlib.Algebra.BigOperators.Fin

noncomputable section

namespace Cert.ReferenceIdeal.RefOut

open Cert.ReferenceIdeal Idealize.ShloMosaic
open Idealize.ShloMosaic.ValueIdx Cert.ReferenceIdeal.ReadP

/-! ## The concatenation of scale and bias, read at an index

Along its only axis the joined vector of length 8192 is the scale on positions 0 … 4095 and the bias, shifted by
4096, on positions 4096 … 8191. -/

/-- Below the first extent the two-piece concatenation reads the first piece. -/
theorem concat_lo {α : Type} (x₁ x₂ : (⟨1, ![4096]⟩ : Shape).Idx → α)
    (h : Shape.Concatenates [(⟨1, ![4096]⟩ : Shape), (⟨1, ![4096]⟩ : Shape)] (⟨1, ![8192]⟩ : Shape) 0)
    (o : Fin 4096) (ho : o.val < 8192) :
    concatenate (⟨1, ![8192]⟩ : Shape) 0 [⟨(⟨1, ![4096]⟩ : Shape), x₁⟩, ⟨(⟨1, ![4096]⟩ : Shape), x₂⟩] h (ix1 (⟨o.val, ho⟩ : Fin 8192))
      = x₁ (ix1 o) :=
  concatenate_pair_apply_left 0 x₁ x₂ h (ix1 (⟨o.val, ho⟩ : Fin 8192)) rfl (ix1 o)
    (fun b => by match b with | ⟨0, _⟩ => rfl)

/-- At or past the first extent it reads the second piece, the first extent less. -/
theorem concat_hi {α : Type} (x₁ x₂ : (⟨1, ![4096]⟩ : Shape).Idx → α)
    (h : Shape.Concatenates [(⟨1, ![4096]⟩ : Shape), (⟨1, ![4096]⟩ : Shape)] (⟨1, ![8192]⟩ : Shape) 0)
    (o : Fin 4096) (ho : 4096 + o.val < 8192) :
    concatenate (⟨1, ![8192]⟩ : Shape) 0 [⟨(⟨1, ![4096]⟩ : Shape), x₁⟩, ⟨(⟨1, ![4096]⟩ : Shape), x₂⟩] h (ix1 (⟨4096 + o.val, ho⟩ : Fin 8192))
      = x₂ (ix1 o) :=
  concatenate_pair_apply_right 0 x₁ x₂ h (ix1 (⟨4096 + o.val, ho⟩ : Fin 8192)) rfl rfl (ix1 o)
    (fun b hb => by match b, hb with | ⟨0, _⟩, hb => exact absurd rfl hb)
    (by show o.val + 4096 = 4096 + o.val; omega)

/-- The intercept at a position o < 4096 is scale(o). -/
theorem intercept_lo (x7 x8 : (⟨S4096, .f32⟩ : BufTy).Contents (Elt Ideal)) (o : Fin 4096) (ho : o.val < 8192) :
    val_main_v13 (F := Ideal) x7 x8 (ix1 (⟨o.val, ho⟩ : Fin 8192)) = x7 (ix1 o) := by
  unfold val_main_v13
  exact concat_lo x7 x8 _ o ho

/-- The intercept at a position 4096 + o is bias(o). -/
theorem intercept_hi (x7 x8 : (⟨S4096, .f32⟩ : BufTy).Contents (Elt Ideal)) (o : Fin 4096) (ho : 4096 + o.val < 8192) :
    val_main_v13 (F := Ideal) x7 x8 (ix1 (⟨4096 + o.val, ho⟩ : Fin 8192)) = x8 (ix1 o) := by
  unfold val_main_v13
  exact concat_hi x7 x8 _ o ho

/-- The intercept broadcast over batch and sequence, at (b, s, o'), is the intercept at o'. -/
theorem intercept_bcast (x7 x8 : (⟨S4096, .f32⟩ : BufTy).Contents (Elt Ideal)) (b : Fin 4) (s : Fin 2048) (o' : Fin 8192) :
    val_main_v16 (F := Ideal) x7 x8 (ix3 b s o') = val_main_v13 (F := Ideal) x7 x8 (ix1 o') := by
  rw [val_main_v16_apply, val_main_v15_apply]
  exact congrArg _ (funext fun a => Fin.ext (by match a with | ⟨0, _⟩ => rfl))

/-! ## The three contractions -/

/-- The first low-rank contraction is h(b,s,r) = Σ_i x(b,s,i) · A(r,i). -/
theorem hid_at (x0 : (⟨S4x2048x4096, .f32⟩ : BufTy).Contents (Elt Ideal)) (x3 : (⟨S128x4096, .f32⟩ : BufTy).Contents (Elt Ideal)) (b : Fin 4) (s : Fin 2048) (r : Fin 128) :
    val_main_v12 (F := Ideal) x0 x3 (ix3 b s r) = Cert.Spec.hid x0 x3 b s r := by
  rw [val_main_v12_apply]
  unfold Cert.Spec.hid
  refine Finset.sum_congr rfl fun k _ => ?_
  rw [show lidx_main_v12 (ix3 b s r) k = ix3 b s k from
        funext fun a => Fin.ext (by match a with | ⟨0, _⟩ => rfl | ⟨1, _⟩ => rfl | ⟨2, _⟩ => rfl),
      show ridx_main_v12 (ix3 b s r) k = ix2 r k from
        funext fun a => Fin.ext (by match a with | ⟨0, _⟩ => rfl | ⟨1, _⟩ => rfl)]

/-- The dense contraction is Σ_i x(b,s,i) · W(o,i), W the dequantised weight kept whole. -/
theorem base_at (x0 : (⟨S4x2048x4096, .f32⟩ : BufTy).Contents (Elt Ideal)) (x1 : (⟨S64x64x64x64, .i32⟩ : BufTy).Contents (Elt Ideal)) (x2 : (⟨S4096x256, .f32⟩ : BufTy).Contents (Elt Ideal)) (x5 x6 : (⟨S512x1x512x1, .f32⟩ : BufTy).Contents (Elt Ideal)) (b : Fin 4) (s : Fin 2048) (o : Fin 4096) :
    val_main_v11 (F := Ideal) x0 x1 x2 x5 x6 (ix3 b s o)
      = Cert.Spec.base x0 (val_main_v10 (F := Ideal) x1 x2 x5 x6) b s o := by
  rw [val_main_v11_apply]
  generalize val_main_v10 (F := Ideal) x1 x2 x5 x6 = W
  unfold Cert.Spec.base
  refine Finset.sum_congr rfl fun k _ => ?_
  rw [show lidx_main_v11 (ix3 b s o) k = ix3 b s k from
        funext fun a => Fin.ext (by match a with | ⟨0, _⟩ => rfl | ⟨1, _⟩ => rfl | ⟨2, _⟩ => rfl),
      show ridx_main_v11 (ix3 b s o) k = ix2 o k from
        funext fun a => Fin.ext (by match a with | ⟨0, _⟩ => rfl | ⟨1, _⟩ => rfl)]

/-- The second low-rank contraction at (b, s, o') is Σ_r h(b,s,r) · B(o',r). -/
theorem lowrank_at (x0 : (⟨S4x2048x4096, .f32⟩ : BufTy).Contents (Elt Ideal)) (x3 : (⟨S128x4096, .f32⟩ : BufTy).Contents (Elt Ideal)) (x4 : (⟨S8192x128, .f32⟩ : BufTy).Contents (Elt Ideal)) (b : Fin 4) (s : Fin 2048) (o' : Fin 8192) :
    val_main_v14 (F := Ideal) x0 x3 x4 (ix3 b s o')
      = ∑ r : Fin 128, Cert.Spec.hid x0 x3 b s r * x4 (ix2 o' r) := by
  rw [val_main_v14_apply]
  refine Finset.sum_congr rfl fun k _ => ?_
  rw [show lidx_main_v14 (ix3 b s o') k = ix3 b s k from
        funext fun a => Fin.ext (by match a with | ⟨0, _⟩ => rfl | ⟨1, _⟩ => rfl | ⟨2, _⟩ => rfl),
      show ridx_main_v14 (ix3 b s o') k = ix2 o' k from
        funext fun a => Fin.ext (by match a with | ⟨0, _⟩ => rfl | ⟨1, _⟩ => rfl),
      hid_at]

/-! ## The low-rank output with its intercept, and its two halves -/

/-- lr_out(b,s,o') = Σ_r h(b,s,r) · B(o',r) + intercept(o'). -/
theorem lrout_at (x0 : (⟨S4x2048x4096, .f32⟩ : BufTy).Contents (Elt Ideal)) (x3 : (⟨S128x4096, .f32⟩ : BufTy).Contents (Elt Ideal)) (x4 : (⟨S8192x128, .f32⟩ : BufTy).Contents (Elt Ideal)) (x7 x8 : (⟨S4096, .f32⟩ : BufTy).Contents (Elt Ideal)) (b : Fin 4) (s : Fin 2048) (o' : Fin 8192) :
    val_main_v17 (F := Ideal) x0 x3 x4 x7 x8 (ix3 b s o')
      = (∑ r : Fin 128, Cert.Spec.hid x0 x3 b s r * x4 (ix2 o' r)) + val_main_v13 (F := Ideal) x7 x8 (ix1 o') := by
  rw [val_main_v17_apply, lowrank_at, intercept_bcast, Ideal.addf_def]

/-- The multiplicative half: positions 0 … 4095 of lr_out, whose intercept is the scale. -/
theorem mult_at (x0 : (⟨S4x2048x4096, .f32⟩ : BufTy).Contents (Elt Ideal)) (x3 : (⟨S128x4096, .f32⟩ : BufTy).Contents (Elt Ideal)) (x4 : (⟨S8192x128, .f32⟩ : BufTy).Contents (Elt Ideal)) (x7 x8 : (⟨S4096, .f32⟩ : BufTy).Contents (Elt Ideal)) (b : Fin 4) (s : Fin 2048) (o : Fin 4096) :
    val_main_v18 (F := Ideal) x0 x3 x4 x7 x8 (ix3 b s o)
      = (∑ r : Fin 128, Cert.Spec.hid x0 x3 b s r * x4 (ix2 (⟨o.val, by omega⟩ : Fin 8192) r)) + x7 (ix1 o) := by
  rw [val_main_v18_apply,
      show idx_main_v18 (ix3 b s o) = ix3 b s (⟨o.val, by omega⟩ : Fin 8192) from
        funext fun a => Fin.ext (by match a with | ⟨0, _⟩ => rfl | ⟨1, _⟩ => rfl | ⟨2, _⟩ => rfl),
      lrout_at, intercept_lo]

/-- The additive half: positions 4096 … 8191 of lr_out, whose intercept is the bias. -/
theorem add_at (x0 : (⟨S4x2048x4096, .f32⟩ : BufTy).Contents (Elt Ideal)) (x3 : (⟨S128x4096, .f32⟩ : BufTy).Contents (Elt Ideal)) (x4 : (⟨S8192x128, .f32⟩ : BufTy).Contents (Elt Ideal)) (x7 x8 : (⟨S4096, .f32⟩ : BufTy).Contents (Elt Ideal)) (b : Fin 4) (s : Fin 2048) (o : Fin 4096) :
    val_main_v19 (F := Ideal) x0 x3 x4 x7 x8 (ix3 b s o)
      = (∑ r : Fin 128, Cert.Spec.hid x0 x3 b s r * x4 (ix2 (⟨4096 + o.val, by omega⟩ : Fin 8192) r)) + x8 (ix1 o) := by
  rw [val_main_v19_apply,
      show idx_main_v19 (ix3 b s o) = ix3 b s (⟨4096 + o.val, by omega⟩ : Fin 8192) from
        funext fun a => Fin.ext (by match a with | ⟨0, _⟩ => rfl | ⟨1, _⟩ => rfl | ⟨2, _⟩ => rfl),
      lrout_at, intercept_hi]

/-! ## The result -/

/-- The reference's result is the specification: additive + multiplicative · baseline, entry by entry. -/
theorem ref_out (x0 : (⟨S4x2048x4096, .f32⟩ : BufTy).Contents (Elt Ideal)) (x1 : (⟨S64x64x64x64, .i32⟩ : BufTy).Contents (Elt Ideal)) (x2 : (⟨S4096x256, .f32⟩ : BufTy).Contents (Elt Ideal)) (x3 : (⟨S128x4096, .f32⟩ : BufTy).Contents (Elt Ideal)) (x4 : (⟨S8192x128, .f32⟩ : BufTy).Contents (Elt Ideal)) (x5 x6 : (⟨S512x1x512x1, .f32⟩ : BufTy).Contents (Elt Ideal)) (x7 x8 : (⟨S4096, .f32⟩ : BufTy).Contents (Elt Ideal)) :
    Cert.ReferenceIdeal.ReadP.val_main_v21 (F := Ideal) x0 x1 x2 x3 x4 x5 x6 x7 x8
      = Cert.Spec.out x0 (Cert.ReferenceIdeal.ReadP.val_main_v10 (F := Ideal) x1 x2 x5 x6) x3 x4 x7 x8 := by
  funext j
  obtain ⟨b, s, o, rfl⟩ : ∃ (b : Fin 4) (s : Fin 2048) (o : Fin 4096), j = ix3 b s o := ⟨j 0, j 1, j 2, eq_ix3 j⟩
  rw [val_main_v21_apply, val_main_v20_apply, add_at, mult_at, base_at, Ideal.addf_def, Ideal.mulf_def]
  rfl

end Cert.ReferenceIdeal.RefOut

end
-- ==== Proof.DeqEq.lean ====
/- The dequantised weight is ONE function of the four arguments it is made from on both sides: the kernel program's
   host lines and the reference's compose the same operations in the same order (the block indices flattened, negative
   indices wrapped, the range mask, the codebook gather with the quiet NaN outside the range, the regrouping of the
   64 × 64 blocks, the per-cell scale and shift), so the two compositions are the same term. -/
import proofs.«135921_j83004537962674_1_alg».proof.Proof.RefRead
import proofs.«135921_j83004537962674_1_alg».proof.Proof.KI.HostVals

noncomputable section

namespace Cert.DeqEq

open Idealize.ShloMosaic

set_option maxRecDepth 65536 in
theorem deq_eq {F : FTy → Type} [FloatOps F] (x1 : IVec Cert.KernelIdeal.S64x64x64x64 32) (x2 : FVec F Cert.KernelIdeal.S4096x256 .f32)
    (x5 x6 : FVec F Cert.KernelIdeal.S512x1x512x1 .f32) :
    Cert.KernelIdeal.HostVals.deq x1 x2 x5 x6 = Cert.ReferenceIdeal.ReadP.val_main_v10 (F := F) x1 x2 x5 x6 := by
  rw [Cert.KernelIdeal.HostVals.deq_flat]
  unfold Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_call0_v14 Cert.ReferenceIdeal.ReadP.val_main_call0_cst Cert.ReferenceIdeal.ReadP.val_main_call0_v13 Cert.ReferenceIdeal.ReadP.val_main_call0_v12 Cert.ReferenceIdeal.ReadP.val_main_call0_c_3 Cert.ReferenceIdeal.ReadP.val_main_call0_v11 Cert.ReferenceIdeal.ReadP.val_main_call0_v10 Cert.ReferenceIdeal.ReadP.val_main_call0_v9 Cert.ReferenceIdeal.ReadP.val_main_call0_v8 Cert.ReferenceIdeal.ReadP.val_main_call0_v7 Cert.ReferenceIdeal.ReadP.val_main_call0_v6 Cert.ReferenceIdeal.ReadP.val_main_call0_c_2 Cert.ReferenceIdeal.ReadP.val_main_call0_c_1 Cert.ReferenceIdeal.ReadP.val_main_call0_v5 Cert.ReferenceIdeal.ReadP.val_main_call0_v4 Cert.ReferenceIdeal.ReadP.val_main_call0_v3 Cert.ReferenceIdeal.ReadP.val_main_call0_v2 Cert.ReferenceIdeal.ReadP.val_main_call0_c_0 Cert.ReferenceIdeal.ReadP.val_main_call0_v1 Cert.ReferenceIdeal.ReadP.val_main_call0_v0 Cert.ReferenceIdeal.ReadP.val_main_call0_c Cert.ReferenceIdeal.ReadP.val_main_v0
  rfl

end Cert.DeqEq

end
-- ==== Proof.lean ====
/- The certificate's claim: the word-level kernel and its idealization run to the end, fault nowhere and leave their
   nine argument arrays unchanged (two pallas_calls, each a matrix product accumulated in a scratch buffer over four
   blocks of the contracted axis, among host stretches that dequantise the weight and lay the operands out); so does
   the reference; the idealization rewrote nothing; and at the ideal values the two programs' results are the same
   function of the arguments:
     out(b,s,o) = (Σ_r h(b,s,r)·B(4096+o,r) + t(o)) + (Σ_r h(b,s,r)·B(o,r) + s(o)) · (Σ_i x(b,s,i)·W(o,i)),
     h(b,s,r) = Σ_i x(b,s,i)·A(r,i),
   W the dequantised weight, which both programs compute by the same host operations from the same four arguments.
   The kernel sums each contraction in four blocks of 1024 where the reference sums it whole: equal in any
   commutative additive monoid, so no finiteness of the inputs is used. -/
import proofs.«135921_j83004537962674_1_alg».proof.Defs
import proofs.«135921_j83004537962674_1_alg».proof.Proof.Gen.Kernel
import proofs.«135921_j83004537962674_1_alg».proof.Proof.Gen.KernelIdeal
import proofs.«135921_j83004537962674_1_alg».proof.Proof.Gen.ReferenceIdeal
import proofs.«135921_j83004537962674_1_alg».proof.Proof.Gen.Pre_finite_inputs
import proofs.«135921_j83004537962674_1_alg».proof.Proof.K.Frame
import proofs.«135921_j83004537962674_1_alg».proof.Proof.KI.Frame
import proofs.«135921_j83004537962674_1_alg».proof.Proof.KI.Result
import proofs.«135921_j83004537962674_1_alg».proof.Proof.RefOut
import proofs.«135921_j83004537962674_1_alg».proof.Proof.DeqEq
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Whole.frame (F := Bits) m ρ

theorem frame_ki : @Cert.frame_KernelIdeal Cert.KernelIdeal.Gen.facts Cert.Pre_finite_inputs.Gen.facts :=
  fun m ρ _ => Cert.KernelIdeal.Whole.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end with the specification's function of the arguments: the kernel's whole run read at its result
    (the two calls' values through the host layout changes), the reference's stages read at an index; the dequantised
    weight is one composition of the same host operations on both sides. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.out (Cert.KernelIdeal.Whole.argX m c) (Cert.KernelIdeal.Whole.hostW m c) (Cert.KernelIdeal.Whole.argA m c)
      (Cert.KernelIdeal.Whole.argB m c) (Cert.KernelIdeal.Whole.argS m c) (Cert.KernelIdeal.Whole.argT m c), ?_, ?_⟩
  · refine (θ_run Cert.KernelIdeal.defs _ _).mono (fun r h c => ⟨?_, Cert.KernelIdeal.Whole.args_kept m c r.2.mem (h c)⟩)
      (Cert.KernelIdeal.Whole.run_all (F := Ideal) m ρ)
    exact (h c _ (Cert.KernelIdeal.Whole.mem_uc Cert.KernelIdeal.main_v27 (by decide))).trans (Cert.KernelIdeal.Whole.result_eq m c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v21_eq, Cert.ReferenceIdeal.RefOut.ref_out]
    obtain ⟨h0, h1, h2, h3, h4, h5, h6, h7, h8⟩ := hagree c
    rw [h0, h1, h2, h3, h4, h5, h6, h7, h8]
    show Cert.Spec.out _ _ _ _ _ _ = Cert.Spec.out _ _ _ _ _ _
    refine congrArg (fun w => Cert.Spec.out (Cert.KernelIdeal.Whole.argX m c) w (Cert.KernelIdeal.Whole.argA m c)
      (Cert.KernelIdeal.Whole.argB m c) (Cert.KernelIdeal.Whole.argS m c) (Cert.KernelIdeal.Whole.argT m c)) ?_
    exact ((Cert.KernelIdeal.HostVals.w_eq m c).trans (Cert.DeqEq.deq_eq _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
